-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)) →
    ∃ (v0 : (c : Dev Cert.KernelIdeal.nD) → Buf (Elt Ideal) ((c.tc : Thread Cert.KernelIdeal.nD Cert.KernelIdeal.τ).loc Cert.KernelIdeal.main_v17)) (v1 : (c : Dev Cert.KernelIdeal.nD) → Buf (Elt Ideal) ((c.tc : Thread Cert.KernelIdeal.nD Cert.KernelIdeal.τ).loc Cert.KernelIdeal.main_v18)) (v2 : (c : Dev Cert.KernelIdeal.nD) → Buf (Elt Ideal) ((c.tc : Thread Cert.KernelIdeal.nD Cert.KernelIdeal.τ).loc Cert.KernelIdeal.main_v16_2)) (v3 : (c : Dev Cert.KernelIdeal.nD) → Buf (Elt Ideal) ((c.tc : Thread Cert.KernelIdeal.nD Cert.KernelIdeal.τ).loc Cert.KernelIdeal.main_v16_3)) (v4 : (c : Dev Cert.KernelIdeal.nD) → Buf (Elt Ideal) ((c.tc : Thread Cert.KernelIdeal.nD Cert.KernelIdeal.τ).loc Cert.KernelIdeal.main_v16_4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v17) = v0 c
          ∧ r.2.mem ((c.tc : Thread Cert.KernelIdeal.nD Cert.KernelIdeal.τ).loc Cert.KernelIdeal.main_v18) = v1 c
          ∧ r.2.mem ((c.tc : Thread Cert.KernelIdeal.nD Cert.KernelIdeal.τ).loc Cert.KernelIdeal.main_v16_2) = v2 c
          ∧ r.2.mem ((c.tc : Thread Cert.KernelIdeal.nD Cert.KernelIdeal.τ).loc Cert.KernelIdeal.main_v16_3) = v3 c
          ∧ r.2.mem ((c.tc : Thread Cert.KernelIdeal.nD Cert.KernelIdeal.τ).loc Cert.KernelIdeal.main_v16_4) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v110) = v0 c
          ∧ r.2.mem ((c.tc : Thread Cert.ReferenceIdeal.nD Cert.ReferenceIdeal.τ).loc Cert.ReferenceIdeal.main_v119) = v1 c
          ∧ r.2.mem ((c.tc : Thread Cert.ReferenceIdeal.nD Cert.ReferenceIdeal.τ).loc Cert.ReferenceIdeal.main_v122) = v2 c
          ∧ r.2.mem ((c.tc : Thread Cert.ReferenceIdeal.nD Cert.ReferenceIdeal.τ).loc Cert.ReferenceIdeal.main_v71) = v3 c
          ∧ r.2.mem ((c.tc : Thread Cert.ReferenceIdeal.nD Cert.ReferenceIdeal.τ).loc Cert.ReferenceIdeal.main_v97) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x512 : Shape := ⟨2, ![16384, 512]⟩
abbrev S1x16384x512 : Shape := ⟨3, ![1, 16384, 512]⟩
abbrev S16384x1 : Shape := ⟨2, ![16384, 1]⟩
abbrev S2048x512 : Shape := ⟨2, ![2048, 512]⟩
abbrev S2048 : Shape := ⟨1, ![2048]⟩
abbrev S256x512 : Shape := ⟨2, ![256, 512]⟩
abbrev S256 : Shape := ⟨1, ![256]⟩
abbrev S1x256 : Shape := ⟨2, ![1, 256]⟩
abbrev S1 : Shape := ⟨1, ![1]⟩
abbrev S_ : Shape := ⟨0, ![]⟩

class Facts : Prop where
  bcast_S_S16384x512 : S_.BroadcastsInDim S16384x512 (![] : Fin 0 → Fin S16384x512.rank)
  reducesTo_S16384x512_S_d0_1 : S16384x512.ReducesTo [0, 1] S_
  h_S_ : 0 < S_.numel
  bcast_S_S1x16384x512 : S_.BroadcastsInDim S1x16384x512 (![] : Fin 0 → Fin S1x16384x512.rank)
  reducesTo_S1x16384x512_S_d0_1_2 : S1x16384x512.ReducesTo [0, 1, 2] S_
  bcast_S_S16384x1 : S_.BroadcastsInDim S16384x1 (![] : Fin 0 → Fin S16384x1.rank)
  reducesTo_S16384x1_S_d0_1 : S16384x1.ReducesTo [0, 1] S_
  bcast_S_S2048x512 : S_.BroadcastsInDim S2048x512 (![] : Fin 0 → Fin S2048x512.rank)
  reducesTo_S2048x512_S_d0_1 : S2048x512.ReducesTo [0, 1] S_
  bcast_S_S2048 : S_.BroadcastsInDim S2048 (![] : Fin 0 → Fin S2048.rank)
  reducesTo_S2048_S_d0 : S2048.ReducesTo [0] S_
  bcast_S_S256x512 : S_.BroadcastsInDim S256x512 (![] : Fin 0 → Fin S256x512.rank)
  reducesTo_S256x512_S_d0_1 : S256x512.ReducesTo [0, 1] S_
  bcast_S_S256 : S_.BroadcastsInDim S256 (![] : Fin 0 → Fin S256.rank)
  reducesTo_S256_S_d0 : S256.ReducesTo [0] S_
  bcast_S_S1x256 : S_.BroadcastsInDim S1x256 (![] : Fin 0 → Fin S1x256.rank)
  reducesTo_S1x256_S_d0_1 : S1x256.ReducesTo [0, 1] S_
  bcast_S_S1 : S_.BroadcastsInDim S1 (![] : Fin 0 → Fin S1.rank)
  reducesTo_S1_S_d0 : S1.ReducesTo [0] S_

variable [Facts]

def fn_part5 {F : FTy → Type} [FloatOps F] (main_v83 : IVec S_ 1) (main_v84 : FVec F S1 .f32) (main_cst_32 : FVec F S_ .f32) : IVec S_ 1 :=
  let main_v85 : FVec F S1 .f32 := broadcastInDim S1 ![] bcast_S_S1 main_cst_32
  let main_v86 : IVec S1 1 := cmpf .olt main_v84 main_v85
  let main_c_33 : IVec S_ 1 := constantI S_ 1 1#1
  let main_v87 : IVec S_ 1 := (fun x v => Host.reduce IntOp.andi x v reducesTo_S1_S_d0 h_S_) main_v86 main_c_33
  let main_v88 : IVec S_ 1 := andi main_v83 main_v87
  main_v88

def fn_part4 {F : FTy → Type} [FloatOps F] (main_arg14 : FVec F S256x512 .f32) (main_arg15 : FVec F S256 .f32) (main_arg16 : FVec F S1x256 .f32) (main_arg17 : FVec F S1 .f32) (main_v63 : IVec S_ 1) (main_v67 : IVec S_ 1) : IVec S_ 1 :=
  let main_v68 : IVec S_ 1 := andi main_v63 main_v67
  let main_v69 : FVec F S256x512 .f32 := Host.absf main_arg14
  let main_cst_26 : FVec F S_ .f32 := constant S_ .f32 0x7F800000#32
  let main_v70 : FVec F S256x512 .f32 := broadcastInDim S256x512 ![] bcast_S_S256x512 main_cst_26
  let main_v71 : IVec S256x512 1 := cmpf .olt main_v69 main_v70
  let main_c_27 : IVec S_ 1 := constantI S_ 1 1#1
  let main_v72 : IVec S_ 1 := (fun x v => Host.reduce IntOp.andi x v reducesTo_S256x512_S_d0_1 h_S_) main_v71 main_c_27
  let main_v73 : IVec S_ 1 := andi main_v68 main_v72
  let main_v74 : FVec F S256 .f32 := Host.absf main_arg15
  let main_cst_28 : FVec F S_ .f32 := constant S_ .f32 0x7F800000#32
  let main_v75 : FVec F S256 .f32 := broadcastInDim S256 ![] bcast_S_S256 main_cst_28
  let main_v76 : IVec S256 1 := cmpf .olt main_v74 main_v75
  let main_c_29 : IVec S_ 1 := constantI S_ 1 1#1
  let main_v77 : IVec S_ 1 := (fun x v => Host.reduce IntOp.andi x v reducesTo_S256_S_d0 h_S_) main_v76 main_c_29
  let main_v78 : IVec S_ 1 := andi main_v73 main_v77
  let main_v79 : FVec F S1x256 .f32 := Host.absf main_arg16
  let main_cst_30 : FVec F S_ .f32 := constant S_ .f32 0x7F800000#32
  let main_v80 : FVec F S1x256 .f32 := broadcastInDim S1x256 ![] bcast_S_S1x256 main_cst_30
  let main_v81 : IVec S1x256 1 := cmpf .olt main_v79 main_v80
  let main_c_31 : IVec S_ 1 := constantI S_ 1 1#1
  let main_v82 : IVec S_ 1 := (fun x v => Host.reduce IntOp.andi x v reducesTo_S1x256_S_d0_1 h_S_) main_v81 main_c_31
  let main_v83 : IVec S_ 1 := andi main_v78 main_v82
  let main_v84 : FVec F S1 .f32 := Host.absf main_arg17
  let main_cst_32 : FVec F S_ .f32 := constant S_ .f32 0x7F800000#32
  fn_part5 (F := F) main_v83 main_v84 main_cst_32

def fn_part3 {F : FTy → Type} [FloatOps F] (main_arg11 : FVec F S256 .f32) (main_arg12 : FVec F S1x256 .f32) (main_arg13 : FVec F S1 .f32) (main_arg14 : FVec F S256x512 .f32) (main_arg15 : FVec F S256 .f32) (main_arg16 : FVec F S1x256 .f32) (main_arg17 : FVec F S1 .f32) (main_v48 : IVec S_ 1) (main_v49 : FVec F S256x512 .f32) (main_v50 : FVec F S256x512 .f32) : IVec S_ 1 :=
  let main_v51 : IVec S256x512 1 := cmpf .olt main_v49 main_v50
  let main_c_19 : IVec S_ 1 := constantI S_ 1 1#1
  let main_v52 : IVec S_ 1 := (fun x v => Host.reduce IntOp.andi x v reducesTo_S256x512_S_d0_1 h_S_) main_v51 main_c_19
  let main_v53 : IVec S_ 1 := andi main_v48 main_v52
  let main_v54 : FVec F S256 .f32 := Host.absf main_arg11
  let main_cst_20 : FVec F S_ .f32 := constant S_ .f32 0x7F800000#32
  let main_v55 : FVec F S256 .f32 := broadcastInDim S256 ![] bcast_S_S256 main_cst_20
  let main_v56 : IVec S256 1 := cmpf .olt main_v54 main_v55
  let main_c_21 : IVec S_ 1 := constantI S_ 1 1#1
  let main_v57 : IVec S_ 1 := (fun x v => Host.reduce IntOp.andi x v reducesTo_S256_S_d0 h_S_) main_v56 main_c_21
  let main_v58 : IVec S_ 1 := andi main_v53 main_v57
  let main_v59 : FVec F S1x256 .f32 := Host.absf main_arg12
  let main_cst_22 : FVec F S_ .f32 := constant S_ .f32 0x7F800000#32
  let main_v60 : FVec F S1x256 .f32 := broadcastInDim S1x256 ![] bcast_S_S1x256 main_cst_22
  let main_v61 : IVec S1x256 1 := cmpf .olt main_v59 main_v60
  let main_c_23 : IVec S_ 1 := constantI S_ 1 1#1
  let main_v62 : IVec S_ 1 := (fun x v => Host.reduce IntOp.andi x v reducesTo_S1x256_S_d0_1 h_S_) main_v61 main_c_23
  let main_v63 : IVec S_ 1 := andi main_v58 main_v62
  let main_v64 : FVec F S1 .f32 := Host.absf main_arg13
  let main_cst_24 : FVec F S_ .f32 := constant S_ .f32 0x7F800000#32
  let main_v65 : FVec F S1 .f32 := broadcastInDim S1 ![] bcast_S_S1 main_cst_24
  let main_v66 : IVec S1 1 := cmpf .olt main_v64 main_v65
  let main_c_25 : IVec S_ 1 := constantI S_ 1 1#1
  let main_v67 : IVec S_ 1 := (fun x v => Host.reduce IntOp.andi x v reducesTo_S1_S_d0 h_S_) main_v66 main_c_25
  fn_part4 (F := F) main_arg14 main_arg15 main_arg16 main_arg17 main_v63 main_v67

def fn_part2 {F : FTy → Type} [FloatOps F] (main_arg7 : FVec F S2048 .f32) (main_arg8 : FVec F S256x512 .f32) (main_arg9 : FVec F S256 .f32) (main_arg10 : FVec F S256x512 .f32) (main_arg11 : FVec F S256 .f32) (main_arg12 : FVec F S1x256 .f32) (main_arg13 : FVec F S1 .f32) (main_arg14 : FVec F S256x512 .f32) (main_arg15 : FVec F S256 .f32) (main_arg16 : FVec F S1x256 .f32) (main_arg17 : FVec F S1 .f32) (main_v33 : IVec S_ 1) : IVec S_ 1 :=
  let main_v34 : FVec F S2048 .f32 := Host.absf main_arg7
  let main_cst_12 : FVec F S_ .f32 := constant S_ .f32 0x7F800000#32
  let main_v35 : FVec F S2048 .f32 := broadcastInDim S2048 ![] bcast_S_S2048 main_cst_12
  let main_v36 : IVec S2048 1 := cmpf .olt main_v34 main_v35
  let main_c_13 : IVec S_ 1 := constantI S_ 1 1#1
  let main_v37 : IVec S_ 1 := (fun x v => Host.reduce IntOp.andi x v reducesTo_S2048_S_d0 h_S_) main_v36 main_c_13
  let main_v38 : IVec S_ 1 := andi main_v33 main_v37
  let main_v39 : FVec F S256x512 .f32 := Host.absf main_arg8
  let main_cst_14 : FVec F S_ .f32 := constant S_ .f32 0x7F800000#32
  let main_v40 : FVec F S256x512 .f32 := broadcastInDim S256x512 ![] bcast_S_S256x512 main_cst_14
  let main_v41 : IVec S256x512 1 := cmpf .olt main_v39 main_v40
  let main_c_15 : IVec S_ 1 := constantI S_ 1 1#1
  let main_v42 : IVec S_ 1 := (fun x v => Host.reduce IntOp.andi x v reducesTo_S256x512_S_d0_1 h_S_) main_v41 main_c_15
  let main_v43 : IVec S_ 1 := andi main_v38 main_v42
  let main_v44 : FVec F S256 .f32 := Host.absf main_arg9
  let main_cst_16 : FVec F S_ .f32 := constant S_ .f32 0x7F800000#32
  let main_v45 : FVec F S256 .f32 := broadcastInDim S256 ![] bcast_S_S256 main_cst_16
  let main_v46 : IVec S256 1 := cmpf .olt main_v44 main_v45
  let main_c_17 : IVec S_ 1 := constantI S_ 1 1#1
  let main_v47 : IVec S_ 1 := (fun x v => Host.reduce IntOp.andi x v reducesTo_S256_S_d0 h_S_) main_v46 main_c_17
  let main_v48 : IVec S_ 1 := andi main_v43 main_v47
  let main_v49 : FVec F S256x512 .f32 := Host.absf main_arg10
  let main_cst_18 : FVec F S_ .f32 := constant S_ .f32 0x7F800000#32
  let main_v50 : FVec F S256x512 .f32 := broadcastInDim S256x512 ![] bcast_S_S256x512 main_cst_18
  fn_part3 (F := F) main_arg11 main_arg12 main_arg13 main_arg14 main_arg15 main_arg16 main_arg17 main_v48 main_v49 main_v50

def fn_part1 {F : FTy → Type} [FloatOps F] (main_arg4 : FVec F S2048x512 .f32) (main_arg5 : FVec F S2048x512 .f32) (main_arg6 : FVec F S2048 .f32) (main_arg7 : FVec F S2048 .f32) (main_arg8 : FVec F S256x512 .f32) (main_arg9 : FVec F S256 .f32) (main_arg10 : FVec F S256x512 .f32) (main_arg11 : FVec F S256 .f32) (main_arg12 : FVec F S1x256 .f32) (main_arg13 : FVec F S1 .f32) (main_arg14 : FVec F S256x512 .f32) (main_arg15 : FVec F S256 .f32) (main_arg16 : FVec F S1x256 .f32) (main_arg17 : FVec F S1 .f32) (main_v13 : IVec S_ 1) (main_v16 : IVec S16384x1 1) : IVec S_ 1 :=
  let main_c_5 : IVec S_ 1 := constantI S_ 1 1#1
  let main_v17 : IVec S_ 1 := (fun x v => Host.reduce IntOp.andi x v reducesTo_S16384x1_S_d0_1 h_S_) main_v16 main_c_5
  let main_v18 : IVec S_ 1 := andi main_v13 main_v17
  let main_v19 : FVec F S2048x512 .f32 := Host.absf main_arg4
  let main_cst_6 : FVec F S_ .f32 := constant S_ .f32 0x7F800000#32
  let main_v20 : FVec F S2048x512 .f32 := broadcastInDim S2048x512 ![] bcast_S_S2048x512 main_cst_6
  let main_v21 : IVec S2048x512 1 := cmpf .olt main_v19 main_v20
  let main_c_7 : IVec S_ 1 := constantI S_ 1 1#1
  let main_v22 : IVec S_ 1 := (fun x v => Host.reduce IntOp.andi x v reducesTo_S2048x512_S_d0_1 h_S_) main_v21 main_c_7
  let main_v23 : IVec S_ 1 := andi main_v18 main_v22
  let main_v24 : FVec F S2048x512 .f32 := Host.absf main_arg5
  let main_cst_8 : FVec F S_ .f32 := constant S_ .f32 0x7F800000#32
  let main_v25 : FVec F S2048x512 .f32 := broadcastInDim S2048x512 ![] bcast_S_S2048x512 main_cst_8
  let main_v26 : IVec S2048x512 1 := cmpf .olt main_v24 main_v25
  let main_c_9 : IVec S_ 1 := constantI S_ 1 1#1
  let main_v27 : IVec S_ 1 := (fun x v => Host.reduce IntOp.andi x v reducesTo_S2048x512_S_d0_1 h_S_) main_v26 main_c_9
  let main_v28 : IVec S_ 1 := andi main_v23 main_v27
  let main_v29 : FVec F S2048 .f32 := Host.absf main_arg6
  let main_cst_10 : FVec F S_ .f32 := constant S_ .f32 0x7F800000#32
  let main_v30 : FVec F S2048 .f32 := broadcastInDim S2048 ![] bcast_S_S2048 main_cst_10
  let main_v31 : IVec S2048 1 := cmpf .olt main_v29 main_v30
  let main_c_11 : IVec S_ 1 := constantI S_ 1 1#1
  let main_v32 : IVec S_ 1 := (fun x v => Host.reduce IntOp.andi x v reducesTo_S2048_S_d0 h_S_) main_v31 main_c_11
  let main_v33 : IVec S_ 1 := andi main_v28 main_v32
  fn_part2 (F := F) main_arg7 main_arg8 main_arg9 main_arg10 main_arg11 main_arg12 main_arg13 main_arg14 main_arg15 main_arg16 main_arg17 main_v33

def fn {F : FTy → Type} [FloatOps F] (main_arg0 : FVec F S16384x512 .f32) (main_arg1 : FVec F S1x16384x512 .f32) (main_arg2 : FVec F S1x16384x512 .f32) (main_arg3 : FVec F S16384x1 .f32) (main_arg4 : FVec F S2048x512 .f32) (main_arg5 : FVec F S2048x512 .f32) (main_arg6 : FVec F S2048 .f32) (main_arg7 : FVec F S2048 .f32) (main_arg8 : FVec F S256x512 .f32) (main_arg9 : FVec F S256 .f32) (main_arg10 : FVec F S256x512 .f32) (main_arg11 : FVec F S256 .f32) (main_arg12 : FVec F S1x256 .f32) (main_arg13 : FVec F S1 .f32) (main_arg14 : FVec F S256x512 .f32) (main_arg15 : FVec F S256 .f32) (main_arg16 : FVec F S1x256 .f32) (main_arg17 : FVec F S1 .f32) : IVec S_ 1 :=
  let main_v0 : FVec F S16384x512 .f32 := Host.absf main_arg0
  let main_cst : FVec F S_ .f32 := constant S_ .f32 0x7F800000#32
  let main_v1 : FVec F S16384x512 .f32 := broadcastInDim S16384x512 ![] bcast_S_S16384x512 main_cst
  let main_v2 : IVec S16384x512 1 := cmpf .olt main_v0 main_v1
  let main_c : IVec S_ 1 := constantI S_ 1 1#1
  let main_v3 : IVec S_ 1 := (fun x v => Host.reduce IntOp.andi x v reducesTo_S16384x512_S_d0_1 h_S_) main_v2 main_c
  let main_v4 : FVec F S1x16384x512 .f32 := Host.absf main_arg1
  let main_cst_0 : FVec F S_ .f32 := constant S_ .f32 0x7F800000#32
  let main_v5 : FVec F S1x16384x512 .f32 := broadcastInDim S1x16384x512 ![] bcast_S_S1x16384x512 main_cst_0
  let main_v6 : IVec S1x16384x512 1 := cmpf .olt main_v4 main_v5
  let main_c_1 : IVec S_ 1 := constantI S_ 1 1#1
  let main_v7 : IVec S_ 1 := (fun x v => Host.reduce IntOp.andi x v reducesTo_S1x16384x512_S_d0_1_2 h_S_) main_v6 main_c_1
  let main_v8 : IVec S_ 1 := andi main_v3 main_v7
  let main_v9 : FVec F S1x16384x512 .f32 := Host.absf main_arg2
  let main_cst_2 : FVec F S_ .f32 := constant S_ .f32 0x7F800000#32
  let main_v10 : FVec F S1x16384x512 .f32 := broadcastInDim S1x16384x512 ![] bcast_S_S1x16384x512 main_cst_2
  let main_v11 : IVec S1x16384x512 1 := cmpf .olt main_v9 main_v10
  let main_c_3 : IVec S_ 1 := constantI S_ 1 1#1
  let main_v12 : IVec S_ 1 := (fun x v => Host.reduce IntOp.andi x v reducesTo_S1x16384x512_S_d0_1_2 h_S_) main_v11 main_c_3
  let main_v13 : IVec S_ 1 := andi main_v8 main_v12
  let main_v14 : FVec F S16384x1 .f32 := Host.absf main_arg3
  let main_cst_4 : FVec F S_ .f32 := constant S_ .f32 0x7F800000#32
  let main_v15 : FVec F S16384x1 .f32 := broadcastInDim S16384x1 ![] bcast_S_S16384x1 main_cst_4
  let main_v16 : IVec S16384x1 1 := cmpf .olt main_v14 main_v15
  fn_part1 (F := F) main_arg4 main_arg5 main_arg6 main_arg7 main_arg8 main_arg9 main_arg10 main_arg11 main_arg12 main_arg13 main_arg14 main_arg15 main_arg16 main_arg17 main_v13 main_v16
-- ==== Kernel.lean ====
abbrev S16384x512 : Shape := ⟨2, ![16384, 512]⟩
abbrev S1x16384x512 : Shape := ⟨3, ![1, 16384, 512]⟩
abbrev S16384x1 : Shape := ⟨2, ![16384, 1]⟩
abbrev S2048x512 : Shape := ⟨2, ![2048, 512]⟩
abbrev S2048 : Shape := ⟨1, ![2048]⟩
abbrev S256x512 : Shape := ⟨2, ![256, 512]⟩
abbrev S256 : Shape := ⟨1, ![256]⟩
abbrev S1x256 : Shape := ⟨2, ![1, 256]⟩
abbrev S1 : Shape := ⟨1, ![1]⟩
abbrev S512x2048 : Shape := ⟨2, ![512, 2048]⟩
abbrev S512x256 : Shape := ⟨2, ![512, 256]⟩
abbrev S256x1 : Shape := ⟨2, ![256, 1]⟩
abbrev S1x2048 : Shape := ⟨2, ![1, 2048]⟩
abbrev S1x1 : Shape := ⟨2, ![1, 1]⟩
abbrev S512x512 : Shape := ⟨2, ![512, 512]⟩
abbrev S512x1 : Shape := ⟨2, ![512, 1]⟩

abbrev nBuf : Space → Nat
  | .hbm => 41
  | .vmem => 32
  | .smem => 0
  | _ => 0

abbrev bufTy : (tb : Table) → Fin (tcTables nBuf tb) → BufTy
  | .hbm, ⟨0, _⟩ => ⟨S16384x512, .f32⟩
  | .hbm, ⟨1, _⟩ => ⟨S1x16384x512, .f32⟩
  | .hbm, ⟨2, _⟩ => ⟨S1x16384x512, .f32⟩
  | .hbm, ⟨3, _⟩ => ⟨S16384x1, .f32⟩
  | .hbm, ⟨4, _⟩ => ⟨S2048x512, .f32⟩
  | .hbm, ⟨5, _⟩ => ⟨S2048x512, .f32⟩
  | .hbm, ⟨6, _⟩ => ⟨S2048, .f32⟩
  | .hbm, ⟨7, _⟩ => ⟨S2048, .f32⟩
  | .hbm, ⟨8, _⟩ => ⟨S256x512, .f32⟩
  | .hbm, ⟨9, _⟩ => ⟨S256, .f32⟩
  | .hbm, ⟨10, _⟩ => ⟨S256x512, .f32⟩
  | .hbm, ⟨11, _⟩ => ⟨S256, .f32⟩
  | .hbm, ⟨12, _⟩ => ⟨S1x256, .f32⟩
  | .hbm, ⟨13, _⟩ => ⟨S1, .f32⟩
  | .hbm, ⟨14, _⟩ => ⟨S256x512, .f32⟩
  | .hbm, ⟨15, _⟩ => ⟨S256, .f32⟩
  | .hbm, ⟨16, _⟩ => ⟨S1x256, .f32⟩
  | .hbm, ⟨17, _⟩ => ⟨S1, .f32⟩
  | .hbm, ⟨18, _⟩ => ⟨S16384x512, .f32⟩
  | .hbm, ⟨19, _⟩ => ⟨S16384x512, .f32⟩
  | .hbm, ⟨20, _⟩ => ⟨S512x2048, .f32⟩
  | .hbm, ⟨21, _⟩ => ⟨S512x2048, .f32⟩
  | .hbm, ⟨22, _⟩ => ⟨S512x256, .f32⟩
  | .hbm, ⟨23, _⟩ => ⟨S512x256, .f32⟩
  | .hbm, ⟨24, _⟩ => ⟨S512x256, .f32⟩
  | .hbm, ⟨25, _⟩ => ⟨S256x1, .f32⟩
  | .hbm, ⟨26, _⟩ => ⟨S256x1, .f32⟩
  | .hbm, ⟨27, _⟩ => ⟨S1x2048, .f32⟩
  | .hbm, ⟨28, _⟩ => ⟨S1x2048, .f32⟩
  | .hbm, ⟨29, _⟩ => ⟨S1x256, .f32⟩
  | .hbm, ⟨30, _⟩ => ⟨S1x256, .f32⟩
  | .hbm, ⟨31, _⟩ => ⟨S1x1, .f32⟩
  | .hbm, ⟨32, _⟩ => ⟨S1x256, .f32⟩
  | .hbm, ⟨33, _⟩ => ⟨S1x1, .f32⟩
  | .hbm, ⟨34, _⟩ => ⟨S16384x512, .f32⟩
  | .hbm, ⟨35, _⟩ => ⟨S16384x512, .f32⟩
  | .hbm, ⟨36, _⟩ => ⟨S16384x1, .f32⟩
  | .hbm, ⟨37, _⟩ => ⟨S16384x1, .f32⟩
  | .hbm, ⟨38, _⟩ => ⟨S16384x1, .f32⟩
  | .hbm, ⟨39, _⟩ => ⟨S1x16384x512, .f32⟩
  | .hbm, ⟨40, _⟩ => ⟨S1x16384x512, .f32⟩
  | .local _ .vmem, ⟨0, _⟩ => ⟨S512x512, .f32⟩
  | .local _ .vmem, ⟨1, _⟩ => ⟨S512x512, .f32⟩
  | .local _ .vmem, ⟨2, _⟩ => ⟨S512x512, .f32⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S512x1, .f32⟩
  | .local _ .vmem, ⟨7, _⟩ => ⟨S512x1, .f32⟩
  | .local _ .vmem, ⟨8, _⟩ => ⟨S512x2048, .f32⟩
  | .local _ .vmem, ⟨9, _⟩ => ⟨S1x2048, .f32⟩
  | .local _ .vmem, ⟨10, _⟩ => ⟨S512x2048, .f32⟩
  | .local _ .vmem, ⟨11, _⟩ => ⟨S1x2048, .f32⟩
  | .local _ .vmem, ⟨12, _⟩ => ⟨S512x256, .f32⟩
  | .local _ .vmem, ⟨13, _⟩ => ⟨S1x256, .f32⟩
  | .local _ .vmem, ⟨14, _⟩ => ⟨S512x256, .f32⟩
  | .local _ .vmem, ⟨15, _⟩ => ⟨S1x256, .f32⟩
  | .local _ .vmem, ⟨16, _⟩ => ⟨S256x1, .f32⟩
  | .local _ .vmem, ⟨17, _⟩ => ⟨S1x1, .f32⟩
  | .local _ .vmem, ⟨18, _⟩ => ⟨S512x256, .f32⟩
  | .local _ .vmem, ⟨19, _⟩ => ⟨S1x256, .f32⟩
  | .local _ .vmem, ⟨20, _⟩ => ⟨S256x1, .f32⟩
  | .local _ .vmem, ⟨21, _⟩ => ⟨S1x1, .f32⟩
  | .local _ .vmem, ⟨22, _⟩ => ⟨S512x512, .f32⟩
  | .local _ .vmem, ⟨23, _⟩ => ⟨S512x512, .f32⟩
  | .local _ .vmem, ⟨24, _⟩ => ⟨S512x512, .f32⟩
  | .local _ .vmem, ⟨25, _⟩ => ⟨S512x512, .f32⟩
  | .local _ .vmem, ⟨26, _⟩ => ⟨S512x1, .f32⟩
  | .local _ .vmem, ⟨27, _⟩ => ⟨S512x1, .f32⟩
  | .local _ .vmem, ⟨28, _⟩ => ⟨S512x1, .f32⟩
  | .local _ .vmem, ⟨29, _⟩ => ⟨S512x1, .f32⟩
  | .local _ .vmem, ⟨30, _⟩ => ⟨S512x1, .f32⟩
  | .local _ .vmem, ⟨31, _⟩ => ⟨S512x1, .f32⟩
  | _, _ => ⟨S16384x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16_0 : Ref sig .tc := ⟨.hbm, 34, rfl⟩
abbrev main_v16_1 : Ref sig .tc := ⟨.hbm, 35, rfl⟩
abbrev main_v16_2 : Ref sig .tc := ⟨.hbm, 36, rfl⟩
abbrev main_v16_3 : Ref sig .tc := ⟨.hbm, 37, rfl⟩
abbrev main_v16_4 : Ref sig .tc := ⟨.hbm, 38, rfl⟩
abbrev main_v17 : Ref sig .tc := ⟨.hbm, 39, rfl⟩
abbrev main_v18 : Ref sig .tc := ⟨.hbm, 40, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg12_0 : Ref sig .tc := ⟨.vmem, 16, rfl⟩
abbrev cc0_stg13_0 : Ref sig .tc := ⟨.vmem, 17, rfl⟩
abbrev cc0_stg14_0 : Ref sig .tc := ⟨.vmem, 18, rfl⟩
abbrev cc0_stg15_0 : Ref sig .tc := ⟨.vmem, 19, rfl⟩
abbrev cc0_stg16_0 : Ref sig .tc := ⟨.vmem, 20, rfl⟩
abbrev cc0_stg17_0 : Ref sig .tc := ⟨.vmem, 21, rfl⟩
abbrev cc0_stg18_0 : Ref sig .tc := ⟨.vmem, 22, rfl⟩
abbrev cc0_stg18_1 : Ref sig .tc := ⟨.vmem, 23, rfl⟩
abbrev cc0_stg19_0 : Ref sig .tc := ⟨.vmem, 24, rfl⟩
abbrev cc0_stg19_1 : Ref sig .tc := ⟨.vmem, 25, rfl⟩
abbrev cc0_stg20_0 : Ref sig .tc := ⟨.vmem, 26, rfl⟩
abbrev cc0_stg20_1 : Ref sig .tc := ⟨.vmem, 27, rfl⟩
abbrev cc0_stg21_0 : Ref sig .tc := ⟨.vmem, 28, rfl⟩
abbrev cc0_stg21_1 : Ref sig .tc := ⟨.vmem, 29, rfl⟩
abbrev cc0_stg22_0 : Ref sig .tc := ⟨.vmem, 30, rfl⟩
abbrev cc0_stg22_1 : Ref sig .tc := ⟨.vmem, 31, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem11_0 : DmaSem sig := 15
abbrev cc0_sem12_0 : DmaSem sig := 16
abbrev cc0_sem13_0 : DmaSem sig := 17
abbrev cc0_sem14_0 : DmaSem sig := 18
abbrev cc0_sem15_0 : DmaSem sig := 19
abbrev cc0_sem16_0 : DmaSem sig := 20
abbrev cc0_sem17_0 : DmaSem sig := 21
abbrev cc0_sem18_0 : DmaSem sig := 22
abbrev cc0_sem18_1 : DmaSem sig := 23
abbrev cc0_sem19_0 : DmaSem sig := 24
abbrev cc0_sem19_1 : DmaSem sig := 25
abbrev cc0_sem20_0 : DmaSem sig := 26
abbrev cc0_sem20_1 : DmaSem sig := 27
abbrev cc0_sem21_0 : DmaSem sig := 28
abbrev cc0_sem21_1 : DmaSem sig := 29
abbrev cc0_sem22_0 : DmaSem sig := 30
abbrev cc0_sem22_1 : DmaSem sig := 31

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_19 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_20 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_21 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_22 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S512x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S512x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S512x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x256 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S512x256 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x256 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S256x1 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x1 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S512x256 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1x256 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S256x1 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S1x1 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 2 → Memref sig .tc .vmem S512x512 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S512x512 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

abbrev stage0_20 : Fin 2 → Memref sig .tc .vmem S512x1 .f32 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true]

abbrev stage0_21 : Fin 2 → Memref sig .tc .vmem S512x1 .f32 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true]

abbrev stage0_22 : Fin 2 → Memref sig .tc .vmem S512x1 .f32 := fun | 0 => Memref.whole cc0_stg22_0 | 1 => Memref.whole cc0_stg22_1 | ⟨_ + 2, h⟩ => absurd h (Nat.not_lt.2 (Nat.le_add_left _ _))
abbrev sem0_22 : Fin 2 → DmaSem sig := fun | 0 => cc0_sem22_0 | 1 => cc0_sem22_1 | ⟨_ + 2, h⟩ => absurd h (Nat.not_lt.2 (Nat.le_add_left _ _))
abbrev reads0_22 : Fin grid0.rank → Bool := ![true]

class Facts₀ : Prop where
  shapeCasts_S1x16384x512_S16384x512 : S1x16384x512.ShapeCasts S16384x512
  transposes_S2048x512_S512x2048_1_0 : S2048x512.Transposes [1, 0] S512x2048
  transposes_S256x512_S512x256_1_0 : S256x512.Transposes [1, 0] S512x256
  transposes_S1x256_S256x1_1_0 : S1x256.Transposes [1, 0] S256x1
  shapeCasts_S2048_S1x2048 : S2048.ShapeCasts S1x2048
  shapeCasts_S256_S1x256 : S256.ShapeCasts S1x256
  shapeCasts_S1_S1x1 : S1.ShapeCasts S1x1
  inb_S512x512_S512x512_0_0 : ∀ a, (![0, 0] : Fin 2 → Nat) a + S512x512.size a ≤ S512x512.size a
  h_S512x512 : 0 < S512x512.numel
  shapeCasts_S512x512_S512x512 : S512x512.ShapeCasts S512x512
  inb_S512x1_S512x1_0_0 : ∀ a, (![0, 0] : Fin 2 → Nat) a + S512x1.size a ≤ S512x1.size a
  h_S512x1 : 0 < S512x1.numel
  bitsLt_bf16_f32 : FTy.bits .bf16 < FTy.bits .f32
  inb_S512x2048_S512x2048_0_0 : ∀ a, (![0, 0] : Fin 2 → Nat) a + S512x2048.size a ≤ S512x2048.size a
  h_S512x2048 : 0 < S512x2048.numel
  shapeCasts_S512x2048_S512x2048 : S512x2048.ShapeCasts S512x2048
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S1x2048_S512x2048 : S1x2048.Broadcasts S512x2048
  slices_S512x2048_o0_0_S512x512 : S512x2048.Slices ![0, 0] S512x512
  slices_S512x2048_o0_512_S512x512 : S512x2048.Slices ![0, 512] S512x512
  slices_S512x2048_o0_1024_S512x512 : S512x2048.Slices ![0, 1024] S512x512
  slices_S512x2048_o0_1536_S512x512 : S512x2048.Slices ![0, 1536] S512x512
  inb_S512x256_S512x256_0_0 : ∀ a, (![0, 0] : Fin 2 → Nat) a + S512x256.size a ≤ S512x256.size a
  h_S512x256 : 0 < S512x256.numel
  shapeCasts_S512x256_S512x256 : S512x256.ShapeCasts S512x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S512x256 : S1x256.Broadcasts S512x256
  inb_S256x1_S256x1_0_0 : ∀ a, (![0, 0] : Fin 2 → Nat) a + S256x1.size a ≤ S256x1.size a
  h_S256x1 : 0 < S256x1.numel
  shapeCasts_S256x1_S256x1 : S256x1.ShapeCasts S256x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S512x1 : S1x1.Broadcasts S512x1
  natLt_1_32 : 1 < 32
  shapeCasts_S512x1_S512x1 : S512x1.ShapeCasts S512x1
  broadcasts_S512x1_S512x512 : S512x1.Broadcasts S512x512
  bcast_S16384x512_S1x16384x512_1_2 : S16384x512.BroadcastsInDim S1x16384x512 (![1, 2] : Fin 2 → Fin S1x16384x512.rank)
  dot_S512x512_S512x2048_S512x2048_1_0_0_1_n_n_wf : DotDims.WF S512x512 S512x2048 S512x2048 [1] [0] [0] [1] [] []
  dot_S512x512_S512x256_S512x256_1_0_0_1_n_n_wf : DotDims.WF S512x512 S512x256 S512x256 [1] [0] [0] [1] [] []
  dot_S512x256_S256x1_S512x1_1_0_0_1_n_n_wf : DotDims.WF S512x256 S256x1 S512x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x512.size a ≤ S16384x512.size a
  hwx0_0 : ∀ i : grid0.Coords, EltTy.bits .f32 = 32 ∨ (Rect.block (s := S16384x512) S512x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x512.size a ≤ S16384x512.size a
  hwx0_1 : ∀ i : grid0.Coords, EltTy.bits .f32 = 32 ∨ (Rect.block (s := S16384x512) S512x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x512.size a ≤ S16384x512.size a
  hwx0_2 : ∀ i : grid0.Coords, EltTy.bits .f32 = 32 ∨ (Rect.block (s := S16384x512) S512x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x1.size a ≤ S16384x1.size a
  hwx0_3 : ∀ i : grid0.Coords, EltTy.bits .f32 = 32 ∨ (Rect.block (s := S16384x1) S512x1.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S512x2048.size a ≤ S512x2048.size a
  hwx0_4 : ∀ i : grid0.Coords, EltTy.bits .f32 = 32 ∨ (Rect.block (s := S512x2048) S512x2048.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x2048.size a ≤ S1x2048.size a
  hwx0_5 : ∀ i : grid0.Coords, EltTy.bits .f32 = 32 ∨ (Rect.block (s := S1x2048) S1x2048.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S512x2048.size a ≤ S512x2048.size a
  hwx0_6 : ∀ i : grid0.Coords, EltTy.bits .f32 = 32 ∨ (Rect.block (s := S512x2048) S512x2048.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x2048.size a ≤ S1x2048.size a
  hwx0_7 : ∀ i : grid0.Coords, EltTy.bits .f32 = 32 ∨ (Rect.block (s := S1x2048) S1x2048.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S512x256.size a ≤ S512x256.size a
  hwx0_8 : ∀ i : grid0.Coords, EltTy.bits .f32 = 32 ∨ (Rect.block (s := S512x256) S512x256.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1x256.size a ≤ S1x256.size a
  hwx0_9 : ∀ i : grid0.Coords, EltTy.bits .f32 = 32 ∨ (Rect.block (s := S1x256) S1x256.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S512x256.size a ≤ S512x256.size a
  hwx0_10 : ∀ i : grid0.Coords, EltTy.bits .f32 = 32 ∨ (Rect.block (s := S512x256) S512x256.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S1x256.size a ≤ S1x256.size a
  hwx0_11 : ∀ i : grid0.Coords, EltTy.bits .f32 = 32 ∨ (Rect.block (s := S1x256) S1x256.size (cc0_transform_11 i) (hinb0_11 i)).WholeWords (EltTy.packing .f32)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S256x1.size a ≤ S256x1.size a
  hwx0_12 : ∀ i : grid0.Coords, EltTy.bits .f32 = 32 ∨ (Rect.block (s := S256x1) S256x1.size (cc0_transform_12 i) (hinb0_12 i)).WholeWords (EltTy.packing .f32)
  hstage0_13 : ∀ j, (stage0_13 j).IsWhole
  nbuf0_13 : grid0.bufCount reads0_13 true = 1
  hreads0_13 : ∀ i i' : grid0.Coords, (∀ a, reads0_13 a = true → i a = i' a) → cc0_transform_13 i = cc0_transform_13 i'
  hinb0_13 : ∀ (i : grid0.Coords) a, (cc0_transform_13 i a + 1) * S1x1.size a ≤ S1x1.size a
  hwx0_13 : ∀ i : grid0.Coords, EltTy.bits .f32 = 32 ∨ (Rect.block (s := S1x1) S1x1.size (cc0_transform_13 i) (hinb0_13 i)).WholeWords (EltTy.packing .f32)
  hstage0_14 : ∀ j, (stage0_14 j).IsWhole
  nbuf0_14 : grid0.bufCount reads0_14 true = 1
  hreads0_14 : ∀ i i' : grid0.Coords, (∀ a, reads0_14 a = true → i a = i' a) → cc0_transform_14 i = cc0_transform_14 i'
  hinb0_14 : ∀ (i : grid0.Coords) a, (cc0_transform_14 i a + 1) * S512x256.size a ≤ S512x256.size a
  hwx0_14 : ∀ i : grid0.Coords, EltTy.bits .f32 = 32 ∨ (Rect.block (s := S512x256) S512x256.size (cc0_transform_14 i) (hinb0_14 i)).WholeWords (EltTy.packing .f32)
  hstage0_15 : ∀ j, (stage0_15 j).IsWhole
  nbuf0_15 : grid0.bufCount reads0_15 true = 1
  hreads0_15 : ∀ i i' : grid0.Coords, (∀ a, reads0_15 a = true → i a = i' a) → cc0_transform_15 i = cc0_transform_15 i'
  hinb0_15 : ∀ (i : grid0.Coords) a, (cc0_transform_15 i a + 1) * S1x256.size a ≤ S1x256.size a
  hwx0_15 : ∀ i : grid0.Coords, EltTy.bits .f32 = 32 ∨ (Rect.block (s := S1x256) S1x256.size (cc0_transform_15 i) (hinb0_15 i)).WholeWords (EltTy.packing .f32)
  hstage0_16 : ∀ j, (stage0_16 j).IsWhole
  nbuf0_16 : grid0.bufCount reads0_16 true = 1
  hreads0_16 : ∀ i i' : grid0.Coords, (∀ a, reads0_16 a = true → i a = i' a) → cc0_transform_16 i = cc0_transform_16 i'
  hinb0_16 : ∀ (i : grid0.Coords) a, (cc0_transform_16 i a + 1) * S256x1.size a ≤ S256x1.size a
  hwx0_16 : ∀ i : grid0.Coords, EltTy.bits .f32 = 32 ∨ (Rect.block (s := S256x1) S256x1.size (cc0_transform_16 i) (hinb0_16 i)).WholeWords (EltTy.packing .f32)
  hstage0_17 : ∀ j, (stage0_17 j).IsWhole
  nbuf0_17 : grid0.bufCount reads0_17 true = 1
  hreads0_17 : ∀ i i' : grid0.Coords, (∀ a, reads0_17 a = true → i a = i' a) → cc0_transform_17 i = cc0_transform_17 i'
  hinb0_17 : ∀ (i : grid0.Coords) a, (cc0_transform_17 i a + 1) * S1x1.size a ≤ S1x1.size a
  hwx0_17 : ∀ i : grid0.Coords, EltTy.bits .f32 = 32 ∨ (Rect.block (s := S1x1) S1x1.size (cc0_transform_17 i) (hinb0_17 i)).WholeWords (EltTy.packing .f32)
  hstage0_18 : ∀ j, (stage0_18 j).IsWhole
  nbuf0_18 : grid0.bufCount reads0_18 false = 2
  hreads0_18 : ∀ i i' : grid0.Coords, (∀ a, reads0_18 a = true → i a = i' a) → cc0_transform_18 i = cc0_transform_18 i'
  hinb0_18 : ∀ (i : grid0.Coords) a, (cc0_transform_18 i a + 1) * S512x512.size a ≤ S16384x512.size a
  hwx0_18 : ∀ i : grid0.Coords, EltTy.bits .f32 = 32 ∨ (Rect.block (s := S16384x512) S512x512.size (cc0_transform_18 i) (hinb0_18 i)).WholeWords (EltTy.packing .f32)
  hstage0_19 : ∀ j, (stage0_19 j).IsWhole
  nbuf0_19 : grid0.bufCount reads0_19 false = 2
  hreads0_19 : ∀ i i' : grid0.Coords, (∀ a, reads0_19 a = true → i a = i' a) → cc0_transform_19 i = cc0_transform_19 i'
  hinb0_19 : ∀ (i : grid0.Coords) a, (cc0_transform_19 i a + 1) * S512x512.size a ≤ S16384x512.size a
  hwx0_19 : ∀ i : grid0.Coords, EltTy.bits .f32 = 32 ∨ (Rect.block (s := S16384x512) S512x512.size (cc0_transform_19 i) (hinb0_19 i)).WholeWords (EltTy.packing .f32)
  hstage0_20 : ∀ j, (stage0_20 j).IsWhole
  nbuf0_20 : grid0.bufCount reads0_20 false = 2
  hreads0_20 : ∀ i i' : grid0.Coords, (∀ a, reads0_20 a = true → i a = i' a) → cc0_transform_20 i = cc0_transform_20 i'
  hinb0_20 : ∀ (i : grid0.Coords) a, (cc0_transform_20 i a + 1) * S512x1.size a ≤ S16384x1.size a
  hwx0_20 : ∀ i : grid0.Coords, EltTy.bits .f32 = 32 ∨ (Rect.block (s := S16384x1) S512x1.size (cc0_transform_20 i) (hinb0_20 i)).WholeWords (EltTy.packing .f32)
  hstage0_21 : ∀ j, (stage0_21 j).IsWhole
  nbuf0_21 : grid0.bufCount reads0_21 false = 2
  hreads0_21 : ∀ i i' : grid0.Coords, (∀ a, reads0_21 a = true → i a = i' a) → cc0_transform_21 i = cc0_transform_21 i'
  hinb0_21 : ∀ (i : grid0.Coords) a, (cc0_transform_21 i a + 1) * S512x1.size a ≤ S16384x1.size a
  hwx0_21 : ∀ i : grid0.Coords, EltTy.bits .f32 = 32 ∨ (Rect.block (s := S16384x1) S512x1.size (cc0_transform_21 i) (hinb0_21 i)).WholeWords (EltTy.packing .f32)
  hstage0_22 : ∀ j, (stage0_22 j).IsWhole
  nbuf0_22 : grid0.bufCount reads0_22 false = 2
  hreads0_22 : ∀ i i' : grid0.Coords, (∀ a, reads0_22 a = true → i a = i' a) → cc0_transform_22 i = cc0_transform_22 i'
  hinb0_22 : ∀ (i : grid0.Coords) a, (cc0_transform_22 i a + 1) * S512x1.size a ≤ S16384x1.size a
  hwx0_22 : ∀ i : grid0.Coords, EltTy.bits .f32 = 32 ∨ (Rect.block (s := S16384x1) S512x1.size (cc0_transform_22 i) (hinb0_22 i)).WholeWords (EltTy.packing .f32)

variable [Facts₀]

def dot_S512x512_S512x2048_S512x2048_1_0_0_1_n_n : DotDims S512x512 S512x2048 S512x2048 where
  lhsContracting := [1]
  rhsContracting := [0]
  lhsNonContracting := [0]
  rhsNonContracting := [1]
  lhsBatch := []
  rhsBatch := []
  wf := dot_S512x512_S512x2048_S512x2048_1_0_0_1_n_n_wf
def dot_S512x512_S512x256_S512x256_1_0_0_1_n_n : DotDims S512x512 S512x256 S512x256 where
  lhsContracting := [1]
  rhsContracting := [0]
  lhsNonContracting := [0]
  rhsNonContracting := [1]
  lhsBatch := []
  rhsBatch := []
  wf := dot_S512x512_S512x256_S512x256_1_0_0_1_n_n_wf
def dot_S512x256_S256x1_S512x1_1_0_0_1_n_n : DotDims S512x256 S256x1 S512x1 where
  lhsContracting := [1]
  rhsContracting := [0]
  lhsNonContracting := [0]
  rhsNonContracting := [1]
  lhsBatch := []
  rhsBatch := []
  wf := dot_S512x256_S256x1_S512x1_1_0_0_1_n_n_wf

abbrev win0_0 : Pipeline.Window sig grid0 :=
  Pipeline.Window.ofSpec (Memref.whole main_arg0) S512x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S512x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S512x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S512x1.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v2) S512x2048.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v9) S1x2048.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v3) S512x2048.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v10) S1x2048.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v4) S512x256.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v11) S1x256.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v5) S512x256.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v12) S1x256.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_v7) S256x1.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_v13) S1x1.size cc0_transform_13 reads0_13 false true 1 stage0_13 sem0_13
    hrank0 hreads0_13 hinb0_13 nbuf0_13 (Memref.isWhole_whole _) hwx0_13 hstage0_13

abbrev win0_14 : Pipeline.Window sig grid0 :=
  Pipeline.Window.ofSpec (Memref.whole main_v6) S512x256.size cc0_transform_14 reads0_14 false true 1 stage0_14 sem0_14
    hrank0 hreads0_14 hinb0_14 nbuf0_14 (Memref.isWhole_whole _) hwx0_14 hstage0_14

abbrev win0_15 : Pipeline.Window sig grid0 :=
  Pipeline.Window.ofSpec (Memref.whole main_v14) S1x256.size cc0_transform_15 reads0_15 false true 1 stage0_15 sem0_15
    hrank0 hreads0_15 hinb0_15 nbuf0_15 (Memref.isWhole_whole _) hwx0_15 hstage0_15

abbrev win0_16 : Pipeline.Window sig grid0 :=
  Pipeline.Window.ofSpec (Memref.whole main_v8) S256x1.size cc0_transform_16 reads0_16 false true 1 stage0_16 sem0_16
    hrank0 hreads0_16 hinb0_16 nbuf0_16 (Memref.isWhole_whole _) hwx0_16 hstage0_16

abbrev win0_17 : Pipeline.Window sig grid0 :=
  Pipeline.Window.ofSpec (Memref.whole main_v15) S1x1.size cc0_transform_17 reads0_17 false true 1 stage0_17 sem0_17
    hrank0 hreads0_17 hinb0_17 nbuf0_17 (Memref.isWhole_whole _) hwx0_17 hstage0_17

abbrev win0_18 : Pipeline.Window sig grid0 :=
  Pipeline.Window.ofSpec (Memref.whole main_v16_0) S512x512.size cc0_transform_18 reads0_18 true false 2 stage0_18 sem0_18
    hrank0 hreads0_18 hinb0_18 nbuf0_18 (Memref.isWhole_whole _) hwx0_18 hstage0_18

abbrev win0_19 : Pipeline.Window sig grid0 :=
  Pipeline.Window.ofSpec (Memref.whole main_v16_1) S512x512.size cc0_transform_19 reads0_19 true false 2 stage0_19 sem0_19
    hrank0 hreads0_19 hinb0_19 nbuf0_19 (Memref.isWhole_whole _) hwx0_19 hstage0_19

abbrev win0_20 : Pipeline.Window sig grid0 :=
  Pipeline.Window.ofSpec (Memref.whole main_v16_2) S512x1.size cc0_transform_20 reads0_20 true false 2 stage0_20 sem0_20
    hrank0 hreads0_20 hinb0_20 nbuf0_20 (Memref.isWhole_whole _) hwx0_20 hstage0_20

abbrev win0_21 : Pipeline.Window sig grid0 :=
  Pipeline.Window.ofSpec (Memref.whole main_v16_3) S512x1.size cc0_transform_21 reads0_21 true false 2 stage0_21 sem0_21
    hrank0 hreads0_21 hinb0_21 nbuf0_21 (Memref.isWhole_whole _) hwx0_21 hstage0_21

abbrev win0_22 : Pipeline.Window sig grid0 :=
  Pipeline.Window.ofSpec (Memref.whole main_v16_4) S512x1.size cc0_transform_22 reads0_22 true false 2 stage0_22 sem0_22
    hrank0 hreads0_22 hinb0_22 nbuf0_22 (Memref.isWhole_whole _) hwx0_22 hstage0_22

abbrev win0 : Fin 23 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | 16 => win0_16 | 17 => win0_17 | 18 => win0_18 | 19 => win0_19 | 20 => win0_20 | 21 => win0_21 | 22 => win0_22 | ⟨_ + 23, h⟩ => absurd h (Nat.not_lt.2 (Nat.le_add_left _ _))
abbrev spec0 : Fin 23 → Pipeline.WinSpec sig grid0.rank := fun w => (win0 w).toWinSpec

class Facts : Prop extends Facts₀ where

variable [Facts]
-- ==== ReferenceIdeal.lean ====
abbrev S16384x512 : Shape := ⟨2, ![16384, 512]⟩
abbrev S1x16384x512 : Shape := ⟨3, ![1, 16384, 512]⟩
abbrev S16384x1 : Shape := ⟨2, ![16384, 1]⟩
abbrev S2048x512 : Shape := ⟨2, ![2048, 512]⟩
abbrev S2048 : Shape := ⟨1, ![2048]⟩
abbrev S256x512 : Shape := ⟨2, ![256, 512]⟩
abbrev S256 : Shape := ⟨1, ![256]⟩
abbrev S1x256 : Shape := ⟨2, ![1, 256]⟩
abbrev S1 : Shape := ⟨1, ![1]⟩
abbrev S512x2048 : Shape := ⟨2, ![512, 2048]⟩
abbrev S16384x2048 : Shape := ⟨2, ![16384, 2048]⟩
abbrev S1x2048 : Shape := ⟨2, ![1, 2048]⟩
abbrev S_ : Shape := ⟨0, ![]⟩
abbrev S512x256 : Shape := ⟨2, ![512, 256]⟩
abbrev S16384x256 : Shape := ⟨2, ![16384, 256]⟩
abbrev S256x1 : Shape := ⟨2, ![256, 1]⟩
abbrev S1x1 : Shape := ⟨2, ![1, 1]⟩
abbrev S1x16384x1 : Shape := ⟨3, ![1, 16384, 1]⟩

abbrev nBuf : Space → Nat
  | .hbm => 159
  | .vmem => 0
  | .smem => 0
  | _ => 0

abbrev hbmTy0_0 (i : Nat) : BufTy := match i % 128 with
  | 0 => ⟨S16384x512, .f32⟩
  | 1 => ⟨S1x16384x512, .f32⟩
  | 2 => ⟨S1x16384x512, .f32⟩
  | 3 => ⟨S16384x1, .f32⟩
  | 4 => ⟨S2048x512, .f32⟩
  | 5 => ⟨S2048x512, .f32⟩
  | 6 => ⟨S2048, .f32⟩
  | 7 => ⟨S2048, .f32⟩
  | 8 => ⟨S256x512, .f32⟩
  | 9 => ⟨S256, .f32⟩
  | 10 => ⟨S256x512, .f32⟩
  | 11 => ⟨S256, .f32⟩
  | 12 => ⟨S1x256, .f32⟩
  | 13 => ⟨S1, .f32⟩
  | 14 => ⟨S256x512, .f32⟩
  | 15 => ⟨S256, .f32⟩
  | 16 => ⟨S1x256, .f32⟩
  | 17 => ⟨S1, .f32⟩
  | 18 => ⟨S512x2048, .f32⟩
  | 19 => ⟨S16384x2048, .f32⟩
  | 20 => ⟨S1x2048, .f32⟩
  | 21 => ⟨S16384x2048, .f32⟩
  | 22 => ⟨S16384x2048, .f32⟩
  | 23 => ⟨S16384x512, .f32⟩
  | 24 => ⟨S512x2048, .f32⟩
  | 25 => ⟨S16384x2048, .f32⟩
  | 26 => ⟨S16384x2048, .f32⟩
  | 27 => ⟨S1x2048, .f32⟩
  | 28 => ⟨S16384x2048, .f32⟩
  | 29 => ⟨S16384x2048, .f32⟩
  | 30 => ⟨S16384x512, .f32⟩
  | 31 => ⟨S16384x512, .f32⟩
  | 32 => ⟨S16384x512, .f32⟩
  | 33 => ⟨S16384x512, .f32⟩
  | 34 => ⟨S16384x512, .f32⟩
  | 35 => ⟨S16384x512, .f32⟩
  | 36 => ⟨S_, .f32⟩
  | 37 => ⟨S16384x512, .f32⟩
  | 38 => ⟨S16384x512, .f32⟩
  | 39 => ⟨S_, .f32⟩
  | 40 => ⟨S16384x512, .f32⟩
  | 41 => ⟨S16384x512, .f32⟩
  | 42 => ⟨S16384x512, .f32⟩
  | 43 => ⟨S16384x512, .f32⟩
  | 44 => ⟨S_, .f32⟩
  | 45 => ⟨S16384x512, .f32⟩
  | 46 => ⟨S16384x512, .f32⟩
  | 47 => ⟨S_, .f32⟩
  | 48 => ⟨S16384x512, .f32⟩
  | 49 => ⟨S16384x512, .f32⟩
  | 50 => ⟨S16384x512, .f32⟩
  | 51 => ⟨S16384x512, .f32⟩
  | 52 => ⟨S16384x512, .f32⟩
  | 53 => ⟨S_, .f32⟩
  | 54 => ⟨S16384x512, .f32⟩
  | 55 => ⟨S16384x512, .f32⟩
  | 56 => ⟨S_, .f32⟩
  | 57 => ⟨S16384x512, .f32⟩
  | 58 => ⟨S16384x512, .f32⟩
  | 59 => ⟨S16384x512, .f32⟩
  | 60 => ⟨S16384x512, .f32⟩
  | 61 => ⟨S16384x512, .f32⟩
  | 62 => ⟨S16384x512, .f32⟩
  | 63 => ⟨S16384x512, .f32⟩
  | 64 => ⟨S16384x512, .f32⟩
  | 65 => ⟨S1x16384x512, .f32⟩
  | 66 => ⟨S1x16384x512, .f32⟩
  | 67 => ⟨S16384x512, .f32⟩
  | 68 => ⟨S512x256, .f32⟩
  | 69 => ⟨S16384x256, .f32⟩
  | 70 => ⟨S1x256, .f32⟩
  | 71 => ⟨S16384x256, .f32⟩
  | 72 => ⟨S16384x256, .f32⟩
  | 73 => ⟨S16384x512, .f32⟩
  | 74 => ⟨S512x256, .f32⟩
  | 75 => ⟨S16384x256, .f32⟩
  | 76 => ⟨S16384x256, .f32⟩
  | 77 => ⟨S1x256, .f32⟩
  | 78 => ⟨S16384x256, .f32⟩
  | 79 => ⟨S16384x256, .f32⟩
  | 80 => ⟨S_, .f32⟩
  | 81 => ⟨S16384x256, .f32⟩
  | 82 => ⟨S16384x256, .i1⟩
  | 83 => ⟨S_, .f32⟩
  | 84 => ⟨S16384x256, .f32⟩
  | 85 => ⟨S16384x256, .f32⟩
  | 86 => ⟨S16384x256, .f32⟩
  | 87 => ⟨S256x1, .f32⟩
  | 88 => ⟨S16384x1, .f32⟩
  | 89 => ⟨S1x1, .f32⟩
  | 90 => ⟨S16384x1, .f32⟩
  | 91 => ⟨S16384x1, .f32⟩
  | 92 => ⟨S16384x1, .f32⟩
  | 93 => ⟨S16384x1, .f32⟩
  | 94 => ⟨S_, .f32⟩
  | 95 => ⟨S16384x1, .f32⟩
  | 96 => ⟨S16384x1, .f32⟩
  | 97 => ⟨S_, .f32⟩
  | 98 => ⟨S16384x1, .f32⟩
  | 99 => ⟨S16384x1, .f32⟩
  | 100 => ⟨S16384x512, .f32⟩
  | 101 => ⟨S512x256, .f32⟩
  | 102 => ⟨S16384x256, .f32⟩
  | 103 => ⟨S1x256, .f32⟩
  | 104 => ⟨S16384x256, .f32⟩
  | 105 => ⟨S16384x256, .f32⟩
  | 106 => ⟨S_, .f32⟩
  | 107 => ⟨S16384x256, .f32⟩
  | 108 => ⟨S16384x256, .i1⟩
  | 109 => ⟨S_, .f32⟩
  | 110 => ⟨S16384x256, .f32⟩
  | 111 => ⟨S16384x256, .f32⟩
  | 112 => ⟨S16384x256, .f32⟩
  | 113 => ⟨S256x1, .f32⟩
  | 114 => ⟨S16384x1, .f32⟩
  | 115 => ⟨S1x1, .f32⟩
  | 116 => ⟨S16384x1, .f32⟩
  | 117 => ⟨S16384x1, .f32⟩
  | 118 => ⟨S16384x1, .f32⟩
  | 119 => ⟨S16384x1, .f32⟩
  | 120 => ⟨S_, .f32⟩
  | 121 => ⟨S16384x1, .f32⟩
  | 122 => ⟨S16384x1, .f32⟩
  | 123 => ⟨S_, .f32⟩
  | 124 => ⟨S16384x1, .f32⟩
  | 125 => ⟨S16384x1, .f32⟩
  | 126 => ⟨S_, .f32⟩
  | 127 => ⟨S16384x1, .f32⟩
  | _ => ⟨S16384x512, .f32⟩

abbrev hbmTy0_1 (i : Nat) : BufTy := match i % 128 with
  | 0 => ⟨S16384x1, .f32⟩
  | 1 => ⟨S16384x1, .f32⟩
  | 2 => ⟨S16384x1, .f32⟩
  | 3 => ⟨S16384x1, .i1⟩
  | 4 => ⟨S16384x1, .f32⟩
  | 5 => ⟨S16384x1, .f32⟩
  | 6 => ⟨S16384x1, .f32⟩
  | 7 => ⟨S1x16384x1, .f32⟩
  | 8 => ⟨S1x16384x512, .f32⟩
  | 9 => ⟨S1x16384x512, .f32⟩
  | 10 => ⟨S_, .f32⟩
  | 11 => ⟨S16384x1, .f32⟩
  | 12 => ⟨S16384x1, .f32⟩
  | 13 => ⟨S1x16384x1, .f32⟩
  | 14 => ⟨S1x16384x512, .f32⟩
  | 15 => ⟨S1x16384x512, .f32⟩
  | 16 => ⟨S1x16384x512, .f32⟩
  | 17 => ⟨S1x16384x1, .f32⟩
  | 18 => ⟨S1x16384x512, .f32⟩
  | 19 => ⟨S1x16384x512, .f32⟩
  | 20 => ⟨S_, .f32⟩
  | 21 => ⟨S16384x1, .f32⟩
  | 22 => ⟨S16384x1, .f32⟩
  | 23 => ⟨S1x16384x1, .f32⟩
  | 24 => ⟨S1x16384x512, .f32⟩
  | 25 => ⟨S1x16384x512, .f32⟩
  | 26 => ⟨S1x16384x512, .f32⟩
  | 27 => ⟨S_, .f32⟩
  | 28 => ⟨S16384x1, .f32⟩
  | 29 => ⟨S16384x1, .f32⟩
  | 30 => ⟨S16384x1, .f32⟩
  | _ => ⟨S16384x512, .f32⟩

abbrev hbmTy (i : Nat) : BufTy := match i / 128 with
  | 0 => hbmTy0_0 i
  | 1 => hbmTy0_1 i
  | _ => ⟨S16384x512, .f32⟩

abbrev bufTy : (tb : Table) → Fin (tcTables nBuf tb) → BufTy
  | .hbm, ⟨i, _⟩ => hbmTy i
  | _, _ => ⟨S16384x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_cst : Ref sig .tc := ⟨.hbm, 36, rfl⟩
abbrev main_v18 : Ref sig .tc := ⟨.hbm, 37, rfl⟩
abbrev main_v19 : Ref sig .tc := ⟨.hbm, 38, rfl⟩
abbrev main_cst_0 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_cst_1 : Ref sig .tc := ⟨.hbm, 44, rfl⟩
abbrev main_v24 : Ref sig .tc := ⟨.hbm, 45, rfl⟩
abbrev main_v25 : Ref sig .tc := ⟨.hbm, 46, rfl⟩
abbrev main_cst_2 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_cst_3 : Ref sig .tc := ⟨.hbm, 53, rfl⟩
abbrev main_v31 : Ref sig .tc := ⟨.hbm, 54, rfl⟩
abbrev main_v32 : Ref sig .tc := ⟨.hbm, 55, rfl⟩
abbrev main_cst_4 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_cst_5 : Ref sig .tc := ⟨.hbm, 80, rfl⟩
abbrev main_v56 : Ref sig .tc := ⟨.hbm, 81, rfl⟩
abbrev main_v57 : Ref sig .tc := ⟨.hbm, 82, rfl⟩
abbrev main_cst_6 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_cst_7 : Ref sig .tc := ⟨.hbm, 94, rfl⟩
abbrev main_v68 : Ref sig .tc := ⟨.hbm, 95, rfl⟩
abbrev main_v69 : Ref sig .tc := ⟨.hbm, 96, rfl⟩
abbrev main_cst_8 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev main_v75 : Ref sig .tc := ⟨.hbm, 103, rfl⟩
abbrev main_v76 : Ref sig .tc := ⟨.hbm, 104, rfl⟩
abbrev main_v77 : Ref sig .tc := ⟨.hbm, 105, rfl⟩
abbrev main_cst_9 : Ref sig .tc := ⟨.hbm, 106, rfl⟩
abbrev main_v78 : Ref sig .tc := ⟨.hbm, 107, rfl⟩
abbrev main_v79 : Ref sig .tc := ⟨.hbm, 108, rfl⟩
abbrev main_cst_10 : Ref sig .tc := ⟨.hbm, 109, rfl⟩
abbrev main_v80 : Ref sig .tc := ⟨.hbm, 110, rfl⟩
abbrev main_v81 : Ref sig .tc := ⟨.hbm, 111, rfl⟩
abbrev main_v82 : Ref sig .tc := ⟨.hbm, 112, rfl⟩
abbrev main_v83 : Ref sig .tc := ⟨.hbm, 113, rfl⟩
abbrev main_v84 : Ref sig .tc := ⟨.hbm, 114, rfl⟩
abbrev main_v85 : Ref sig .tc := ⟨.hbm, 115, rfl⟩
abbrev main_v86 : Ref sig .tc := ⟨.hbm, 116, rfl⟩
abbrev main_v87 : Ref sig .tc := ⟨.hbm, 117, rfl⟩
abbrev main_v88 : Ref sig .tc := ⟨.hbm, 118, rfl⟩
abbrev main_v89 : Ref sig .tc := ⟨.hbm, 119, rfl⟩
abbrev main_cst_11 : Ref sig .tc := ⟨.hbm, 120, rfl⟩
abbrev main_v90 : Ref sig .tc := ⟨.hbm, 121, rfl⟩
abbrev main_v91 : Ref sig .tc := ⟨.hbm, 122, rfl⟩
abbrev main_cst_12 : Ref sig .tc := ⟨.hbm, 123, rfl⟩
abbrev main_v92 : Ref sig .tc := ⟨.hbm, 124, rfl⟩
abbrev main_v93 : Ref sig .tc := ⟨.hbm, 125, rfl⟩
abbrev main_cst_13 : Ref sig .tc := ⟨.hbm, 126, rfl⟩
abbrev main_v94 : Ref sig .tc := ⟨.hbm, 127, rfl⟩
abbrev main_v95 : Ref sig .tc := ⟨.hbm, 128, rfl⟩
abbrev main_v96 : Ref sig .tc := ⟨.hbm, 129, rfl⟩
abbrev main_v97 : Ref sig .tc := ⟨.hbm, 130, rfl⟩
abbrev main_v98 : Ref sig .tc := ⟨.hbm, 131, rfl⟩
abbrev main_v99 : Ref sig .tc := ⟨.hbm, 132, rfl⟩
abbrev main_v100 : Ref sig .tc := ⟨.hbm, 133, rfl⟩
abbrev main_v101 : Ref sig .tc := ⟨.hbm, 134, rfl⟩
abbrev main_v102 : Ref sig .tc := ⟨.hbm, 135, rfl⟩
abbrev main_v103 : Ref sig .tc := ⟨.hbm, 136, rfl⟩
abbrev main_v104 : Ref sig .tc := ⟨.hbm, 137, rfl⟩
abbrev main_cst_14 : Ref sig .tc := ⟨.hbm, 138, rfl⟩
abbrev main_v105 : Ref sig .tc := ⟨.hbm, 139, rfl⟩
abbrev main_v106 : Ref sig .tc := ⟨.hbm, 140, rfl⟩
abbrev main_v107 : Ref sig .tc := ⟨.hbm, 141, rfl⟩
abbrev main_v108 : Ref sig .tc := ⟨.hbm, 142, rfl⟩
abbrev main_v109 : Ref sig .tc := ⟨.hbm, 143, rfl⟩
abbrev main_v110 : Ref sig .tc := ⟨.hbm, 144, rfl⟩
abbrev main_v111 : Ref sig .tc := ⟨.hbm, 145, rfl⟩
abbrev main_v112 : Ref sig .tc := ⟨.hbm, 146, rfl⟩
abbrev main_v113 : Ref sig .tc := ⟨.hbm, 147, rfl⟩
abbrev main_cst_15 : Ref sig .tc := ⟨.hbm, 148, rfl⟩
abbrev main_v114 : Ref sig .tc := ⟨.hbm, 149, rfl⟩
abbrev main_v115 : Ref sig .tc := ⟨.hbm, 150, rfl⟩
abbrev main_v116 : Ref sig .tc := ⟨.hbm, 151, rfl⟩
abbrev main_v117 : Ref sig .tc := ⟨.hbm, 152, rfl⟩
abbrev main_v118 : Ref sig .tc := ⟨.hbm, 153, rfl⟩
abbrev main_v119 : Ref sig .tc := ⟨.hbm, 154, rfl⟩
abbrev main_cst_16 : Ref sig .tc := ⟨.hbm, 155, rfl⟩
abbrev main_v120 : Ref sig .tc := ⟨.hbm, 156, rfl⟩
abbrev main_v121 : Ref sig .tc := ⟨.hbm, 157, rfl⟩
abbrev main_v122 : Ref sig .tc := ⟨.hbm, 158, rfl⟩

abbrev nD : Nat := 1
abbrev τ : Topo := Topo.v7x

variable {F : FTy → Type} [FloatOps F]

class Facts₀ : Prop where
  transposes_S2048x512_S512x2048_1_0 : S2048x512.Transposes [1, 0] S512x2048
  bcast_S2048_S1x2048_1 : S2048.BroadcastsInDim S1x2048 (![1] : Fin 1 → Fin S1x2048.rank)
  bcast_S1x2048_S16384x2048_0_1 : S1x2048.BroadcastsInDim S16384x2048 (![0, 1] : Fin 2 → Fin S16384x2048.rank)
  shapeCasts_S1x16384x512_S16384x512 : S1x16384x512.ShapeCasts S16384x512
  slices_S16384x2048_S16384x512_0_0 : S16384x2048.Slices ![0, 0] S16384x512
  slices_S16384x2048_S16384x512_0_512 : S16384x2048.Slices ![0, 512] S16384x512
  slices_S16384x2048_S16384x512_0_1024 : S16384x2048.Slices ![0, 1024] S16384x512
  slices_S16384x2048_S16384x512_0_1536 : S16384x2048.Slices ![0, 1536] S16384x512
  bcast_S_S16384x512 : S_.BroadcastsInDim S16384x512 (![] : Fin 0 → Fin S16384x512.rank)
  bcast_S16384x512_S1x16384x512_1_2 : S16384x512.BroadcastsInDim S1x16384x512 (![1, 2] : Fin 2 → Fin S1x16384x512.rank)
  transposes_S256x512_S512x256_1_0 : S256x512.Transposes [1, 0] S512x256
  bcast_S256_S1x256_1 : S256.BroadcastsInDim S1x256 (![1] : Fin 1 → Fin S1x256.rank)
  bcast_S1x256_S16384x256_0_1 : S1x256.BroadcastsInDim S16384x256 (![0, 1] : Fin 2 → Fin S16384x256.rank)
  bcast_S_S16384x256 : S_.BroadcastsInDim S16384x256 (![] : Fin 0 → Fin S16384x256.rank)
  transposes_S1x256_S256x1_1_0 : S1x256.Transposes [1, 0] S256x1
  bcast_S1_S1x1_1 : S1.BroadcastsInDim S1x1 (![1] : Fin 1 → Fin S1x1.rank)
  bcast_S1x1_S16384x1_0_1 : S1x1.BroadcastsInDim S16384x1 (![0, 1] : Fin 2 → Fin S16384x1.rank)
  bcast_S_S16384x1 : S_.BroadcastsInDim S16384x1 (![] : Fin 0 → Fin S16384x1.rank)
  bcast_S16384x1_S1x16384x1_1_2 : S16384x1.BroadcastsInDim S1x16384x1 (![1, 2] : Fin 2 → Fin S1x16384x1.rank)
  bcast_S1x16384x1_S1x16384x512_0_1_2 : S1x16384x1.BroadcastsInDim S1x16384x512 (![0, 1, 2] : Fin 3 → Fin S1x16384x512.rank)
  dot_S16384x512_S512x2048_S16384x2048_1_0_0_1_n_n_wf : DotDims.WF S16384x512 S512x2048 S16384x2048 [1] [0] [0] [1] [] []
  dot_S16384x512_S512x256_S16384x256_1_0_0_1_n_n_wf : DotDims.WF S16384x512 S512x256 S16384x256 [1] [0] [0] [1] [] []
  dot_S16384x256_S256x1_S16384x1_1_0_0_1_n_n_wf : DotDims.WF S16384x256 S256x1 S16384x1 [1] [0] [0] [1] [] []

variable [Facts₀]

def dot_S16384x512_S512x2048_S16384x2048_1_0_0_1_n_n : DotDims S16384x512 S512x2048 S16384x2048 where
  lhsContracting := [1]
  rhsContracting := [0]
  lhsNonContracting := [0]
  rhsNonContracting := [1]
  lhsBatch := []
  rhsBatch := []
  wf := dot_S16384x512_S512x2048_S16384x2048_1_0_0_1_n_n_wf
def dot_S16384x512_S512x256_S16384x256_1_0_0_1_n_n : DotDims S16384x512 S512x256 S16384x256 where
  lhsContracting := [1]
  rhsContracting := [0]
  lhsNonContracting := [0]
  rhsNonContracting := [1]
  lhsBatch := []
  rhsBatch := []
  wf := dot_S16384x512_S512x256_S16384x256_1_0_0_1_n_n_wf
def dot_S16384x256_S256x1_S16384x1_1_0_0_1_n_n : DotDims S16384x256 S256x1 S16384x1 where
  lhsContracting := [1]
  rhsContracting := [0]
  lhsNonContracting := [0]
  rhsNonContracting := [1]
  lhsBatch := []
  rhsBatch := []
  wf := dot_S16384x256_S256x1_S16384x1_1_0_0_1_n_n_wf

class Facts : Prop extends Facts₀ where

variable [Facts]
-- ==== Proof.Spec.lean ====
import proofs.«171496_j80513456930853_1_alg».proof.ReferenceIdeal
import proofs.«171496_j80513456930853_1_alg».proof.Proof.Gen.ReferenceIdeal
import Idealize.ShloMosaic.PureOps.Ideal

noncomputable section

/-! # One step of a gated LSTM cell with a skip gate, as functions of the whole arrays

`B = 16384` rows, input and state width `512`, gate layer width `256`. Everything is row by row: row `r` of each
result depends on row `r` of `x`, `h`, `c`, `cum` and on the weights.

* `gates = x·Wihᵀ + bih + h·Whhᵀ + bhh` (`[B, 2048]`), cut into four `[B, 512]` pieces `i f g o`;
  `c₁ = σ f · c + σ i · tanh g`, `h₁ = σ o · tanh c₁`, with `σ z = 1 / (1 + e^(−z))`.
* `δ = σ (ℓ (c·Wspᵀ + bsp + c₁·Wscᵀ + bsc) · Wsoᵀ + bso)` and `θ = σ (ℓ (c·Wtpᵀ + btp) · Wtoᵀ + bto)` (`[B, 1]`),
  `ℓ` the leaky rectifier `z ↦ z` for `z > 0`, else `0.01·z` (the word `0x3C23D70A`).
* `p = cum + min δ (1 − cum)`, `u = [p > θ]` as `0` or `1`, and the gate passed on is `g = p + (u − p)`,
  which is `u` whenever `p` is a real number.
* results: `g·h₁ + (1 − g)·h`, `g·c₁ + (1 − g)·c` (`[1, B, 512]`), `(1 − g)·p`, `δ`, `p`.

The terms are spelt with the host's operations in the order the reference applies them. -/

namespace Cert.Cell

open Idealize.ShloMosaic Cert.ReferenceIdeal Cert.ReferenceIdeal.Gen

abbrev A2 (s : Shape) := FVec Ideal s .f32

/-- A `[1, B, 512]` array read as `[B, 512]`. -/
def flat (a : A2 S1x16384x512) : A2 S16384x512 := shapeCast _ a shapeCasts_S1x16384x512_S16384x512
/-- A `[B, 512]` array read as `[1, B, 512]`. -/
def lift (a : A2 S16384x512) : A2 S1x16384x512 := broadcastInDim S1x16384x512 ![1, 2] bcast_S16384x512_S1x16384x512_1_2 a

def tr2048 (W : A2 S2048x512) : A2 S512x2048 := transpose S512x2048 [1, 0] W transposes_S2048x512_S512x2048_1_0
def tr256 (W : A2 S256x512) : A2 S512x256 := transpose S512x256 [1, 0] W transposes_S256x512_S512x256_1_0
def trCol (W : A2 S1x256) : A2 S256x1 := transpose S256x1 [1, 0] W transposes_S1x256_S256x1_1_0

/-- A bias vector laid under every row. -/
def rows2048 (b : A2 S2048) : A2 S16384x2048 :=
  broadcastInDim S16384x2048 ![0, 1] bcast_S1x2048_S16384x2048_0_1 (broadcastInDim S1x2048 ![1] bcast_S2048_S1x2048_1 b)
def rows256 (b : A2 S256) : A2 S16384x256 :=
  broadcastInDim S16384x256 ![0, 1] bcast_S1x256_S16384x256_0_1 (broadcastInDim S1x256 ![1] bcast_S256_S1x256_1 b)
def rows1 (b : A2 S1) : A2 S16384x1 :=
  broadcastInDim S16384x1 ![0, 1] bcast_S1x1_S16384x1_0_1 (broadcastInDim S1x1 ![1] bcast_S1_S1x1_1 b)

/-- The constant array of a word. -/
def splat512 (w : BitVec 32) : A2 S16384x512 := broadcastInDim S16384x512 ![] bcast_S_S16384x512 (constant S_ .f32 w)
def splat256 (w : BitVec 32) : A2 S16384x256 := broadcastInDim S16384x256 ![] bcast_S_S16384x256 (constant S_ .f32 w)
def splat1 (w : BitVec 32) : A2 S16384x1 := broadcastInDim S16384x1 ![] bcast_S_S16384x1 (constant S_ .f32 w)

/-- `σ z = 1 / (1 + e^(−z))`, entry by entry. -/
def sig512 (z : A2 S16384x512) : A2 S16384x512 :=
  Host.divf (splat512 0x3F800000#32) (addf (splat512 0x3F800000#32) (Host.exp (Host.negf z)))
def sig1 (z : A2 S16384x1) : A2 S16384x1 :=
  Host.divf (splat1 0x3F800000#32) (addf (splat1 0x3F800000#32) (Host.exp (Host.negf z)))

/-- The leaky rectifier. -/
def leaky (z : A2 S16384x256) : A2 S16384x256 :=
  select (cmpf .ogt z (splat256 0x00000000#32)) z (mulf (splat256 0x3C23D70A#32) z)

/-- The four gate pre-activations side by side. -/
def gates (x : A2 S16384x512) (h : A2 S1x16384x512) (Wih Whh : A2 S2048x512) (bih bhh : A2 S2048) : A2 S16384x2048 :=
  addf (addf (addf (Host.dotGeneral dot_S16384x512_S512x2048_S16384x2048_1_0_0_1_n_n none x (tr2048 Wih)) (rows2048 bih))
    (Host.dotGeneral dot_S16384x512_S512x2048_S16384x2048_1_0_0_1_n_n none (flat h) (tr2048 Whh))) (rows2048 bhh)

def gateI (G : A2 S16384x2048) : A2 S16384x512 := sig512 (extractStridedSlice S16384x512 ![0, 0] G slices_S16384x2048_S16384x512_0_0)
def gateF (G : A2 S16384x2048) : A2 S16384x512 := sig512 (extractStridedSlice S16384x512 ![0, 512] G slices_S16384x2048_S16384x512_0_512)
def gateG (G : A2 S16384x2048) : A2 S16384x512 := Host.tanh (extractStridedSlice S16384x512 ![0, 1024] G slices_S16384x2048_S16384x512_0_1024)
def gateO (G : A2 S16384x2048) : A2 S16384x512 := sig512 (extractStridedSlice S16384x512 ![0, 1536] G slices_S16384x2048_S16384x512_0_1536)

/-- The new cell state of the plain LSTM step, `[B, 512]`. -/
def cell (G : A2 S16384x2048) (c : A2 S1x16384x512) : A2 S16384x512 :=
  addf (mulf (gateF G) (flat c)) (mulf (gateI G) (gateG G))
/-- Its new hidden state. -/
def hidden (G : A2 S16384x2048) (c : A2 S1x16384x512) : A2 S16384x512 :=
  mulf (gateO G) (Host.tanh (cell G c))

/-- The skip gate's increment `δ`, from the old cell state and a `[B, 512]` new one. -/
def delta (c : A2 S1x16384x512) (c1 : A2 S16384x512) (Wsp : A2 S256x512) (bsp : A2 S256) (Wsc : A2 S256x512) (bsc : A2 S256)
    (Wso : A2 S1x256) (bso : A2 S1) : A2 S16384x1 :=
  sig1 (addf (Host.dotGeneral dot_S16384x256_S256x1_S16384x1_1_0_0_1_n_n none
    (leaky (addf (addf (addf (Host.dotGeneral dot_S16384x512_S512x256_S16384x256_1_0_0_1_n_n none (flat c) (tr256 Wsp)) (rows256 bsp))
      (Host.dotGeneral dot_S16384x512_S512x256_S16384x256_1_0_0_1_n_n none c1 (tr256 Wsc))) (rows256 bsc)))
    (trCol Wso)) (rows1 bso))

/-- The threshold `θ`. -/
def thresh (c : A2 S1x16384x512) (Wtp : A2 S256x512) (btp : A2 S256) (Wto : A2 S1x256) (bto : A2 S1) : A2 S16384x1 :=
  sig1 (addf (Host.dotGeneral dot_S16384x256_S256x1_S16384x1_1_0_0_1_n_n none
    (leaky (addf (Host.dotGeneral dot_S16384x512_S512x256_S16384x256_1_0_0_1_n_n none (flat c) (tr256 Wtp)) (rows256 btp)))
    (trCol Wto)) (rows1 bto))

/-- The running probability `p = cum + min δ (1 − cum)`. -/
def prob (cum d : A2 S16384x1) : A2 S16384x1 := addf cum (minimumf d (subf (splat1 0x3F800000#32) cum))

/-- `[p > θ]` as `0` or `1`. -/
def hard (p th : A2 S16384x1) : A2 S16384x1 := uitofp .f32 (cmpf .ogt p th)

/-- The gate the reference passes on: `p + (u − p)`. -/
def through (p u : A2 S16384x1) : A2 S16384x1 := addf p (subf u p)

/-- A `[B, 1]` column laid across `[1, B, 512]`. -/
def col3 (g : A2 S16384x1) : A2 S1x16384x512 :=
  broadcastInDim S1x16384x512 ![0, 1, 2] bcast_S1x16384x1_S1x16384x512_0_1_2 (broadcastInDim S1x16384x1 ![1, 2] bcast_S16384x1_S1x16384x1_1_2 g)

/-- `g·new + (1 − g)·old` over `[1, B, 512]`. -/
def mix3 (g : A2 S16384x1) (new : A2 S16384x512) (old : A2 S1x16384x512) : A2 S1x16384x512 :=
  addf (mulf (col3 g) (lift new)) (mulf (col3 (subf (splat1 0x3F800000#32) g)) old)

/-- `(1 − g)·p`. -/
def carry (g p : A2 S16384x1) : A2 S16384x1 := mulf (subf (splat1 0x3F800000#32) g) p

/-- A `[B, 1]` column laid across the 512 lanes of `[B, 512]`. -/
def colB (g : A2 S16384x1) : A2 S16384x512 :=
  broadcastInDim S16384x512 ![0, 1] (by decide) g

/-- `u·new + (1 − u)·old` over `[B, 512]`, the column laid across first. -/
def mix2 (u : A2 S16384x1) (new old : A2 S16384x512) : A2 S16384x512 :=
  addf (mulf (colB u) new) (mulf (subf (splat512 0x3F800000#32) (colB u)) old)

/-! ## The five results, as functions of the eighteen arguments -/

section Results
variable (x : A2 S16384x512) (h c : A2 S1x16384x512) (cum : A2 S16384x1) (Wih Whh : A2 S2048x512) (bih bhh : A2 S2048)
  (Wsp : A2 S256x512) (bsp : A2 S256) (Wsc : A2 S256x512) (bsc : A2 S256) (Wso : A2 S1x256) (bso : A2 S1)
  (Wtp : A2 S256x512) (btp : A2 S256) (Wto : A2 S1x256) (bto : A2 S1)

/-- The plain step's cell and hidden state. -/
def stepC : A2 S16384x512 := cell (gates x h Wih Whh bih bhh) c
def stepH : A2 S16384x512 := hidden (gates x h Wih Whh bih bhh) c
/-- `δ`, `θ`, `p`, `u`. -/
def stepD : A2 S16384x1 := delta c (stepC x h c Wih Whh bih bhh) Wsp bsp Wsc bsc Wso bso
def stepT : A2 S16384x1 := thresh c Wtp btp Wto bto
def stepP : A2 S16384x1 := prob cum (stepD x h c Wih Whh bih bhh Wsp bsp Wsc bsc Wso bso)
def stepU : A2 S16384x1 := hard (stepP x h c cum Wih Whh bih bhh Wsp bsp Wsc bsc Wso bso) (stepT c Wtp btp Wto bto)

/-- The new hidden and cell state as `[B, 512]` arrays, gated by `u`. -/
def newH2 : A2 S16384x512 :=
  mix2 (stepU x h c cum Wih Whh bih bhh Wsp bsp Wsc bsc Wso bso Wtp btp Wto bto) (stepH x h c Wih Whh bih bhh) (flat h)
def newC2 : A2 S16384x512 :=
  mix2 (stepU x h c cum Wih Whh bih bhh Wsp bsp Wsc bsc Wso bso Wtp btp Wto bto) (stepC x h c Wih Whh bih bhh) (flat c)
/-- The probability carried on, `(1 − u)·p`. -/
def newCum : A2 S16384x1 :=
  carry (stepU x h c cum Wih Whh bih bhh Wsp bsp Wsc bsc Wso bso Wtp btp Wto bto) (stepP x h c cum Wih Whh bih bhh Wsp bsp Wsc bsc Wso bso)

end Results

end Cert.Cell

end
-- ==== Proof.Rows.lean ====
import proofs.«171496_j80513456930853_1_alg».proof.Proof.Gen.KernelIdeal
import proofs.«171496_j80513456930853_1_alg».proof.Proof.Spec
import Idealize.ShloMosaic.Lib.Layout

noncomputable section

/-! # Blocks of 512 rows, and the arrays the kernel is handed

The kernel works on `32` blocks of `512` rows. `rowsOf t X` is rows `512·t … 512·t + 511` of a `[16384, N]` array.
The weights reach the kernel transposed and the bias vectors as one-row arrays `[1, N]`. -/

namespace Cert.Cell

open Idealize.ShloMosaic Idealize.ShloMosaic.Layout
open Cert.KernelIdeal Cert.KernelIdeal.Gen

/-- Rows `512·t … 512·t + 511` of a `[16384, N]` array. -/
abbrev rowsOf {N : ℕ} (t : Fin 32) (X : (⟨2, ![16384, N]⟩ : Shape).Idx → Ideal .f32)
    (h : Tiles ⟨2, ![512, N]⟩ ⟨2, ![16384, N]⟩ 0 32 := by decide) : (⟨2, ![512, N]⟩ : Shape).Idx → Ideal .f32 :=
  block ⟨2, ![512, N]⟩ ⟨2, ![16384, N]⟩ 0 32 t X h

/-- A bias vector as the one-row array the kernel is handed. -/
abbrev row2048 (b : A2 S2048) : A2 S1x2048 := shapeCast _ b shapeCasts_S2048_S1x2048
abbrev row256 (b : A2 S256) : A2 S1x256 := shapeCast _ b shapeCasts_S256_S1x256
abbrev row1 (b : A2 S1) : A2 S1x1 := shapeCast _ b shapeCasts_S1_S1x1

end Cert.Cell

end
-- ==== Proof.Blocks.lean ====
import proofs.«171496_j80513456930853_1_alg».proof.Proof.Gen.KernelIdeal.Frame
import proofs.«171496_j80513456930853_1_alg».proof.Proof.Rows
import Idealize.ShloMosaic.Lib.Layout
import Idealize.ShloMosaic.Lib.Pipeline.Value
import Idealize.ShloMosaic.PureOps.Ideal

set_option maxRecDepth 16384

noncomputable section

/-! # What each window's block holds at grid point `t`

The grid has `32` points. At point `t` the four row windows (`x`, `h`, `c`, `cum`) hold rows `512·t … 512·t + 511` of
their arrays, and the fourteen weight windows hold their whole array, the same at every point. The arrays the region
finds were written by the host before it: `h` and `c` read as `[16384, 512]`, each weight matrix transposed, each
bias vector as one row. Conversely the block of an output window at point `t` is rows `512·t …` of the output
array. -/

namespace Cert.KernelIdeal.Blocks

open Idealize.ShloMosaic Idealize.ShloMosaic.TcCoe Idealize.SL.Sem Idealize.ShloMosaic.Layout
open Cert.KernelIdeal Cert.KernelIdeal.Gen Cert.Cell

variable (m : (ℓ : Loc nD τ sig) → Buf (Elt Ideal) ℓ) (c : Dev nD) (t : Fin cfg0.N)

/-- The grid point as a number below `32` (the grid has `32` points). -/
abbrev pt (t : Fin cfg0.N) : Fin 32 := Fin.cast rfl t

/-- Argument `k` of the program as launched. -/
abbrev arg0 : A2 S16384x512 := m ((c : Thread nD τ).loc main_arg0)
abbrev arg1 : A2 S1x16384x512 := m ((c : Thread nD τ).loc main_arg1)
abbrev arg2 : A2 S1x16384x512 := m ((c : Thread nD τ).loc main_arg2)
abbrev arg3 : A2 S16384x1 := m ((c : Thread nD τ).loc main_arg3)
abbrev arg4 : A2 S2048x512 := m ((c : Thread nD τ).loc main_arg4)
abbrev arg5 : A2 S2048x512 := m ((c : Thread nD τ).loc main_arg5)
abbrev arg6 : A2 S2048 := m ((c : Thread nD τ).loc main_arg6)
abbrev arg7 : A2 S2048 := m ((c : Thread nD τ).loc main_arg7)
abbrev arg8 : A2 S256x512 := m ((c : Thread nD τ).loc main_arg8)
abbrev arg9 : A2 S256 := m ((c : Thread nD τ).loc main_arg9)
abbrev arg10 : A2 S256x512 := m ((c : Thread nD τ).loc main_arg10)
abbrev arg11 : A2 S256 := m ((c : Thread nD τ).loc main_arg11)
abbrev arg12 : A2 S1x256 := m ((c : Thread nD τ).loc main_arg12)
abbrev arg13 : A2 S1 := m ((c : Thread nD τ).loc main_arg13)
abbrev arg14 : A2 S256x512 := m ((c : Thread nD τ).loc main_arg14)
abbrev arg15 : A2 S256 := m ((c : Thread nD τ).loc main_arg15)
abbrev arg16 : A2 S1x256 := m ((c : Thread nD τ).loc main_arg16)
abbrev arg17 : A2 S1 := m ((c : Thread nD τ).loc main_arg17)

/-! ## The row windows -/

/-- A row window's index map at point `t`: block `t` down the rows, block `0` across. -/
theorem winIdx0 : ∀ t : Fin cfg0.N, win0_0.index t (0 : Fin 2) = t.val ∧ win0_0.index t (1 : Fin 2) = 0 :=
  (by decide +kernel : ∀ t : Fin grid0.N, _)
theorem winIdx1 : ∀ t : Fin cfg0.N, win0_1.index t (0 : Fin 2) = t.val ∧ win0_1.index t (1 : Fin 2) = 0 :=
  (by decide +kernel : ∀ t : Fin grid0.N, _)
theorem winIdx2 : ∀ t : Fin cfg0.N, win0_2.index t (0 : Fin 2) = t.val ∧ win0_2.index t (1 : Fin 2) = 0 :=
  (by decide +kernel : ∀ t : Fin grid0.N, _)
theorem winIdx3 : ∀ t : Fin cfg0.N, win0_3.index t (0 : Fin 2) = t.val ∧ win0_3.index t (1 : Fin 2) = 0 :=
  (by decide +kernel : ∀ t : Fin grid0.N, _)

/-- Where entry `y` of a row window's block lies in the array: row `512·t + y₀`, column `y₁`
    (a block's coordinate is index × size + the coordinate inside the block). -/
theorem winEmb0 (y : S512x512.Idx) :
    (((cfg0.win 0).blk t).view.emb y : S16384x512.Idx) = (by decide : Tiles S512x512 S16384x512 0 32).idx (pt t) y := by
  obtain ⟨h0, h1⟩ := winIdx0 t
  funext a
  match a with
  | ⟨0, _⟩ =>
    apply Fin.ext
    show win0_0.index t (0 : Fin 2) * 512 + 1 * (y (0 : Fin 2)).val = t.val * 512 + (y (0 : Fin 2)).val
    rw [h0]; omega
  | ⟨1, _⟩ =>
    apply Fin.ext
    show win0_0.index t (1 : Fin 2) * 512 + 1 * (y (1 : Fin 2)).val = (y (1 : Fin 2)).val
    rw [h1]; omega
theorem winEmb1 (y : S512x512.Idx) :
    (((cfg0.win 1).blk t).view.emb y : S16384x512.Idx) = (by decide : Tiles S512x512 S16384x512 0 32).idx (pt t) y := by
  obtain ⟨h0, h1⟩ := winIdx1 t
  funext a
  match a with
  | ⟨0, _⟩ =>
    apply Fin.ext
    show win0_1.index t (0 : Fin 2) * 512 + 1 * (y (0 : Fin 2)).val = t.val * 512 + (y (0 : Fin 2)).val
    rw [h0]; omega
  | ⟨1, _⟩ =>
    apply Fin.ext
    show win0_1.index t (1 : Fin 2) * 512 + 1 * (y (1 : Fin 2)).val = (y (1 : Fin 2)).val
    rw [h1]; omega
theorem winEmb2 (y : S512x512.Idx) :
    (((cfg0.win 2).blk t).view.emb y : S16384x512.Idx) = (by decide : Tiles S512x512 S16384x512 0 32).idx (pt t) y := by
  obtain ⟨h0, h1⟩ := winIdx2 t
  funext a
  match a with
  | ⟨0, _⟩ =>
    apply Fin.ext
    show win0_2.index t (0 : Fin 2) * 512 + 1 * (y (0 : Fin 2)).val = t.val * 512 + (y (0 : Fin 2)).val
    rw [h0]; omega
  | ⟨1, _⟩ =>
    apply Fin.ext
    show win0_2.index t (1 : Fin 2) * 512 + 1 * (y (1 : Fin 2)).val = (y (1 : Fin 2)).val
    rw [h1]; omega
theorem winEmb3 (y : S512x1.Idx) :
    (((cfg0.win 3).blk t).view.emb y : S16384x1.Idx) = (by decide : Tiles S512x1 S16384x1 0 32).idx (pt t) y := by
  obtain ⟨h0, h1⟩ := winIdx3 t
  funext a
  match a with
  | ⟨0, _⟩ =>
    apply Fin.ext
    show win0_3.index t (0 : Fin 2) * 512 + 1 * (y (0 : Fin 2)).val = t.val * 512 + (y (0 : Fin 2)).val
    rw [h0]; omega
  | ⟨1, _⟩ =>
    apply Fin.ext
    show win0_3.index t (1 : Fin 2) * 1 + 1 * (y (1 : Fin 2)).val = (y (1 : Fin 2)).val
    rw [h1]; omega

/-- The arrays of `h` and `c` as the region finds them: the arguments read as `[16384, 512]`. -/
theorem hostV0 : (V m c main_v0 : S16384x512.Idx → Ideal .f32) = flat (arg1 m c) := by
  show StableHlo.after hostOps0 (fun b => m (c, b)) (Proc.devRef .tc main_v0) = _
  after_results
  rfl
theorem hostV1 : (V m c main_v1 : S16384x512.Idx → Ideal .f32) = flat (arg2 m c) := by
  show StableHlo.after hostOps0 (fun b => m (c, b)) (Proc.devRef .tc main_v1) = _
  after_results
  rfl

theorem in0 : (iblk m c 0 t : S512x512.Idx → Ideal .f32) = rowsOf (pt t) (arg0 m c) := by
  funext y
  unfold iblk
  show V m c main_arg0 (((cfg0.win 0).blk t).view.emb y)
    = arg0 m c ((by decide : Tiles S512x512 S16384x512 0 32).idx (pt t) y)
  exact (congrArg (V m c main_arg0 : S16384x512.Idx → Ideal .f32) (winEmb0 t y)).trans (congrFun (V_main_arg0 m c) _)
theorem in1 : (iblk m c 1 t : S512x512.Idx → Ideal .f32) = rowsOf (pt t) (flat (arg1 m c)) := by
  funext y
  unfold iblk
  show V m c main_v0 (((cfg0.win 1).blk t).view.emb y)
    = flat (arg1 m c) ((by decide : Tiles S512x512 S16384x512 0 32).idx (pt t) y)
  exact (congrArg (V m c main_v0 : S16384x512.Idx → Ideal .f32) (winEmb1 t y)).trans (congrFun (hostV0 m c) _)
theorem in2 : (iblk m c 2 t : S512x512.Idx → Ideal .f32) = rowsOf (pt t) (flat (arg2 m c)) := by
  funext y
  unfold iblk
  show V m c main_v1 (((cfg0.win 2).blk t).view.emb y)
    = flat (arg2 m c) ((by decide : Tiles S512x512 S16384x512 0 32).idx (pt t) y)
  exact (congrArg (V m c main_v1 : S16384x512.Idx → Ideal .f32) (winEmb2 t y)).trans (congrFun (hostV1 m c) _)
theorem in3 : (iblk m c 3 t : S512x1.Idx → Ideal .f32) = rowsOf (pt t) (arg3 m c) := by
  funext y
  unfold iblk
  show V m c main_arg3 (((cfg0.win 3).blk t).view.emb y)
    = arg3 m c ((by decide : Tiles S512x1 S16384x1 0 32).idx (pt t) y)
  exact (congrArg (V m c main_arg3 : S16384x1.Idx → Ideal .f32) (winEmb3 t y)).trans (congrFun (V_main_arg3 m c) _)

/-! ## The weight windows: the whole array at every point -/

/-- A weight window's index map is `(0, 0)` at every point. -/
theorem winIdx4 : ∀ t : Fin cfg0.N, win0_4.index t (0 : Fin 2) = 0 ∧ win0_4.index t (1 : Fin 2) = 0 :=
  (by decide +kernel : ∀ t : Fin grid0.N, _)
theorem winIdx5 : ∀ t : Fin cfg0.N, win0_5.index t (0 : Fin 2) = 0 ∧ win0_5.index t (1 : Fin 2) = 0 :=
  (by decide +kernel : ∀ t : Fin grid0.N, _)
theorem winIdx6 : ∀ t : Fin cfg0.N, win0_6.index t (0 : Fin 2) = 0 ∧ win0_6.index t (1 : Fin 2) = 0 :=
  (by decide +kernel : ∀ t : Fin grid0.N, _)
theorem winIdx7 : ∀ t : Fin cfg0.N, win0_7.index t (0 : Fin 2) = 0 ∧ win0_7.index t (1 : Fin 2) = 0 :=
  (by decide +kernel : ∀ t : Fin grid0.N, _)
theorem winIdx8 : ∀ t : Fin cfg0.N, win0_8.index t (0 : Fin 2) = 0 ∧ win0_8.index t (1 : Fin 2) = 0 :=
  (by decide +kernel : ∀ t : Fin grid0.N, _)
theorem winIdx9 : ∀ t : Fin cfg0.N, win0_9.index t (0 : Fin 2) = 0 ∧ win0_9.index t (1 : Fin 2) = 0 :=
  (by decide +kernel : ∀ t : Fin grid0.N, _)
theorem winIdx10 : ∀ t : Fin cfg0.N, win0_10.index t (0 : Fin 2) = 0 ∧ win0_10.index t (1 : Fin 2) = 0 :=
  (by decide +kernel : ∀ t : Fin grid0.N, _)
theorem winIdx11 : ∀ t : Fin cfg0.N, win0_11.index t (0 : Fin 2) = 0 ∧ win0_11.index t (1 : Fin 2) = 0 :=
  (by decide +kernel : ∀ t : Fin grid0.N, _)
theorem winIdx12 : ∀ t : Fin cfg0.N, win0_12.index t (0 : Fin 2) = 0 ∧ win0_12.index t (1 : Fin 2) = 0 :=
  (by decide +kernel : ∀ t : Fin grid0.N, _)
theorem winIdx13 : ∀ t : Fin cfg0.N, win0_13.index t (0 : Fin 2) = 0 ∧ win0_13.index t (1 : Fin 2) = 0 :=
  (by decide +kernel : ∀ t : Fin grid0.N, _)
theorem winIdx14 : ∀ t : Fin cfg0.N, win0_14.index t (0 : Fin 2) = 0 ∧ win0_14.index t (1 : Fin 2) = 0 :=
  (by decide +kernel : ∀ t : Fin grid0.N, _)
theorem winIdx15 : ∀ t : Fin cfg0.N, win0_15.index t (0 : Fin 2) = 0 ∧ win0_15.index t (1 : Fin 2) = 0 :=
  (by decide +kernel : ∀ t : Fin grid0.N, _)
theorem winIdx16 : ∀ t : Fin cfg0.N, win0_16.index t (0 : Fin 2) = 0 ∧ win0_16.index t (1 : Fin 2) = 0 :=
  (by decide +kernel : ∀ t : Fin grid0.N, _)
theorem winIdx17 : ∀ t : Fin cfg0.N, win0_17.index t (0 : Fin 2) = 0 ∧ win0_17.index t (1 : Fin 2) = 0 :=
  (by decide +kernel : ∀ t : Fin grid0.N, _)

/-- Entry `y` of a weight window's block is entry `y` of the array: the one block is the whole array. -/
theorem winEmb4 (y : S512x2048.Idx) : (((cfg0.win 4).blk t).view.emb y : S512x2048.Idx) = y := by
  obtain ⟨h0, h1⟩ := winIdx4 t
  funext a
  match a with
  | ⟨0, _⟩ =>
    apply Fin.ext
    show win0_4.index t (0 : Fin 2) * 512 + 1 * (y (0 : Fin 2)).val = (y (0 : Fin 2)).val
    rw [h0]; omega
  | ⟨1, _⟩ =>
    apply Fin.ext
    show win0_4.index t (1 : Fin 2) * 2048 + 1 * (y (1 : Fin 2)).val = (y (1 : Fin 2)).val
    rw [h1]; omega
theorem winEmb5 (y : S1x2048.Idx) : (((cfg0.win 5).blk t).view.emb y : S1x2048.Idx) = y := by
  obtain ⟨h0, h1⟩ := winIdx5 t
  funext a
  match a with
  | ⟨0, _⟩ =>
    apply Fin.ext
    show win0_5.index t (0 : Fin 2) * 1 + 1 * (y (0 : Fin 2)).val = (y (0 : Fin 2)).val
    rw [h0]; omega
  | ⟨1, _⟩ =>
    apply Fin.ext
    show win0_5.index t (1 : Fin 2) * 2048 + 1 * (y (1 : Fin 2)).val = (y (1 : Fin 2)).val
    rw [h1]; omega
theorem winEmb6 (y : S512x2048.Idx) : (((cfg0.win 6).blk t).view.emb y : S512x2048.Idx) = y := by
  obtain ⟨h0, h1⟩ := winIdx6 t
  funext a
  match a with
  | ⟨0, _⟩ =>
    apply Fin.ext
    show win0_6.index t (0 : Fin 2) * 512 + 1 * (y (0 : Fin 2)).val = (y (0 : Fin 2)).val
    rw [h0]; omega
  | ⟨1, _⟩ =>
    apply Fin.ext
    show win0_6.index t (1 : Fin 2) * 2048 + 1 * (y (1 : Fin 2)).val = (y (1 : Fin 2)).val
    rw [h1]; omega
theorem winEmb7 (y : S1x2048.Idx) : (((cfg0.win 7).blk t).view.emb y : S1x2048.Idx) = y := by
  obtain ⟨h0, h1⟩ := winIdx7 t
  funext a
  match a with
  | ⟨0, _⟩ =>
    apply Fin.ext
    show win0_7.index t (0 : Fin 2) * 1 + 1 * (y (0 : Fin 2)).val = (y (0 : Fin 2)).val
    rw [h0]; omega
  | ⟨1, _⟩ =>
    apply Fin.ext
    show win0_7.index t (1 : Fin 2) * 2048 + 1 * (y (1 : Fin 2)).val = (y (1 : Fin 2)).val
    rw [h1]; omega
theorem winEmb8 (y : S512x256.Idx) : (((cfg0.win 8).blk t).view.emb y : S512x256.Idx) = y := by
  obtain ⟨h0, h1⟩ := winIdx8 t
  funext a
  match a with
  | ⟨0, _⟩ =>
    apply Fin.ext
    show win0_8.index t (0 : Fin 2) * 512 + 1 * (y (0 : Fin 2)).val = (y (0 : Fin 2)).val
    rw [h0]; omega
  | ⟨1, _⟩ =>
    apply Fin.ext
    show win0_8.index t (1 : Fin 2) * 256 + 1 * (y (1 : Fin 2)).val = (y (1 : Fin 2)).val
    rw [h1]; omega
theorem winEmb9 (y : S1x256.Idx) : (((cfg0.win 9).blk t).view.emb y : S1x256.Idx) = y := by
  obtain ⟨h0, h1⟩ := winIdx9 t
  funext a
  match a with
  | ⟨0, _⟩ =>
    apply Fin.ext
    show win0_9.index t (0 : Fin 2) * 1 + 1 * (y (0 : Fin 2)).val = (y (0 : Fin 2)).val
    rw [h0]; omega
  | ⟨1, _⟩ =>
    apply Fin.ext
    show win0_9.index t (1 : Fin 2) * 256 + 1 * (y (1 : Fin 2)).val = (y (1 : Fin 2)).val
    rw [h1]; omega
theorem winEmb10 (y : S512x256.Idx) : (((cfg0.win 10).blk t).view.emb y : S512x256.Idx) = y := by
  obtain ⟨h0, h1⟩ := winIdx10 t
  funext a
  match a with
  | ⟨0, _⟩ =>
    apply Fin.ext
    show win0_10.index t (0 : Fin 2) * 512 + 1 * (y (0 : Fin 2)).val = (y (0 : Fin 2)).val
    rw [h0]; omega
  | ⟨1, _⟩ =>
    apply Fin.ext
    show win0_10.index t (1 : Fin 2) * 256 + 1 * (y (1 : Fin 2)).val = (y (1 : Fin 2)).val
    rw [h1]; omega
theorem winEmb11 (y : S1x256.Idx) : (((cfg0.win 11).blk t).view.emb y : S1x256.Idx) = y := by
  obtain ⟨h0, h1⟩ := winIdx11 t
  funext a
  match a with
  | ⟨0, _⟩ =>
    apply Fin.ext
    show win0_11.index t (0 : Fin 2) * 1 + 1 * (y (0 : Fin 2)).val = (y (0 : Fin 2)).val
    rw [h0]; omega
  | ⟨1, _⟩ =>
    apply Fin.ext
    show win0_11.index t (1 : Fin 2) * 256 + 1 * (y (1 : Fin 2)).val = (y (1 : Fin 2)).val
    rw [h1]; omega
theorem winEmb12 (y : S256x1.Idx) : (((cfg0.win 12).blk t).view.emb y : S256x1.Idx) = y := by
  obtain ⟨h0, h1⟩ := winIdx12 t
  funext a
  match a with
  | ⟨0, _⟩ =>
    apply Fin.ext
    show win0_12.index t (0 : Fin 2) * 256 + 1 * (y (0 : Fin 2)).val = (y (0 : Fin 2)).val
    rw [h0]; omega
  | ⟨1, _⟩ =>
    apply Fin.ext
    show win0_12.index t (1 : Fin 2) * 1 + 1 * (y (1 : Fin 2)).val = (y (1 : Fin 2)).val
    rw [h1]; omega
theorem winEmb13 (y : S1x1.Idx) : (((cfg0.win 13).blk t).view.emb y : S1x1.Idx) = y := by
  obtain ⟨h0, h1⟩ := winIdx13 t
  funext a
  match a with
  | ⟨0, _⟩ =>
    apply Fin.ext
    show win0_13.index t (0 : Fin 2) * 1 + 1 * (y (0 : Fin 2)).val = (y (0 : Fin 2)).val
    rw [h0]; omega
  | ⟨1, _⟩ =>
    apply Fin.ext
    show win0_13.index t (1 : Fin 2) * 1 + 1 * (y (1 : Fin 2)).val = (y (1 : Fin 2)).val
    rw [h1]; omega
theorem winEmb14 (y : S512x256.Idx) : (((cfg0.win 14).blk t).view.emb y : S512x256.Idx) = y := by
  obtain ⟨h0, h1⟩ := winIdx14 t
  funext a
  match a with
  | ⟨0, _⟩ =>
    apply Fin.ext
    show win0_14.index t (0 : Fin 2) * 512 + 1 * (y (0 : Fin 2)).val = (y (0 : Fin 2)).val
    rw [h0]; omega
  | ⟨1, _⟩ =>
    apply Fin.ext
    show win0_14.index t (1 : Fin 2) * 256 + 1 * (y (1 : Fin 2)).val = (y (1 : Fin 2)).val
    rw [h1]; omega
theorem winEmb15 (y : S1x256.Idx) : (((cfg0.win 15).blk t).view.emb y : S1x256.Idx) = y := by
  obtain ⟨h0, h1⟩ := winIdx15 t
  funext a
  match a with
  | ⟨0, _⟩ =>
    apply Fin.ext
    show win0_15.index t (0 : Fin 2) * 1 + 1 * (y (0 : Fin 2)).val = (y (0 : Fin 2)).val
    rw [h0]; omega
  | ⟨1, _⟩ =>
    apply Fin.ext
    show win0_15.index t (1 : Fin 2) * 256 + 1 * (y (1 : Fin 2)).val = (y (1 : Fin 2)).val
    rw [h1]; omega
theorem winEmb16 (y : S256x1.Idx) : (((cfg0.win 16).blk t).view.emb y : S256x1.Idx) = y := by
  obtain ⟨h0, h1⟩ := winIdx16 t
  funext a
  match a with
  | ⟨0, _⟩ =>
    apply Fin.ext
    show win0_16.index t (0 : Fin 2) * 256 + 1 * (y (0 : Fin 2)).val = (y (0 : Fin 2)).val
    rw [h0]; omega
  | ⟨1, _⟩ =>
    apply Fin.ext
    show win0_16.index t (1 : Fin 2) * 1 + 1 * (y (1 : Fin 2)).val = (y (1 : Fin 2)).val
    rw [h1]; omega
theorem winEmb17 (y : S1x1.Idx) : (((cfg0.win 17).blk t).view.emb y : S1x1.Idx) = y := by
  obtain ⟨h0, h1⟩ := winIdx17 t
  funext a
  match a with
  | ⟨0, _⟩ =>
    apply Fin.ext
    show win0_17.index t (0 : Fin 2) * 1 + 1 * (y (0 : Fin 2)).val = (y (0 : Fin 2)).val
    rw [h0]; omega
  | ⟨1, _⟩ =>
    apply Fin.ext
    show win0_17.index t (1 : Fin 2) * 1 + 1 * (y (1 : Fin 2)).val = (y (1 : Fin 2)).val
    rw [h1]; omega

/-- The weight arrays as the region finds them: each matrix transposed, each bias vector as one row. -/
theorem hostV2 : (V m c main_v2 : S512x2048.Idx → Ideal .f32) = tr2048 (arg4 m c) := by
  show StableHlo.after hostOps0 (fun b => m (c, b)) (Proc.devRef .tc main_v2) = _
  after_results
  rfl
theorem hostV3 : (V m c main_v3 : S512x2048.Idx → Ideal .f32) = tr2048 (arg5 m c) := by
  show StableHlo.after hostOps0 (fun b => m (c, b)) (Proc.devRef .tc main_v3) = _
  after_results
  rfl
theorem hostV4 : (V m c main_v4 : S512x256.Idx → Ideal .f32) = tr256 (arg8 m c) := by
  show StableHlo.after hostOps0 (fun b => m (c, b)) (Proc.devRef .tc main_v4) = _
  after_results
  rfl
theorem hostV5 : (V m c main_v5 : S512x256.Idx → Ideal .f32) = tr256 (arg10 m c) := by
  show StableHlo.after hostOps0 (fun b => m (c, b)) (Proc.devRef .tc main_v5) = _
  after_results
  rfl
theorem hostV6 : (V m c main_v6 : S512x256.Idx → Ideal .f32) = tr256 (arg14 m c) := by
  show StableHlo.after hostOps0 (fun b => m (c, b)) (Proc.devRef .tc main_v6) = _
  after_results
  rfl
theorem hostV7 : (V m c main_v7 : S256x1.Idx → Ideal .f32) = trCol (arg12 m c) := by
  show StableHlo.after hostOps0 (fun b => m (c, b)) (Proc.devRef .tc main_v7) = _
  after_results
  rfl
theorem hostV8 : (V m c main_v8 : S256x1.Idx → Ideal .f32) = trCol (arg16 m c) := by
  show StableHlo.after hostOps0 (fun b => m (c, b)) (Proc.devRef .tc main_v8) = _
  after_results
  rfl
theorem hostV9 : (V m c main_v9 : S1x2048.Idx → Ideal .f32) = row2048 (arg6 m c) := by
  show StableHlo.after hostOps0 (fun b => m (c, b)) (Proc.devRef .tc main_v9) = _
  after_results
  rfl
theorem hostV10 : (V m c main_v10 : S1x2048.Idx → Ideal .f32) = row2048 (arg7 m c) := by
  show StableHlo.after hostOps0 (fun b => m (c, b)) (Proc.devRef .tc main_v10) = _
  after_results
  rfl
theorem hostV11 : (V m c main_v11 : S1x256.Idx → Ideal .f32) = row256 (arg9 m c) := by
  show StableHlo.after hostOps0 (fun b => m (c, b)) (Proc.devRef .tc main_v11) = _
  after_results
  rfl
theorem hostV12 : (V m c main_v12 : S1x256.Idx → Ideal .f32) = row256 (arg11 m c) := by
  show StableHlo.after hostOps0 (fun b => m (c, b)) (Proc.devRef .tc main_v12) = _
  after_results
  rfl
theorem hostV13 : (V m c main_v13 : S1x1.Idx → Ideal .f32) = row1 (arg13 m c) := by
  show StableHlo.after hostOps0 (fun b => m (c, b)) (Proc.devRef .tc main_v13) = _
  after_results
  rfl
theorem hostV14 : (V m c main_v14 : S1x256.Idx → Ideal .f32) = row256 (arg15 m c) := by
  show StableHlo.after hostOps0 (fun b => m (c, b)) (Proc.devRef .tc main_v14) = _
  after_results
  rfl
theorem hostV15 : (V m c main_v15 : S1x1.Idx → Ideal .f32) = row1 (arg17 m c) := by
  show StableHlo.after hostOps0 (fun b => m (c, b)) (Proc.devRef .tc main_v15) = _
  after_results
  rfl

theorem in4 : (iblk m c 4 t : S512x2048.Idx → Ideal .f32) = tr2048 (arg4 m c) := by
  funext y
  unfold iblk
  show V m c main_v2 (((cfg0.win 4).blk t).view.emb y) = tr2048 (arg4 m c) y
  exact (congrArg (V m c main_v2 : S512x2048.Idx → Ideal .f32) (winEmb4 t y)).trans (congrFun (hostV2 m c) y)
theorem in5 : (iblk m c 5 t : S1x2048.Idx → Ideal .f32) = row2048 (arg6 m c) := by
  funext y
  unfold iblk
  show V m c main_v9 (((cfg0.win 5).blk t).view.emb y) = row2048 (arg6 m c) y
  exact (congrArg (V m c main_v9 : S1x2048.Idx → Ideal .f32) (winEmb5 t y)).trans (congrFun (hostV9 m c) y)
theorem in6 : (iblk m c 6 t : S512x2048.Idx → Ideal .f32) = tr2048 (arg5 m c) := by
  funext y
  unfold iblk
  show V m c main_v3 (((cfg0.win 6).blk t).view.emb y) = tr2048 (arg5 m c) y
  exact (congrArg (V m c main_v3 : S512x2048.Idx → Ideal .f32) (winEmb6 t y)).trans (congrFun (hostV3 m c) y)
theorem in7 : (iblk m c 7 t : S1x2048.Idx → Ideal .f32) = row2048 (arg7 m c) := by
  funext y
  unfold iblk
  show V m c main_v10 (((cfg0.win 7).blk t).view.emb y) = row2048 (arg7 m c) y
  exact (congrArg (V m c main_v10 : S1x2048.Idx → Ideal .f32) (winEmb7 t y)).trans (congrFun (hostV10 m c) y)
theorem in8 : (iblk m c 8 t : S512x256.Idx → Ideal .f32) = tr256 (arg8 m c) := by
  funext y
  unfold iblk
  show V m c main_v4 (((cfg0.win 8).blk t).view.emb y) = tr256 (arg8 m c) y
  exact (congrArg (V m c main_v4 : S512x256.Idx → Ideal .f32) (winEmb8 t y)).trans (congrFun (hostV4 m c) y)
theorem in9 : (iblk m c 9 t : S1x256.Idx → Ideal .f32) = row256 (arg9 m c) := by
  funext y
  unfold iblk
  show V m c main_v11 (((cfg0.win 9).blk t).view.emb y) = row256 (arg9 m c) y
  exact (congrArg (V m c main_v11 : S1x256.Idx → Ideal .f32) (winEmb9 t y)).trans (congrFun (hostV11 m c) y)
theorem in10 : (iblk m c 10 t : S512x256.Idx → Ideal .f32) = tr256 (arg10 m c) := by
  funext y
  unfold iblk
  show V m c main_v5 (((cfg0.win 10).blk t).view.emb y) = tr256 (arg10 m c) y
  exact (congrArg (V m c main_v5 : S512x256.Idx → Ideal .f32) (winEmb10 t y)).trans (congrFun (hostV5 m c) y)
theorem in11 : (iblk m c 11 t : S1x256.Idx → Ideal .f32) = row256 (arg11 m c) := by
  funext y
  unfold iblk
  show V m c main_v12 (((cfg0.win 11).blk t).view.emb y) = row256 (arg11 m c) y
  exact (congrArg (V m c main_v12 : S1x256.Idx → Ideal .f32) (winEmb11 t y)).trans (congrFun (hostV12 m c) y)
theorem in12 : (iblk m c 12 t : S256x1.Idx → Ideal .f32) = trCol (arg12 m c) := by
  funext y
  unfold iblk
  show V m c main_v7 (((cfg0.win 12).blk t).view.emb y) = trCol (arg12 m c) y
  exact (congrArg (V m c main_v7 : S256x1.Idx → Ideal .f32) (winEmb12 t y)).trans (congrFun (hostV7 m c) y)
theorem in13 : (iblk m c 13 t : S1x1.Idx → Ideal .f32) = row1 (arg13 m c) := by
  funext y
  unfold iblk
  show V m c main_v13 (((cfg0.win 13).blk t).view.emb y) = row1 (arg13 m c) y
  exact (congrArg (V m c main_v13 : S1x1.Idx → Ideal .f32) (winEmb13 t y)).trans (congrFun (hostV13 m c) y)
theorem in14 : (iblk m c 14 t : S512x256.Idx → Ideal .f32) = tr256 (arg14 m c) := by
  funext y
  unfold iblk
  show V m c main_v6 (((cfg0.win 14).blk t).view.emb y) = tr256 (arg14 m c) y
  exact (congrArg (V m c main_v6 : S512x256.Idx → Ideal .f32) (winEmb14 t y)).trans (congrFun (hostV6 m c) y)
theorem in15 : (iblk m c 15 t : S1x256.Idx → Ideal .f32) = row256 (arg15 m c) := by
  funext y
  unfold iblk
  show V m c main_v14 (((cfg0.win 15).blk t).view.emb y) = row256 (arg15 m c) y
  exact (congrArg (V m c main_v14 : S1x256.Idx → Ideal .f32) (winEmb15 t y)).trans (congrFun (hostV14 m c) y)
theorem in16 : (iblk m c 16 t : S256x1.Idx → Ideal .f32) = trCol (arg16 m c) := by
  funext y
  unfold iblk
  show V m c main_v8 (((cfg0.win 16).blk t).view.emb y) = trCol (arg16 m c) y
  exact (congrArg (V m c main_v8 : S256x1.Idx → Ideal .f32) (winEmb16 t y)).trans (congrFun (hostV8 m c) y)
theorem in17 : (iblk m c 17 t : S1x1.Idx → Ideal .f32) = row1 (arg17 m c) := by
  funext y
  unfold iblk
  show V m c main_v15 (((cfg0.win 17).blk t).view.emb y) = row1 (arg17 m c) y
  exact (congrArg (V m c main_v15 : S1x1.Idx → Ideal .f32) (winEmb17 t y)).trans (congrFun (hostV15 m c) y)

/-! ## The output windows: a block is rows `512·t …` of the array -/

/-- An output window's index map at point `t`: block `t` down the rows, block `0` across. -/
theorem winIdx18 : ∀ t : Fin cfg0.N, win0_18.index t (0 : Fin 2) = t.val ∧ win0_18.index t (1 : Fin 2) = 0 :=
  (by decide +kernel : ∀ t : Fin grid0.N, _)
theorem winIdx19 : ∀ t : Fin cfg0.N, win0_19.index t (0 : Fin 2) = t.val ∧ win0_19.index t (1 : Fin 2) = 0 :=
  (by decide +kernel : ∀ t : Fin grid0.N, _)
theorem winIdx20 : ∀ t : Fin cfg0.N, win0_20.index t (0 : Fin 2) = t.val ∧ win0_20.index t (1 : Fin 2) = 0 :=
  (by decide +kernel : ∀ t : Fin grid0.N, _)
theorem winIdx21 : ∀ t : Fin cfg0.N, win0_21.index t (0 : Fin 2) = t.val ∧ win0_21.index t (1 : Fin 2) = 0 :=
  (by decide +kernel : ∀ t : Fin grid0.N, _)
theorem winIdx22 : ∀ t : Fin cfg0.N, win0_22.index t (0 : Fin 2) = t.val ∧ win0_22.index t (1 : Fin 2) = 0 :=
  (by decide +kernel : ∀ t : Fin grid0.N, _)

/-- Where entry `y` of an output window's block lies in the array: row `512·t + y₀`, column `y₁`. -/
theorem winEmb18 (y : S512x512.Idx) :
    (((cfg0.win 18).blk t).view.emb y : S16384x512.Idx) = (by decide : Tiles S512x512 S16384x512 0 32).idx (pt t) y := by
  obtain ⟨h0, h1⟩ := winIdx18 t
  funext a
  match a with
  | ⟨0, _⟩ =>
    apply Fin.ext
    show win0_18.index t (0 : Fin 2) * 512 + 1 * (y (0 : Fin 2)).val = t.val * 512 + (y (0 : Fin 2)).val
    rw [h0]; omega
  | ⟨1, _⟩ =>
    apply Fin.ext
    show win0_18.index t (1 : Fin 2) * 512 + 1 * (y (1 : Fin 2)).val = (y (1 : Fin 2)).val
    rw [h1]; omega
theorem winEmb19 (y : S512x512.Idx) :
    (((cfg0.win 19).blk t).view.emb y : S16384x512.Idx) = (by decide : Tiles S512x512 S16384x512 0 32).idx (pt t) y := by
  obtain ⟨h0, h1⟩ := winIdx19 t
  funext a
  match a with
  | ⟨0, _⟩ =>
    apply Fin.ext
    show win0_19.index t (0 : Fin 2) * 512 + 1 * (y (0 : Fin 2)).val = t.val * 512 + (y (0 : Fin 2)).val
    rw [h0]; omega
  | ⟨1, _⟩ =>
    apply Fin.ext
    show win0_19.index t (1 : Fin 2) * 512 + 1 * (y (1 : Fin 2)).val = (y (1 : Fin 2)).val
    rw [h1]; omega
theorem winEmb20 (y : S512x1.Idx) :
    (((cfg0.win 20).blk t).view.emb y : S16384x1.Idx) = (by decide : Tiles S512x1 S16384x1 0 32).idx (pt t) y := by
  obtain ⟨h0, h1⟩ := winIdx20 t
  funext a
  match a with
  | ⟨0, _⟩ =>
    apply Fin.ext
    show win0_20.index t (0 : Fin 2) * 512 + 1 * (y (0 : Fin 2)).val = t.val * 512 + (y (0 : Fin 2)).val
    rw [h0]; omega
  | ⟨1, _⟩ =>
    apply Fin.ext
    show win0_20.index t (1 : Fin 2) * 1 + 1 * (y (1 : Fin 2)).val = (y (1 : Fin 2)).val
    rw [h1]; omega
theorem winEmb21 (y : S512x1.Idx) :
    (((cfg0.win 21).blk t).view.emb y : S16384x1.Idx) = (by decide : Tiles S512x1 S16384x1 0 32).idx (pt t) y := by
  obtain ⟨h0, h1⟩ := winIdx21 t
  funext a
  match a with
  | ⟨0, _⟩ =>
    apply Fin.ext
    show win0_21.index t (0 : Fin 2) * 512 + 1 * (y (0 : Fin 2)).val = t.val * 512 + (y (0 : Fin 2)).val
    rw [h0]; omega
  | ⟨1, _⟩ =>
    apply Fin.ext
    show win0_21.index t (1 : Fin 2) * 1 + 1 * (y (1 : Fin 2)).val = (y (1 : Fin 2)).val
    rw [h1]; omega
theorem winEmb22 (y : S512x1.Idx) :
    (((cfg0.win 22).blk t).view.emb y : S16384x1.Idx) = (by decide : Tiles S512x1 S16384x1 0 32).idx (pt t) y := by
  obtain ⟨h0, h1⟩ := winIdx22 t
  funext a
  match a with
  | ⟨0, _⟩ =>
    apply Fin.ext
    show win0_22.index t (0 : Fin 2) * 512 + 1 * (y (0 : Fin 2)).val = t.val * 512 + (y (0 : Fin 2)).val
    rw [h0]; omega
  | ⟨1, _⟩ =>
    apply Fin.ext
    show win0_22.index t (1 : Fin 2) * 1 + 1 * (y (1 : Fin 2)).val = (y (1 : Fin 2)).val
    rw [h1]; omega

theorem out18 (G : A2 S16384x512) :
    (((cfg0.win 18).blk t).view.read (Elt Ideal) G : S512x512.Idx → Ideal .f32) = rowsOf (pt t) G := by
  funext y
  show (G : S16384x512.Idx → Ideal .f32) (((cfg0.win 18).blk t).view.emb y)
    = G ((by decide : Tiles S512x512 S16384x512 0 32).idx (pt t) y)
  exact congrArg (G : S16384x512.Idx → Ideal .f32) (winEmb18 t y)
theorem out19 (G : A2 S16384x512) :
    (((cfg0.win 19).blk t).view.read (Elt Ideal) G : S512x512.Idx → Ideal .f32) = rowsOf (pt t) G := by
  funext y
  show (G : S16384x512.Idx → Ideal .f32) (((cfg0.win 19).blk t).view.emb y)
    = G ((by decide : Tiles S512x512 S16384x512 0 32).idx (pt t) y)
  exact congrArg (G : S16384x512.Idx → Ideal .f32) (winEmb19 t y)
theorem out20 (G : A2 S16384x1) :
    (((cfg0.win 20).blk t).view.read (Elt Ideal) G : S512x1.Idx → Ideal .f32) = rowsOf (pt t) G := by
  funext y
  show (G : S16384x1.Idx → Ideal .f32) (((cfg0.win 20).blk t).view.emb y)
    = G ((by decide : Tiles S512x1 S16384x1 0 32).idx (pt t) y)
  exact congrArg (G : S16384x1.Idx → Ideal .f32) (winEmb20 t y)
theorem out21 (G : A2 S16384x1) :
    (((cfg0.win 21).blk t).view.read (Elt Ideal) G : S512x1.Idx → Ideal .f32) = rowsOf (pt t) G := by
  funext y
  show (G : S16384x1.Idx → Ideal .f32) (((cfg0.win 21).blk t).view.emb y)
    = G ((by decide : Tiles S512x1 S16384x1 0 32).idx (pt t) y)
  exact congrArg (G : S16384x1.Idx → Ideal .f32) (winEmb21 t y)
theorem out22 (G : A2 S16384x1) :
    (((cfg0.win 22).blk t).view.read (Elt Ideal) G : S512x1.Idx → Ideal .f32) = rowsOf (pt t) G := by
  funext y
  show (G : S16384x1.Idx → Ideal .f32) (((cfg0.win 22).blk t).view.emb y)
    = G ((by decide : Tiles S512x1 S16384x1 0 32).idx (pt t) y)
  exact congrArg (G : S16384x1.Idx → Ideal .f32) (winEmb22 t y)

end Cert.KernelIdeal.Blocks

end
-- ==== Proof.LibPlainDot.lean ====
import Idealize.ShloMosaic.PureOps.Ideal.Laws
import Idealize.ShloMosaic.Lib.ValueIdx

noncomputable section

open scoped BigOperators

/-! # A plain two-dimensional product read at an entry

For the dimension numbers "rows by contraction, contraction by columns" (`DotDims.plain M K N`), entry `(r, c)` of a
matrix product into a zero accumulator, and of a host `dot_general`, is `∑ k : Fin K, l (r, k) * r (k, c)` on the
extended reals. Stated for any record `d` equal to the plain one, so that a printed record is passed with `rfl`. -/

namespace Cert.PlainDot

open Idealize.ShloMosaic Idealize.ShloMosaic.ValueIdx

variable {M K N : ℕ}

/-- The contraction's sum over the record's own index type is the sum over `Fin K` with the operands read at
    `(r, k)` and `(k, c)`. -/
theorem sum_plain (d : DotDims ⟨2, ![M, K]⟩ ⟨2, ![K, N]⟩ ⟨2, ![M, N]⟩) (hd : d = DotDims.plain M K N)
    (l : (⟨2, ![M, K]⟩ : Shape).Idx → EReal) (r : (⟨2, ![K, N]⟩ : Shape).Idx → EReal) (j : (⟨2, ![M, N]⟩ : Shape).Idx) :
    ∑ k : d.contr.Idx, l (d.lhsIdx j k) * r (d.rhsIdx j k) = ∑ k : Fin K, l (ix2 (j 0) k) * r (ix2 k (j 1)) := by
  subst hd
  rw [← Equiv.sum_comp (contrEquiv1 (DotDims.plain M K N) K rfl rfl).symm]
  refine Finset.sum_congr rfl fun k _ => ?_
  have hl : (DotDims.plain M K N).lhsIdx j ((contrEquiv1 (DotDims.plain M K N) K rfl rfl).symm k) = ix2 (j 0) k := by
    funext a
    match a with
    | ⟨0, _⟩ => exact Fin.ext rfl
    | ⟨1, _⟩ =>
      apply Fin.ext
      exact ((DotDims.plain M K N).lhsIdx_val_of_single (cl := 1) rfl j _).trans
        (contrEquiv1_symm_val (DotDims.plain M K N) K rfl rfl k)
  have hr : (DotDims.plain M K N).rhsIdx j ((contrEquiv1 (DotDims.plain M K N) K rfl rfl).symm k) = ix2 k (j 1) := by
    funext a
    match a with
    | ⟨0, _⟩ =>
      apply Fin.ext
      exact ((DotDims.plain M K N).rhsIdx_val_of_single (cr := 0) rfl j _).trans
        (contrEquiv1_symm_val (DotDims.plain M K N) K rfl rfl k)
    | ⟨1, _⟩ => exact Fin.ext rfl
  rw [hl, hr]
  rfl

/-- A matrix-unit product into the zero accumulator, at an entry. -/
theorem matmul_zero_apply {φ₁ φ₂ : FTy} (d : DotDims ⟨2, ![M, K]⟩ ⟨2, ![K, N]⟩ ⟨2, ![M, N]⟩) (hd : d = DotDims.plain M K N)
    (prec : Option ContractPrecision) (l : FVec Ideal ⟨2, ![M, K]⟩ φ₁) (r : FVec Ideal ⟨2, ![K, N]⟩ φ₂) (j : (⟨2, ![M, N]⟩ : Shape).Idx) :
    FloatOps.matmul d prec l r (constant ⟨2, ![M, N]⟩ .f32 0x00000000#32) j = ∑ k : Fin K, l (ix2 (j 0) k) * r (ix2 k (j 1)) := by
  rw [Ideal.matmul_constant_zero_apply]; exact sum_plain d hd l r j

/-- A host `dot_general`, at an entry. -/
theorem dotGeneral_apply {φ₁ φ₂ : FTy} (d : DotDims ⟨2, ![M, K]⟩ ⟨2, ![K, N]⟩ ⟨2, ![M, N]⟩) (hd : d = DotDims.plain M K N)
    (prec : Option ContractPrecision) (sched : HostSchedule) (l : FVec Ideal ⟨2, ![M, K]⟩ φ₁) (r : FVec Ideal ⟨2, ![K, N]⟩ φ₂)
    (j : (⟨2, ![M, N]⟩ : Shape).Idx) :
    FloatOps.dotGeneral d prec sched l r j = ∑ k : Fin K, l (ix2 (j 0) k) * r (ix2 k (j 1)) := by
  rw [Ideal.dotGeneral_apply]; exact sum_plain d hd l r j

end Cert.PlainDot

end
-- ==== Proof.LibRowBlock.lean ====
import Idealize.ShloMosaic.PureOps.Ideal.Laws
import Idealize.ShloMosaic.Lib.ValueIdx
import Idealize.ShloMosaic.Lib.Layout
import Idealize.ShloMosaic.Lib.ValueLayout
import Idealize.ShloMosaic.Lib.Pipeline.Value
import proofs.«171496_j80513456930853_1_alg».proof.Proof.LibPlainDot

noncomputable section

open scoped BigOperators

/-! # Row blocks of two-axis arrays

An array of `M = T · R` rows cut into `T` blocks of `R` rows (`Layout.block … 0 T t`: rows `t·R … t·R + R − 1`).
Every operation that works row by row commutes with taking a row block: the block of the result is the
operation applied to the blocks. Stated here for the operations of a dense layer: a product with a matrix
shared by all rows, a concatenation along the columns, a column slice, a bias row added to every row, a
constant, and the pointwise operations. With these, a computation on one block of rows is read as the
block of the same computation on the whole array. -/

namespace Cert.RowBlock

open Idealize.ShloMosaic Idealize.ShloMosaic.ValueIdx Idealize.ShloMosaic.Layout

variable {R M T : ℕ} {α : Type}

/-- Where entry `(r, q)` of block `t` lies in the whole array: row `t·R + r`, column `q`. -/
theorem idx_rows {N : ℕ} (hN : Tiles ⟨2, ![R, N]⟩ ⟨2, ![M, N]⟩ 0 T) (t : Fin T) (y : (⟨2, ![R, N]⟩ : Shape).Idx) :
    (hN.idx t y 0).val = t.val * R + (y 0).val ∧ (hN.idx t y 1).val = (y 1).val := ⟨rfl, rfl⟩

/-- The unit word is the real number one. -/
theorem ofBits_one : Ideal.ofBits .f32 0x3F800000#32 = 1 := by
  simp [Ideal.ofBits, Ideal.ieee, -EReal.coe_mul]; norm_num

/-! ## A product with a shared matrix -/

/-- Rows `t·R …` of `X · W` are (rows `t·R …` of `X`) `· W`: entry `(r, c)` of either is
    `∑ k, X (t·R + r, k) · W (k, c)`. The block's product is a matrix-unit product into the zero accumulator,
    the whole array's a host product; on the extended reals both are that sum. -/
theorem dot_rows {K N : ℕ} {φ₁ φ₂ : FTy}
    (d₁ : DotDims ⟨2, ![R, K]⟩ ⟨2, ![K, N]⟩ ⟨2, ![R, N]⟩) (hd₁ : d₁ = DotDims.plain R K N)
    (d₂ : DotDims ⟨2, ![M, K]⟩ ⟨2, ![K, N]⟩ ⟨2, ![M, N]⟩) (hd₂ : d₂ = DotDims.plain M K N)
    (hK : Tiles ⟨2, ![R, K]⟩ ⟨2, ![M, K]⟩ 0 T) (hN : Tiles ⟨2, ![R, N]⟩ ⟨2, ![M, N]⟩ 0 T)
    (p₁ p₂ : Option ContractPrecision) (t : Fin T)
    (X : FVec Ideal ⟨2, ![M, K]⟩ φ₁) (W : FVec Ideal ⟨2, ![K, N]⟩ φ₂) :
    matmul d₁ p₁ (block ⟨2, ![R, K]⟩ ⟨2, ![M, K]⟩ 0 T t X hK) W (constant ⟨2, ![R, N]⟩ .f32 0x00000000#32)
      = block ⟨2, ![R, N]⟩ ⟨2, ![M, N]⟩ 0 T t (Host.dotGeneral d₂ p₂ X W) hN := by
  funext y
  refine (Cert.PlainDot.matmul_zero_apply d₁ hd₁ p₁ _ W y).trans ?_
  refine Eq.trans ?_ (Cert.PlainDot.dotGeneral_apply d₂ hd₂ p₂ .single X W (hN.idx t y)).symm
  refine Finset.sum_congr rfl fun k _ => ?_
  have e1 : hK.idx t (ix2 (y 0) k) = ix2 (hN.idx t y 0) k := by
    funext a
    match a with
    | ⟨0, _⟩ => exact Fin.ext rfl
    | ⟨1, _⟩ => exact Fin.ext rfl
  have e2 : (ix2 k (y 1) : (⟨2, ![K, N]⟩ : Shape).Idx) = ix2 k (hN.idx t y 1) := by
    funext a
    match a with
    | ⟨0, _⟩ => exact Fin.ext rfl
    | ⟨1, _⟩ => exact Fin.ext rfl
  rw [block_apply, e1, e2]
  rfl

/-- The same with both operands first rounded to a narrower format, which on the extended reals changes nothing. -/
theorem dot_rows_trunc {K N : ℕ} {φ₁ φ₂ ψ₁ ψ₂ : FTy} (h₁ : ψ₁.bits < φ₁.bits) (h₂ : ψ₂.bits < φ₂.bits)
    (d₁ : DotDims ⟨2, ![R, K]⟩ ⟨2, ![K, N]⟩ ⟨2, ![R, N]⟩) (hd₁ : d₁ = DotDims.plain R K N)
    (d₂ : DotDims ⟨2, ![M, K]⟩ ⟨2, ![K, N]⟩ ⟨2, ![M, N]⟩) (hd₂ : d₂ = DotDims.plain M K N)
    (hK : Tiles ⟨2, ![R, K]⟩ ⟨2, ![M, K]⟩ 0 T) (hN : Tiles ⟨2, ![R, N]⟩ ⟨2, ![M, N]⟩ 0 T)
    (p₁ p₂ : Option ContractPrecision) (t : Fin T)
    (X : FVec Ideal ⟨2, ![M, K]⟩ φ₁) (W : FVec Ideal ⟨2, ![K, N]⟩ φ₂) :
    matmul d₁ p₁ (truncf ψ₁ (block ⟨2, ![R, K]⟩ ⟨2, ![M, K]⟩ 0 T t X hK) h₁) (truncf ψ₂ W h₂) (constant ⟨2, ![R, N]⟩ .f32 0x00000000#32)
      = block ⟨2, ![R, N]⟩ ⟨2, ![M, N]⟩ 0 T t (Host.dotGeneral d₂ p₂ X W) hN :=
  dot_rows (φ₁ := φ₁) (φ₂ := φ₂) d₁ hd₁ d₂ hd₂ hK hN p₁ p₂ t X W

/-! ## Pointwise operations -/

section Pointwise
variable {N : ℕ} {φ : FTy} (hN : Tiles ⟨2, ![R, N]⟩ ⟨2, ![M, N]⟩ 0 T) (t : Fin T)
  (X Y : FVec Ideal ⟨2, ![M, N]⟩ φ)

theorem addf_rows : addf (block ⟨2, ![R, N]⟩ ⟨2, ![M, N]⟩ 0 T t X hN) (block ⟨2, ![R, N]⟩ ⟨2, ![M, N]⟩ 0 T t Y hN)
    = block ⟨2, ![R, N]⟩ ⟨2, ![M, N]⟩ 0 T t (addf X Y) hN := rfl
theorem subf_rows : subf (block ⟨2, ![R, N]⟩ ⟨2, ![M, N]⟩ 0 T t X hN) (block ⟨2, ![R, N]⟩ ⟨2, ![M, N]⟩ 0 T t Y hN)
    = block ⟨2, ![R, N]⟩ ⟨2, ![M, N]⟩ 0 T t (subf X Y) hN := rfl
theorem mulf_rows : mulf (block ⟨2, ![R, N]⟩ ⟨2, ![M, N]⟩ 0 T t X hN) (block ⟨2, ![R, N]⟩ ⟨2, ![M, N]⟩ 0 T t Y hN)
    = block ⟨2, ![R, N]⟩ ⟨2, ![M, N]⟩ 0 T t (mulf X Y) hN := rfl
theorem maximumf_rows : maximumf (block ⟨2, ![R, N]⟩ ⟨2, ![M, N]⟩ 0 T t X hN) (block ⟨2, ![R, N]⟩ ⟨2, ![M, N]⟩ 0 T t Y hN)
    = block ⟨2, ![R, N]⟩ ⟨2, ![M, N]⟩ 0 T t (maximumf X Y) hN := rfl
/-- The kernel's hyperbolic tangent and the host's are one function on the extended reals. -/
theorem tanh_rows : tanh (block ⟨2, ![R, N]⟩ ⟨2, ![M, N]⟩ 0 T t X hN)
    = block ⟨2, ![R, N]⟩ ⟨2, ![M, N]⟩ 0 T t (Host.tanh X) hN := rfl
/-- The logistic function is `1 / (1 + e^(−x))`, which the host spells out with the unit word for `1`. -/
theorem logistic_rows (hb : (⟨0, ![]⟩ : Shape).BroadcastsInDim ⟨2, ![M, N]⟩ (![] : Fin 0 → Fin 2)) :
    logistic (block ⟨2, ![R, N]⟩ ⟨2, ![M, N]⟩ 0 T t (X : FVec Ideal ⟨2, ![M, N]⟩ .f32) hN)
    = block ⟨2, ![R, N]⟩ ⟨2, ![M, N]⟩ 0 T t
        (Host.divf (broadcastInDim ⟨2, ![M, N]⟩ ![] hb (constant (F := Ideal) ⟨0, ![]⟩ .f32 0x3F800000#32))
          (addf (broadcastInDim ⟨2, ![M, N]⟩ ![] hb (constant (F := Ideal) ⟨0, ![]⟩ .f32 0x3F800000#32)) (Host.exp (Host.negf X)))) hN := by
  funext y
  show FloatOps.logistic (X (hN.idx t y))
    = FloatOps.hostDivf (Ideal.ofBits .f32 0x3F800000#32)
        (FloatOps.addf (Ideal.ofBits .f32 0x3F800000#32) (FloatOps.hostUnary .exp (FloatOps.hostNegf (X (hN.idx t y)))))
  rw [ofBits_one]
  rfl
end Pointwise

/-! ## Constants, bias rows, column slices, concatenation along the columns -/

/-- A constant array's row block is the constant block. -/
theorem splat_rows {N : ℕ} (hN : Tiles ⟨2, ![R, N]⟩ ⟨2, ![M, N]⟩ 0 T) (t : Fin T)
    (hb : (⟨0, ![]⟩ : Shape).BroadcastsInDim ⟨2, ![M, N]⟩ (![] : Fin 0 → Fin 2)) (w : BitVec 32) :
    broadcast ⟨2, ![R, N]⟩ (Scalar.ofBits (F := Ideal) .f32 w)
      = block ⟨2, ![R, N]⟩ ⟨2, ![M, N]⟩ 0 T t (broadcastInDim ⟨2, ![M, N]⟩ ![] hb (constant (F := Ideal) ⟨0, ![]⟩ .f32 w)) hN := by
  funext y
  rfl

/-- A bias row laid under every row: the block sees the same row. -/
theorem bias_rows {N : ℕ} (hN : Tiles ⟨2, ![R, N]⟩ ⟨2, ![M, N]⟩ 0 T) (t : Fin T)
    (hc : (⟨1, ![N]⟩ : Shape).ShapeCasts ⟨2, ![1, N]⟩) (hbt : (⟨2, ![1, N]⟩ : Shape).Broadcasts ⟨2, ![R, N]⟩)
    (h1 : (⟨1, ![N]⟩ : Shape).BroadcastsInDim ⟨2, ![1, N]⟩ (![1] : Fin 1 → Fin 2))
    (h2 : (⟨2, ![1, N]⟩ : Shape).BroadcastsInDim ⟨2, ![M, N]⟩ (![0, 1] : Fin 2 → Fin 2))
    (b : (⟨1, ![N]⟩ : Shape).Idx → α) :
    broadcastTo ⟨2, ![R, N]⟩ (shapeCast ⟨2, ![1, N]⟩ b hc) hbt
      = block ⟨2, ![R, N]⟩ ⟨2, ![M, N]⟩ 0 T t (broadcastInDim ⟨2, ![M, N]⟩ ![0, 1] h2 (broadcastInDim ⟨2, ![1, N]⟩ ![1] h1 b)) hN := by
  funext y
  obtain ⟨p, q, rfl⟩ : ∃ (p : Fin R) (q : Fin N), y = ix2 p q := ⟨y 0, y 1, eq_ix2 y⟩
  rw [broadcastTo_1b_ab_apply, shapeCast_a_1a_apply, block_apply]
  refine Eq.symm ?_
  refine (broadcastInDim_apply ![0, 1] h2 _ (hN.idx t (ix2 p q)) (ix2 (0 : Fin 1) q) fun a => ?_).trans ?_
  · match a with
    | ⟨0, _⟩ => rfl
    | ⟨1, _⟩ =>
      show q.val = if N = 1 then 0 else q.val
      split
      · have := q.isLt; omega
      · rfl
  · refine broadcastInDim_apply ![1] h1 b (ix2 (0 : Fin 1) q) (ix1 q) fun a => ?_
    match a with
    | ⟨0, _⟩ =>
      show q.val = if N = 1 then 0 else q.val
      split
      · have := q.isLt; omega
      · rfl

/-- Columns `o … o + N' − 1`: of the block, or the block of those columns. -/
theorem slice_rows {N N' : ℕ} (o : ℕ) (hN : Tiles ⟨2, ![R, N]⟩ ⟨2, ![M, N]⟩ 0 T) (hN' : Tiles ⟨2, ![R, N']⟩ ⟨2, ![M, N']⟩ 0 T) (t : Fin T)
    (hs : (⟨2, ![R, N]⟩ : Shape).Slices ![0, o] ⟨2, ![R, N']⟩) (hs' : (⟨2, ![M, N]⟩ : Shape).Slices ![0, o] ⟨2, ![M, N']⟩)
    (X : (⟨2, ![M, N]⟩ : Shape).Idx → α) :
    extractStridedSlice ⟨2, ![R, N']⟩ ![0, o] (block ⟨2, ![R, N]⟩ ⟨2, ![M, N]⟩ 0 T t X hN) hs
      = block ⟨2, ![R, N']⟩ ⟨2, ![M, N']⟩ 0 T t (extractStridedSlice ⟨2, ![M, N']⟩ ![0, o] X hs') hN' := by
  funext y
  show X _ = X _
  congr 1
  funext a
  match a with
  | ⟨0, _⟩ =>
    apply Fin.ext
    show t.val * R + (0 + (y 0).val) = 0 + (t.val * R + (y 0).val)
    omega
  | ⟨1, _⟩ => exact Fin.ext rfl

/-- Two arrays side by side: the block of the pair is the pair of the blocks. -/
theorem concat2_rows {N₁ N₂ N : ℕ}
    (h₁ : Tiles ⟨2, ![R, N₁]⟩ ⟨2, ![M, N₁]⟩ 0 T) (h₂ : Tiles ⟨2, ![R, N₂]⟩ ⟨2, ![M, N₂]⟩ 0 T) (hN : Tiles ⟨2, ![R, N]⟩ ⟨2, ![M, N]⟩ 0 T)
    (t : Fin T)
    (hc : Shape.Concatenates [(⟨2, ![R, N₁]⟩ : Shape), ⟨2, ![R, N₂]⟩] ⟨2, ![R, N]⟩ 1)
    (hc' : Shape.Concatenates [(⟨2, ![M, N₁]⟩ : Shape), ⟨2, ![M, N₂]⟩] ⟨2, ![M, N]⟩ 1)
    (A : (⟨2, ![M, N₁]⟩ : Shape).Idx → α) (B : (⟨2, ![M, N₂]⟩ : Shape).Idx → α) :
    concatenate ⟨2, ![R, N]⟩ 1 [⟨⟨2, ![R, N₁]⟩, block ⟨2, ![R, N₁]⟩ ⟨2, ![M, N₁]⟩ 0 T t A h₁⟩, ⟨⟨2, ![R, N₂]⟩, block ⟨2, ![R, N₂]⟩ ⟨2, ![M, N₂]⟩ 0 T t B h₂⟩] hc
      = block ⟨2, ![R, N]⟩ ⟨2, ![M, N]⟩ 0 T t (concatenate ⟨2, ![M, N]⟩ 1 [⟨⟨2, ![M, N₁]⟩, A⟩, ⟨⟨2, ![M, N₂]⟩, B⟩] hc') hN := by
  funext y
  obtain ⟨p, q, rfl⟩ : ∃ (p : Fin R) (q : Fin N), y = ix2 p q := ⟨y 0, y 1, eq_ix2 y⟩
  have hsum : N₁ + (N₂ + (0)) = N := hc.2.2
  have hq := q.isLt
  rw [block_apply]
  by_cases hc0 : q.val < N₁
  · have c0 : q.val < N₁ := hc0
    refine (concatenate_apply_piece 1 [⟨⟨2, ![R, N₁]⟩, block ⟨2, ![R, N₁]⟩ ⟨2, ![M, N₁]⟩ 0 T t A h₁⟩, ⟨⟨2, ![R, N₂]⟩, block ⟨2, ![R, N₂]⟩ ⟨2, ![M, N₂]⟩ 0 T t B h₂⟩] hc (ix2 p q) 0 (by show 0 < 2; omega) ⟨2, ![R, N₁]⟩ _ rfl rfl (0) rfl (ix2 p ⟨q.val, c0⟩) (fun b hb => ?_) (Nat.zero_add _)).trans ?_
    · match b with
      | ⟨0, _⟩ => rfl
      | ⟨1, _⟩ => exact absurd rfl hb
    refine Eq.symm (concatenate_apply_piece 1 [⟨⟨2, ![M, N₁]⟩, A⟩, ⟨⟨2, ![M, N₂]⟩, B⟩] hc' (hN.idx t (ix2 p q)) 0 (by show 0 < 2; omega) ⟨2, ![M, N₁]⟩ A rfl rfl (0) rfl (h₁.idx t (ix2 p ⟨q.val, c0⟩)) (fun b hb => ?_) (Nat.zero_add _))
    match b with
    | ⟨0, _⟩ => rfl
    | ⟨1, _⟩ => exact absurd rfl hb
  · have c1 : q.val - (N₁) < N₂ := by omega
    refine (concatenate_apply_piece 1 [⟨⟨2, ![R, N₁]⟩, block ⟨2, ![R, N₁]⟩ ⟨2, ![M, N₁]⟩ 0 T t A h₁⟩, ⟨⟨2, ![R, N₂]⟩, block ⟨2, ![R, N₂]⟩ ⟨2, ![M, N₂]⟩ 0 T t B h₂⟩] hc (ix2 p q) 1 (by show 1 < 2; omega) ⟨2, ![R, N₂]⟩ _ rfl rfl (N₁) (by simp [List.take, List.map, List.sum_cons]; try omega) (ix2 p ⟨q.val - (N₁), c1⟩) (fun b hb => ?_) (by show N₁ + (q.val - (N₁)) = q.val; omega)).trans ?_
    · match b with
      | ⟨0, _⟩ => rfl
      | ⟨1, _⟩ => exact absurd rfl hb
    refine Eq.symm (concatenate_apply_piece 1 [⟨⟨2, ![M, N₁]⟩, A⟩, ⟨⟨2, ![M, N₂]⟩, B⟩] hc' (hN.idx t (ix2 p q)) 1 (by show 1 < 2; omega) ⟨2, ![M, N₂]⟩ B rfl rfl (N₁) (by simp [List.take, List.map, List.sum_cons]; try omega) (h₂.idx t (ix2 p ⟨q.val - (N₁), c1⟩)) (fun b hb => ?_) (by show N₁ + (q.val - (N₁)) = q.val; omega))
    match b with
    | ⟨0, _⟩ => rfl
    | ⟨1, _⟩ => exact absurd rfl hb

/-- Four arrays side by side. -/
theorem concat4_rows {N₁ N₂ N₃ N₄ N : ℕ}
    (h₁ : Tiles ⟨2, ![R, N₁]⟩ ⟨2, ![M, N₁]⟩ 0 T) (h₂ : Tiles ⟨2, ![R, N₂]⟩ ⟨2, ![M, N₂]⟩ 0 T)
    (h₃ : Tiles ⟨2, ![R, N₃]⟩ ⟨2, ![M, N₃]⟩ 0 T) (h₄ : Tiles ⟨2, ![R, N₄]⟩ ⟨2, ![M, N₄]⟩ 0 T) (hN : Tiles ⟨2, ![R, N]⟩ ⟨2, ![M, N]⟩ 0 T)
    (t : Fin T)
    (hc : Shape.Concatenates [(⟨2, ![R, N₁]⟩ : Shape), ⟨2, ![R, N₂]⟩, ⟨2, ![R, N₃]⟩, ⟨2, ![R, N₄]⟩] ⟨2, ![R, N]⟩ 1)
    (hc' : Shape.Concatenates [(⟨2, ![M, N₁]⟩ : Shape), ⟨2, ![M, N₂]⟩, ⟨2, ![M, N₃]⟩, ⟨2, ![M, N₄]⟩] ⟨2, ![M, N]⟩ 1)
    (A : (⟨2, ![M, N₁]⟩ : Shape).Idx → α) (B : (⟨2, ![M, N₂]⟩ : Shape).Idx → α)
    (C : (⟨2, ![M, N₃]⟩ : Shape).Idx → α) (D : (⟨2, ![M, N₄]⟩ : Shape).Idx → α) :
    concatenate ⟨2, ![R, N]⟩ 1 [⟨⟨2, ![R, N₁]⟩, block ⟨2, ![R, N₁]⟩ ⟨2, ![M, N₁]⟩ 0 T t A h₁⟩, ⟨⟨2, ![R, N₂]⟩, block ⟨2, ![R, N₂]⟩ ⟨2, ![M, N₂]⟩ 0 T t B h₂⟩,
        ⟨⟨2, ![R, N₃]⟩, block ⟨2, ![R, N₃]⟩ ⟨2, ![M, N₃]⟩ 0 T t C h₃⟩, ⟨⟨2, ![R, N₄]⟩, block ⟨2, ![R, N₄]⟩ ⟨2, ![M, N₄]⟩ 0 T t D h₄⟩] hc
      = block ⟨2, ![R, N]⟩ ⟨2, ![M, N]⟩ 0 T t
          (concatenate ⟨2, ![M, N]⟩ 1 [⟨⟨2, ![M, N₁]⟩, A⟩, ⟨⟨2, ![M, N₂]⟩, B⟩, ⟨⟨2, ![M, N₃]⟩, C⟩, ⟨⟨2, ![M, N₄]⟩, D⟩] hc') hN := by
  funext y
  obtain ⟨p, q, rfl⟩ : ∃ (p : Fin R) (q : Fin N), y = ix2 p q := ⟨y 0, y 1, eq_ix2 y⟩
  have hsum : N₁ + (N₂ + (N₃ + (N₄ + (0)))) = N := hc.2.2
  have hq := q.isLt
  rw [block_apply]
  by_cases hc0 : q.val < N₁
  · have c0 : q.val < N₁ := hc0
    refine (concatenate_apply_piece 1 [⟨⟨2, ![R, N₁]⟩, block ⟨2, ![R, N₁]⟩ ⟨2, ![M, N₁]⟩ 0 T t A h₁⟩, ⟨⟨2, ![R, N₂]⟩, block ⟨2, ![R, N₂]⟩ ⟨2, ![M, N₂]⟩ 0 T t B h₂⟩, ⟨⟨2, ![R, N₃]⟩, block ⟨2, ![R, N₃]⟩ ⟨2, ![M, N₃]⟩ 0 T t C h₃⟩, ⟨⟨2, ![R, N₄]⟩, block ⟨2, ![R, N₄]⟩ ⟨2, ![M, N₄]⟩ 0 T t D h₄⟩] hc (ix2 p q) 0 (by show 0 < 4; omega) ⟨2, ![R, N₁]⟩ _ rfl rfl (0) rfl (ix2 p ⟨q.val, c0⟩) (fun b hb => ?_) (Nat.zero_add _)).trans ?_
    · match b with
      | ⟨0, _⟩ => rfl
      | ⟨1, _⟩ => exact absurd rfl hb
    refine Eq.symm (concatenate_apply_piece 1 [⟨⟨2, ![M, N₁]⟩, A⟩, ⟨⟨2, ![M, N₂]⟩, B⟩, ⟨⟨2, ![M, N₃]⟩, C⟩, ⟨⟨2, ![M, N₄]⟩, D⟩] hc' (hN.idx t (ix2 p q)) 0 (by show 0 < 4; omega) ⟨2, ![M, N₁]⟩ A rfl rfl (0) rfl (h₁.idx t (ix2 p ⟨q.val, c0⟩)) (fun b hb => ?_) (Nat.zero_add _))
    match b with
    | ⟨0, _⟩ => rfl
    | ⟨1, _⟩ => exact absurd rfl hb
  by_cases hc1 : q.val < N₁ + N₂
  · have c1 : q.val - (N₁) < N₂ := by omega
    refine (concatenate_apply_piece 1 [⟨⟨2, ![R, N₁]⟩, block ⟨2, ![R, N₁]⟩ ⟨2, ![M, N₁]⟩ 0 T t A h₁⟩, ⟨⟨2, ![R, N₂]⟩, block ⟨2, ![R, N₂]⟩ ⟨2, ![M, N₂]⟩ 0 T t B h₂⟩, ⟨⟨2, ![R, N₃]⟩, block ⟨2, ![R, N₃]⟩ ⟨2, ![M, N₃]⟩ 0 T t C h₃⟩, ⟨⟨2, ![R, N₄]⟩, block ⟨2, ![R, N₄]⟩ ⟨2, ![M, N₄]⟩ 0 T t D h₄⟩] hc (ix2 p q) 1 (by show 1 < 4; omega) ⟨2, ![R, N₂]⟩ _ rfl rfl (N₁) (by simp [List.take, List.map, List.sum_cons]; try omega) (ix2 p ⟨q.val - (N₁), c1⟩) (fun b hb => ?_) (by show N₁ + (q.val - (N₁)) = q.val; omega)).trans ?_
    · match b with
      | ⟨0, _⟩ => rfl
      | ⟨1, _⟩ => exact absurd rfl hb
    refine Eq.symm (concatenate_apply_piece 1 [⟨⟨2, ![M, N₁]⟩, A⟩, ⟨⟨2, ![M, N₂]⟩, B⟩, ⟨⟨2, ![M, N₃]⟩, C⟩, ⟨⟨2, ![M, N₄]⟩, D⟩] hc' (hN.idx t (ix2 p q)) 1 (by show 1 < 4; omega) ⟨2, ![M, N₂]⟩ B rfl rfl (N₁) (by simp [List.take, List.map, List.sum_cons]; try omega) (h₂.idx t (ix2 p ⟨q.val - (N₁), c1⟩)) (fun b hb => ?_) (by show N₁ + (q.val - (N₁)) = q.val; omega))
    match b with
    | ⟨0, _⟩ => rfl
    | ⟨1, _⟩ => exact absurd rfl hb
  by_cases hc2 : q.val < N₁ + N₂ + N₃
  · have c2 : q.val - (N₁ + N₂) < N₃ := by omega
    refine (concatenate_apply_piece 1 [⟨⟨2, ![R, N₁]⟩, block ⟨2, ![R, N₁]⟩ ⟨2, ![M, N₁]⟩ 0 T t A h₁⟩, ⟨⟨2, ![R, N₂]⟩, block ⟨2, ![R, N₂]⟩ ⟨2, ![M, N₂]⟩ 0 T t B h₂⟩, ⟨⟨2, ![R, N₃]⟩, block ⟨2, ![R, N₃]⟩ ⟨2, ![M, N₃]⟩ 0 T t C h₃⟩, ⟨⟨2, ![R, N₄]⟩, block ⟨2, ![R, N₄]⟩ ⟨2, ![M, N₄]⟩ 0 T t D h₄⟩] hc (ix2 p q) 2 (by show 2 < 4; omega) ⟨2, ![R, N₃]⟩ _ rfl rfl (N₁ + N₂) (by simp [List.take, List.map, List.sum_cons]; try omega) (ix2 p ⟨q.val - (N₁ + N₂), c2⟩) (fun b hb => ?_) (by show N₁ + N₂ + (q.val - (N₁ + N₂)) = q.val; omega)).trans ?_
    · match b with
      | ⟨0, _⟩ => rfl
      | ⟨1, _⟩ => exact absurd rfl hb
    refine Eq.symm (concatenate_apply_piece 1 [⟨⟨2, ![M, N₁]⟩, A⟩, ⟨⟨2, ![M, N₂]⟩, B⟩, ⟨⟨2, ![M, N₃]⟩, C⟩, ⟨⟨2, ![M, N₄]⟩, D⟩] hc' (hN.idx t (ix2 p q)) 2 (by show 2 < 4; omega) ⟨2, ![M, N₃]⟩ C rfl rfl (N₁ + N₂) (by simp [List.take, List.map, List.sum_cons]; try omega) (h₃.idx t (ix2 p ⟨q.val - (N₁ + N₂), c2⟩)) (fun b hb => ?_) (by show N₁ + N₂ + (q.val - (N₁ + N₂)) = q.val; omega))
    match b with
    | ⟨0, _⟩ => rfl
    | ⟨1, _⟩ => exact absurd rfl hb
  · have c3 : q.val - (N₁ + N₂ + N₃) < N₄ := by omega
    refine (concatenate_apply_piece 1 [⟨⟨2, ![R, N₁]⟩, block ⟨2, ![R, N₁]⟩ ⟨2, ![M, N₁]⟩ 0 T t A h₁⟩, ⟨⟨2, ![R, N₂]⟩, block ⟨2, ![R, N₂]⟩ ⟨2, ![M, N₂]⟩ 0 T t B h₂⟩, ⟨⟨2, ![R, N₃]⟩, block ⟨2, ![R, N₃]⟩ ⟨2, ![M, N₃]⟩ 0 T t C h₃⟩, ⟨⟨2, ![R, N₄]⟩, block ⟨2, ![R, N₄]⟩ ⟨2, ![M, N₄]⟩ 0 T t D h₄⟩] hc (ix2 p q) 3 (by show 3 < 4; omega) ⟨2, ![R, N₄]⟩ _ rfl rfl (N₁ + N₂ + N₃) (by simp [List.take, List.map, List.sum_cons]; try omega) (ix2 p ⟨q.val - (N₁ + N₂ + N₃), c3⟩) (fun b hb => ?_) (by show N₁ + N₂ + N₃ + (q.val - (N₁ + N₂ + N₃)) = q.val; omega)).trans ?_
    · match b with
      | ⟨0, _⟩ => rfl
      | ⟨1, _⟩ => exact absurd rfl hb
    refine Eq.symm (concatenate_apply_piece 1 [⟨⟨2, ![M, N₁]⟩, A⟩, ⟨⟨2, ![M, N₂]⟩, B⟩, ⟨⟨2, ![M, N₃]⟩, C⟩, ⟨⟨2, ![M, N₄]⟩, D⟩] hc' (hN.idx t (ix2 p q)) 3 (by show 3 < 4; omega) ⟨2, ![M, N₄]⟩ D rfl rfl (N₁ + N₂ + N₃) (by simp [List.take, List.map, List.sum_cons]; try omega) (h₄.idx t (ix2 p ⟨q.val - (N₁ + N₂ + N₃), c3⟩)) (fun b hb => ?_) (by show N₁ + N₂ + N₃ + (q.val - (N₁ + N₂ + N₃)) = q.val; omega))
    match b with
    | ⟨0, _⟩ => rfl
    | ⟨1, _⟩ => exact absurd rfl hb

end Cert.RowBlock

end
-- ==== Proof.LibRowBlockGate.lean ====
import Idealize.ShloMosaic.PureOps.Ideal.Laws
import Idealize.ShloMosaic.Lib.ValueIdx
import Idealize.ShloMosaic.Lib.Layout
import Idealize.ShloMosaic.Lib.Pipeline.Value
import proofs.«171496_j80513456930853_1_alg».proof.Proof.LibRowBlock

noncomputable section

/-! # Row blocks: the exponential, a quotient, and a column laid across the columns

Three more operations that work row by row and so commute with taking a block of rows (rows
`t·R … t·R + R − 1` of an array of `M = T·R` rows): the exponential and the quotient, entry by entry, and a column
`[M, 1]` copied across `N` columns, where entry `(r, q)` of the result is the column's entry in row `r`. On the
extended reals the on-chip exponential and quotient are the host's. -/

namespace Cert.RowBlock

open Idealize.ShloMosaic Idealize.ShloMosaic.ValueIdx Idealize.ShloMosaic.Layout

variable {R M T : ℕ} {α : Type}

section Pointwise
variable {N : ℕ} {φ : FTy} (hN : Tiles ⟨2, ![R, N]⟩ ⟨2, ![M, N]⟩ 0 T) (t : Fin T)
  (X Y : FVec Ideal ⟨2, ![M, N]⟩ φ)

/-- `e^x` of a block of rows is the block of `e^x`. -/
theorem exp_rows : exp (block ⟨2, ![R, N]⟩ ⟨2, ![M, N]⟩ 0 T t X hN)
    = block ⟨2, ![R, N]⟩ ⟨2, ![M, N]⟩ 0 T t (Host.exp X) hN := rfl

/-- `x / y` of two blocks of rows is the block of `x / y`. -/
theorem divf_rows : divf (block ⟨2, ![R, N]⟩ ⟨2, ![M, N]⟩ 0 T t X hN) (block ⟨2, ![R, N]⟩ ⟨2, ![M, N]⟩ 0 T t Y hN)
    = block ⟨2, ![R, N]⟩ ⟨2, ![M, N]⟩ 0 T t (Host.divf X Y) hN := rfl
end Pointwise

/-- A column copied across `N` columns: entry `(r, q)` of the block is the column's entry in row `t·R + r`, which
    is entry `(r, 0)` of the column's own block. -/
theorem column_rows {N : ℕ} (h1 : Tiles ⟨2, ![R, 1]⟩ ⟨2, ![M, 1]⟩ 0 T) (hN : Tiles ⟨2, ![R, N]⟩ ⟨2, ![M, N]⟩ 0 T) (t : Fin T)
    (hbt : (⟨2, ![R, 1]⟩ : Shape).Broadcasts ⟨2, ![R, N]⟩)
    (hb : (⟨2, ![M, 1]⟩ : Shape).BroadcastsInDim ⟨2, ![M, N]⟩ (![0, 1] : Fin 2 → Fin 2))
    (col : (⟨2, ![M, 1]⟩ : Shape).Idx → α) :
    broadcastTo ⟨2, ![R, N]⟩ (block ⟨2, ![R, 1]⟩ ⟨2, ![M, 1]⟩ 0 T t col h1) hbt
      = block ⟨2, ![R, N]⟩ ⟨2, ![M, N]⟩ 0 T t (broadcastInDim ⟨2, ![M, N]⟩ ![0, 1] hb col) hN := by
  funext y
  obtain ⟨p, q, rfl⟩ : ∃ (p : Fin R) (q : Fin N), y = ix2 p q := ⟨y 0, y 1, eq_ix2 y⟩
  have hl : broadcastTo ⟨2, ![R, N]⟩ (block ⟨2, ![R, 1]⟩ ⟨2, ![M, 1]⟩ 0 T t col h1) hbt (ix2 p q)
      = block ⟨2, ![R, 1]⟩ ⟨2, ![M, 1]⟩ 0 T t col h1 (ix2 p (0 : Fin 1)) := by
    refine broadcastTo_apply _ hbt (ix2 p q) (ix2 p (0 : Fin 1)) fun a => ?_
    match a with
    | ⟨0, _⟩ =>
      show p.val = if R = 1 then 0 else p.val
      split
      · have := p.isLt; omega
      · rfl
    | ⟨1, _⟩ => rfl
  rw [hl, block_apply, block_apply]
  refine Eq.symm (broadcastInDim_apply ![0, 1] hb col (hN.idx t (ix2 p q)) (h1.idx t (ix2 p (0 : Fin 1))) fun a => ?_)
  match a with
  | ⟨0, _⟩ =>
    show t.val * R + p.val = if M = 1 then 0 else t.val * R + p.val
    split
    · rename_i hM
      have hlt : t.val * R + p.val < M := (hN.idx t (ix2 p q) 0).isLt
      omega
    · rfl
  | ⟨1, _⟩ => rfl

end Cert.RowBlock

end
-- ==== Proof.RowOps.lean ====
import Idealize.ShloMosaic.PureOps.Ideal.Laws
import Idealize.ShloMosaic.Lib.ValueIdx
import Idealize.ShloMosaic.Lib.Layout

noncomputable section

/-! # Row blocks: comparisons, choices, the smaller of two, and a truth value as a number

More operations that act entry by entry and therefore commute with taking rows `t·R … t·R + R − 1` of an array
of `M = T·R` rows: an ordered comparison (an array of one-bit words), the choice between two arrays by such a
word, and the minimum. And the number a one-bit word stands for: widened with zeros to 32 bits and read as a
signed integer, or read directly as an unsigned one, it is `0` or `1` either way. -/

namespace Cert.RowOps

open Idealize.ShloMosaic Idealize.ShloMosaic.ValueIdx Idealize.ShloMosaic.Layout

variable {R M T N : ℕ} {φ : FTy} {α : Type}

section
variable (hN : Tiles ⟨2, ![R, N]⟩ ⟨2, ![M, N]⟩ 0 T) (t : Fin T)

/-- Comparing two blocks of rows is the block of the comparison. -/
theorem cmpf_rows (p : CmpFPredicate) (X Y : FVec Ideal ⟨2, ![M, N]⟩ φ) :
    cmpf p (block ⟨2, ![R, N]⟩ ⟨2, ![M, N]⟩ 0 T t X hN) (block ⟨2, ![R, N]⟩ ⟨2, ![M, N]⟩ 0 T t Y hN)
      = block ⟨2, ![R, N]⟩ ⟨2, ![M, N]⟩ 0 T t (cmpf p X Y) hN := rfl

/-- Choosing entry by entry between two blocks by a block of one-bit words is the block of the choice. -/
theorem select_rows (C : IVec ⟨2, ![M, N]⟩ 1) (A B : (⟨2, ![M, N]⟩ : Shape).Idx → α) :
    select (block ⟨2, ![R, N]⟩ ⟨2, ![M, N]⟩ 0 T t C hN) (block ⟨2, ![R, N]⟩ ⟨2, ![M, N]⟩ 0 T t A hN)
        (block ⟨2, ![R, N]⟩ ⟨2, ![M, N]⟩ 0 T t B hN)
      = block ⟨2, ![R, N]⟩ ⟨2, ![M, N]⟩ 0 T t (select C A B) hN := rfl

/-- The smaller of two blocks, entry by entry, is the block of the smaller. -/
theorem minimumf_rows (X Y : FVec Ideal ⟨2, ![M, N]⟩ φ) :
    minimumf (block ⟨2, ![R, N]⟩ ⟨2, ![M, N]⟩ 0 T t X hN) (block ⟨2, ![R, N]⟩ ⟨2, ![M, N]⟩ 0 T t Y hN)
      = block ⟨2, ![R, N]⟩ ⟨2, ![M, N]⟩ 0 T t (minimumf X Y) hN := rfl
end

/-- A one-bit word widened with zeros and read signed is the word read unsigned: `0` or `1`. -/
theorem toInt_setWidth_one (b : BitVec 1) : (b.setWidth 32).toInt = (b.toNat : ℤ) := by
  revert b; decide

/-- So, as numbers on the extended reals, widening a block of truth values to 32 bits and converting signed
    is the block of the direct unsigned conversion. -/
theorem truth_rows (hN : Tiles ⟨2, ![R, N]⟩ ⟨2, ![M, N]⟩ 0 T) (t : Fin T) (C : IVec ⟨2, ![M, N]⟩ 1)
    (h32 : 1 < 32) :
    sitofp (F := Ideal) .f32 (extui 32 (block ⟨2, ![R, N]⟩ ⟨2, ![M, N]⟩ 0 T t C hN) h32)
      = block ⟨2, ![R, N]⟩ ⟨2, ![M, N]⟩ 0 T t (uitofp (F := Ideal) .f32 C) hN := by
  funext y
  show (((((C (hN.idx t y)).setWidth 32).toInt : ℤ) : ℝ) : EReal) = ((((C (hN.idx t y)).toNat : ℕ) : ℝ) : EReal)
  rw [toInt_setWidth_one]
  norm_cast

end Cert.RowOps

end
-- ==== Proof.BodyA.lean ====
import proofs.«171496_j80513456930853_1_alg».proof.Proof.Gen.KernelIdeal.Skeleton
import proofs.«171496_j80513456930853_1_alg».proof.Proof.Spec
import proofs.«171496_j80513456930853_1_alg».proof.Proof.Rows
import proofs.«171496_j80513456930853_1_alg».proof.Proof.LibRowBlock
import proofs.«171496_j80513456930853_1_alg».proof.Proof.LibRowBlockGate
import proofs.«171496_j80513456930853_1_alg».proof.Proof.RowOps
import Idealize.ShloMosaic.Lib.Pipeline.Value
import Idealize.ShloMosaic.Lib.ValueLayout

noncomputable section

/-! # The plain LSTM step on one block of 512 rows

On rows `512·t …` of `x`, `h`, `c` and the whole weights, the kernel's gate pre-activations, new cell state and new
hidden state are those rows of the whole-array functions: every operation involved acts row by row. -/

namespace Cert.BodyA

open Idealize.ShloMosaic Idealize.ShloMosaic.ValueIdx Idealize.ShloMosaic.Layout
open Cert.KernelIdeal Cert.KernelIdeal.Gen Cert.Cell

variable (t : Fin 32)
variable (x : A2 S16384x512) (h c : A2 S1x16384x512) (cum : A2 S16384x1) (Wih Whh : A2 S2048x512) (bih bhh : A2 S2048)
  (Wsp : A2 S256x512) (bsp : A2 S256) (Wsc : A2 S256x512) (bsc : A2 S256) (Wso : A2 S1x256) (bso : A2 S1)
  (Wtp : A2 S256x512) (btp : A2 S256) (Wto : A2 S1x256) (bto : A2 S1)

/-- The four gate pre-activations of the block are the block's rows of `gates`. -/
theorem gates_rows :
    k0_pay3 (F := Ideal) (rowsOf t x) (rowsOf t (flat h)) (tr2048 Wih) (row2048 bih) (tr2048 Whh) (row2048 bhh)
      = rowsOf t (gates x h Wih Whh bih bhh) := by
  -- the two products: a block of rows times the shared transposed weights
  have hd1 :
      matmul dot_S512x512_S512x2048_S512x2048_1_0_0_1_n_n none
          (truncf .bf16 (rowsOf t x) bitsLt_bf16_f32)
          (truncf .bf16 (shapeCast S512x2048 (tr2048 Wih) shapeCasts_S512x2048_S512x2048) bitsLt_bf16_f32)
          (constant S512x2048 .f32 0x00000000#32)
        = rowsOf t (Host.dotGeneral Cert.ReferenceIdeal.dot_S16384x512_S512x2048_S16384x2048_1_0_0_1_n_n none x (tr2048 Wih)) := by
    have hW : shapeCast S512x2048 (tr2048 Wih) shapeCasts_S512x2048_S512x2048 = tr2048 Wih := shapeCast_self _ _
    rw [hW]
    exact Cert.RowBlock.dot_rows_trunc (φ₁ := .f32) (φ₂ := .f32) bitsLt_bf16_f32 bitsLt_bf16_f32
      dot_S512x512_S512x2048_S512x2048_1_0_0_1_n_n rfl
      Cert.ReferenceIdeal.dot_S16384x512_S512x2048_S16384x2048_1_0_0_1_n_n rfl
      (by decide) (by decide) none none t x (tr2048 Wih)
  have hd2 :
      matmul dot_S512x512_S512x2048_S512x2048_1_0_0_1_n_n none
          (truncf .bf16 (k0_pay1 (F := Ideal) (rowsOf t (flat h))) bitsLt_bf16_f32)
          (truncf .bf16 (shapeCast S512x2048 (tr2048 Whh) shapeCasts_S512x2048_S512x2048) bitsLt_bf16_f32)
          (constant S512x2048 .f32 0x00000000#32)
        = rowsOf t (Host.dotGeneral Cert.ReferenceIdeal.dot_S16384x512_S512x2048_S16384x2048_1_0_0_1_n_n none (flat h) (tr2048 Whh)) := by
    have hW : shapeCast S512x2048 (tr2048 Whh) shapeCasts_S512x2048_S512x2048 = tr2048 Whh := shapeCast_self _ _
    have hH : k0_pay1 (F := Ideal) (rowsOf t (flat h)) = rowsOf t (flat h) := shapeCast_self _ _
    rw [hW, hH]
    exact Cert.RowBlock.dot_rows_trunc (φ₁ := .f32) (φ₂ := .f32) bitsLt_bf16_f32 bitsLt_bf16_f32
      dot_S512x512_S512x2048_S512x2048_1_0_0_1_n_n rfl
      Cert.ReferenceIdeal.dot_S16384x512_S512x2048_S16384x2048_1_0_0_1_n_n rfl
      (by decide) (by decide) none none t (flat h) (tr2048 Whh)
  -- the two bias rows laid under every row of the block
  have hb1 :
      broadcastTo S512x2048 (shapeCast S1x2048 (row2048 bih) shapeCasts_S1x2048_S1x2048) broadcasts_S1x2048_S512x2048
        = rowsOf t (rows2048 bih) := by
    have hc : shapeCast S1x2048 (row2048 bih) shapeCasts_S1x2048_S1x2048 = row2048 bih := shapeCast_self _ _
    rw [hc]
    exact Cert.RowBlock.bias_rows (R := 512) (M := 16384) (T := 32) (N := 2048) (by decide) t
      shapeCasts_S2048_S1x2048 broadcasts_S1x2048_S512x2048
      (by decide) (by decide) bih
  have hb2 :
      broadcastTo S512x2048 (shapeCast S1x2048 (row2048 bhh) shapeCasts_S1x2048_S1x2048) broadcasts_S1x2048_S512x2048
        = rowsOf t (rows2048 bhh) := by
    have hc : shapeCast S1x2048 (row2048 bhh) shapeCasts_S1x2048_S1x2048 = row2048 bhh := shapeCast_self _ _
    rw [hc]
    exact Cert.RowBlock.bias_rows (R := 512) (M := 16384) (T := 32) (N := 2048) (by decide) t
      shapeCasts_S2048_S1x2048 broadcasts_S1x2048_S512x2048
      (by decide) (by decide) bhh
  unfold k0_pay3
  dsimp only
  rw [hd1, hd2, hb1, hb2]
  rfl

/-! ## Column slices of a block of rows, under the two squashing functions

For any `[16384, 2048]` array `G`: columns `o … o + 511` of rows `512·t …` of `G` are rows `512·t …` of those
columns of `G`, and `σ` and `tanh` act entry by entry. -/

/-- `σ` of columns `o … o + 511` of the block is the block of `σ` of those columns. -/
theorem sig_cols (G : A2 Cert.ReferenceIdeal.S16384x2048) (o : ℕ) (hs : S512x2048.Slices ![0, o] S512x512)
    (hs' : Cert.ReferenceIdeal.S16384x2048.Slices ![0, o] S16384x512) :
    logistic (extractStridedSlice S512x512 ![0, o] (rowsOf t G) hs)
      = rowsOf t (sig512 (extractStridedSlice S16384x512 ![0, o] G hs')) := by
  have hsl : extractStridedSlice S512x512 ![0, o] (rowsOf t G) hs
      = rowsOf t (extractStridedSlice S16384x512 ![0, o] G hs') :=
    Cert.RowBlock.slice_rows (R := 512) (M := 16384) (T := 32) (N := 2048) (N' := 512) o (by decide) (by decide) t hs hs' G
  rw [hsl]
  exact Cert.RowBlock.logistic_rows (R := 512) (M := 16384) (T := 32) (N := 512) (by decide) t
    (extractStridedSlice S16384x512 ![0, o] G hs') (by decide)

/-- `tanh` of columns `o … o + 511` of the block is the block of `tanh` of those columns. -/
theorem tanh_cols (G : A2 Cert.ReferenceIdeal.S16384x2048) (o : ℕ) (hs : S512x2048.Slices ![0, o] S512x512)
    (hs' : Cert.ReferenceIdeal.S16384x2048.Slices ![0, o] S16384x512) :
    tanh (extractStridedSlice S512x512 ![0, o] (rowsOf t G) hs)
      = rowsOf t (Host.tanh (extractStridedSlice S16384x512 ![0, o] G hs')) := by
  have hsl : extractStridedSlice S512x512 ![0, o] (rowsOf t G) hs
      = rowsOf t (extractStridedSlice S16384x512 ![0, o] G hs') :=
    Cert.RowBlock.slice_rows (R := 512) (M := 16384) (T := 32) (N := 2048) (N' := 512) o (by decide) (by decide) t hs hs' G
  rw [hsl]
  exact Cert.RowBlock.tanh_rows (R := 512) (M := 16384) (T := 32) (N := 512) (by decide) t
    (extractStridedSlice S16384x512 ![0, o] G hs')

/-- The block's new cell state `σ f · c + σ i · tanh g`. -/
theorem cell_rows :
    k0_pay4 (F := Ideal) (rowsOf t x) (rowsOf t (flat h)) (rowsOf t (flat c)) (tr2048 Wih) (row2048 bih) (tr2048 Whh) (row2048 bhh)
      = rowsOf t (cell (gates x h Wih Whh bih bhh) c) := by
  have hG := gates_rows t x h Wih Whh bih bhh
  have hc : k0_pay2 (F := Ideal) (rowsOf t (flat c)) = rowsOf t (flat c) := shapeCast_self _ _
  have hF := sig_cols t (gates x h Wih Whh bih bhh) 512 slices_S512x2048_o0_512_S512x512
    Cert.ReferenceIdeal.Gen.slices_S16384x2048_S16384x512_0_512
  have hI := sig_cols t (gates x h Wih Whh bih bhh) 0 slices_S512x2048_o0_0_S512x512
    Cert.ReferenceIdeal.Gen.slices_S16384x2048_S16384x512_0_0
  have hGg := tanh_cols t (gates x h Wih Whh bih bhh) 1024 slices_S512x2048_o0_1024_S512x512
    Cert.ReferenceIdeal.Gen.slices_S16384x2048_S16384x512_0_1024
  unfold k0_pay4
  dsimp only
  rw [hG, hc, hF, hI, hGg]
  rfl

/-- The block's new hidden state `σ o · tanh c₁`. -/
theorem hidden_rows :
    k0_pay5 (F := Ideal) (rowsOf t x) (rowsOf t (flat h)) (rowsOf t (flat c)) (tr2048 Wih) (row2048 bih) (tr2048 Whh) (row2048 bhh)
      = rowsOf t (hidden (gates x h Wih Whh bih bhh) c) := by
  have hG := gates_rows t x h Wih Whh bih bhh
  have hC := cell_rows t x h c Wih Whh bih bhh
  have hO := sig_cols t (gates x h Wih Whh bih bhh) 1536 slices_S512x2048_o0_1536_S512x512
    Cert.ReferenceIdeal.Gen.slices_S16384x2048_S16384x512_0_1536
  unfold k0_pay5
  dsimp only
  rw [hG, hC, hO]
  rfl

end Cert.BodyA

end
-- ==== Proof.BodyB.lean ====
import proofs.«171496_j80513456930853_1_alg».proof.Proof.Gen.KernelIdeal.Skeleton
import proofs.«171496_j80513456930853_1_alg».proof.Proof.Spec
import proofs.«171496_j80513456930853_1_alg».proof.Proof.Rows
import proofs.«171496_j80513456930853_1_alg».proof.Proof.LibRowBlock
import proofs.«171496_j80513456930853_1_alg».proof.Proof.LibRowBlockGate
import proofs.«171496_j80513456930853_1_alg».proof.Proof.RowOps
import Idealize.ShloMosaic.Lib.Pipeline.Value
import Idealize.ShloMosaic.Lib.ValueLayout

noncomputable section

/-! # The skip gate and the threshold on one block of 512 rows

`δ`, `θ`, the running probability `p` and the truth value `u = [p > θ]` of a block of rows are those rows of the
whole-array functions. The new cell state `c1` and `δ` enter as arbitrary whole arrays, so that these statements do
not depend on how they were computed. -/

namespace Cert.BodyB

open Idealize.ShloMosaic Idealize.ShloMosaic.ValueIdx Idealize.ShloMosaic.Layout
open Cert.KernelIdeal Cert.KernelIdeal.Gen Cert.Cell

variable (t : Fin 32)
variable (x : A2 S16384x512) (h c : A2 S1x16384x512) (cum : A2 S16384x1) (Wih Whh : A2 S2048x512) (bih bhh : A2 S2048)
  (Wsp : A2 S256x512) (bsp : A2 S256) (Wsc : A2 S256x512) (bsc : A2 S256) (Wso : A2 S1x256) (bso : A2 S1)
  (Wtp : A2 S256x512) (btp : A2 S256) (Wto : A2 S1x256) (bto : A2 S1)

variable (c1 : A2 S16384x512) (d : A2 S16384x1)

/-! ## The pieces both statements are made of -/

/-- A product `[512, 512] · [512, 256]` on a block: both operands narrowed first, the weights behind a cast to their
    own shape. It is the block of the whole product. -/
theorem dense256_rows (X : A2 S16384x512) (W : A2 S512x256) :
    matmul dot_S512x512_S512x256_S512x256_1_0_0_1_n_n none
        (truncf .bf16 (rowsOf t X) bitsLt_bf16_f32)
        (truncf .bf16 (shapeCast S512x256 W shapeCasts_S512x256_S512x256) bitsLt_bf16_f32)
        (constant S512x256 .f32 0x00000000#32)
      = rowsOf t (Host.dotGeneral Cert.ReferenceIdeal.dot_S16384x512_S512x256_S16384x256_1_0_0_1_n_n none X W) := by
  have hW : shapeCast S512x256 W shapeCasts_S512x256_S512x256 = W := shapeCast_self _ _
  rw [hW]
  exact Cert.RowBlock.dot_rows_trunc (φ₁ := .f32) (φ₂ := .f32) bitsLt_bf16_f32 bitsLt_bf16_f32
    dot_S512x512_S512x256_S512x256_1_0_0_1_n_n rfl
    Cert.ReferenceIdeal.dot_S16384x512_S512x256_S16384x256_1_0_0_1_n_n rfl
    (by decide) (by decide) none none t X W

/-- A bias vector of width `256`, handed over as one row behind a cast to its own shape and laid under the `512` rows
    of a block: the block of the vector laid under all rows. -/
theorem bias256_rows (b : A2 S256) :
    broadcastTo S512x256 (shapeCast S1x256 (row256 b) shapeCasts_S1x256_S1x256) broadcasts_S1x256_S512x256
      = rowsOf t (rows256 b) := by
  have hb : shapeCast S1x256 (row256 b) shapeCasts_S1x256_S1x256 = row256 b := shapeCast_self _ _
  rw [hb]
  exact Cert.RowBlock.bias_rows (R := 512) (M := 16384) (T := 32) (N := 256) (by decide) t _ _ _ _ b

/-- The leaky rectifier on a block: `z` where `z > 0`, else `0.01·z`. -/
theorem leaky_rows (Z : A2 Cert.ReferenceIdeal.S16384x256) :
    select (cmpf .ogt (rowsOf t Z) (broadcast S512x256 (Scalar.ofBits (F := Ideal) .f32 0x00000000#32)))
        (rowsOf t Z)
        (mulf (broadcast S512x256 (Scalar.ofBits (F := Ideal) .f32 0x3C23D70A#32)) (rowsOf t Z))
      = rowsOf t (leaky Z) := by
  have h0 : broadcast S512x256 (Scalar.ofBits (F := Ideal) .f32 0x00000000#32) = rowsOf t (splat256 0x00000000#32) :=
    Cert.RowBlock.splat_rows (R := 512) (M := 16384) (T := 32) (N := 256) (by decide) t (by decide) 0x00000000#32
  have ha : broadcast S512x256 (Scalar.ofBits (F := Ideal) .f32 0x3C23D70A#32) = rowsOf t (splat256 0x3C23D70A#32) :=
    Cert.RowBlock.splat_rows (R := 512) (M := 16384) (T := 32) (N := 256) (by decide) t (by decide) 0x3C23D70A#32
  have hc : cmpf .ogt (rowsOf t Z) (rowsOf t (splat256 0x00000000#32))
      = block ⟨2, ![512, 256]⟩ ⟨2, ![16384, 256]⟩ 0 32 t (cmpf .ogt Z (splat256 0x00000000#32)) (by decide) :=
    Cert.RowOps.cmpf_rows (R := 512) (M := 16384) (T := 32) (N := 256) (by decide) t .ogt Z (splat256 0x00000000#32)
  have hm : mulf (rowsOf t (splat256 0x3C23D70A#32)) (rowsOf t Z) = rowsOf t (mulf (splat256 0x3C23D70A#32) Z) :=
    Cert.RowBlock.mulf_rows (R := 512) (M := 16384) (T := 32) (N := 256) (by decide) t (splat256 0x3C23D70A#32) Z
  have hs : select (block ⟨2, ![512, 256]⟩ ⟨2, ![16384, 256]⟩ 0 32 t (cmpf .ogt Z (splat256 0x00000000#32)) (by decide))
        (rowsOf t Z) (rowsOf t (mulf (splat256 0x3C23D70A#32) Z))
      = rowsOf t (select (cmpf .ogt Z (splat256 0x00000000#32)) Z (mulf (splat256 0x3C23D70A#32) Z)) :=
    Cert.RowOps.select_rows (R := 512) (M := 16384) (T := 32) (N := 256) (by decide) t
      (cmpf .ogt Z (splat256 0x00000000#32)) Z (mulf (splat256 0x3C23D70A#32) Z)
  rw [h0, ha, hc, hm, hs]
  rfl

/-- The last layer on a block: a product `[512, 256] · [256, 1]` (operands narrowed, the column behind a cast to its
    own shape), its one bias entry laid under the rows, and `σ`. -/
theorem head_rows (Y : A2 Cert.ReferenceIdeal.S16384x256) (W : A2 S1x256) (b : A2 S1) :
    logistic (addf
        (matmul dot_S512x256_S256x1_S512x1_1_0_0_1_n_n none
          (truncf .bf16 (rowsOf t Y) bitsLt_bf16_f32)
          (truncf .bf16 (shapeCast S256x1 (trCol W) shapeCasts_S256x1_S256x1) bitsLt_bf16_f32)
          (constant S512x1 .f32 0x00000000#32))
        (broadcastTo S512x1 (shapeCast S1x1 (row1 b) shapeCasts_S1x1_S1x1) broadcasts_S1x1_S512x1))
      = rowsOf t (sig1 (addf
          (Host.dotGeneral Cert.ReferenceIdeal.dot_S16384x256_S256x1_S16384x1_1_0_0_1_n_n none Y (trCol W)) (rows1 b))) := by
  have hW : shapeCast S256x1 (trCol W) shapeCasts_S256x1_S256x1 = trCol W := shapeCast_self _ _
  have hb : shapeCast S1x1 (row1 b) shapeCasts_S1x1_S1x1 = row1 b := shapeCast_self _ _
  have hd : matmul dot_S512x256_S256x1_S512x1_1_0_0_1_n_n none
        (truncf .bf16 (rowsOf t Y) bitsLt_bf16_f32) (truncf .bf16 (trCol W) bitsLt_bf16_f32) (constant S512x1 .f32 0x00000000#32)
      = rowsOf t (Host.dotGeneral Cert.ReferenceIdeal.dot_S16384x256_S256x1_S16384x1_1_0_0_1_n_n none Y (trCol W)) :=
    Cert.RowBlock.dot_rows_trunc (φ₁ := .f32) (φ₂ := .f32) bitsLt_bf16_f32 bitsLt_bf16_f32
      dot_S512x256_S256x1_S512x1_1_0_0_1_n_n rfl
      Cert.ReferenceIdeal.dot_S16384x256_S256x1_S16384x1_1_0_0_1_n_n rfl
      (by decide) (by decide) none none t Y (trCol W)
  have hr : broadcastTo S512x1 (row1 b) broadcasts_S1x1_S512x1 = rowsOf t (rows1 b) :=
    Cert.RowBlock.bias_rows (R := 512) (M := 16384) (T := 32) (N := 1) (by decide) t _ _ _ _ b
  have ha : addf (rowsOf t (Host.dotGeneral Cert.ReferenceIdeal.dot_S16384x256_S256x1_S16384x1_1_0_0_1_n_n none Y (trCol W)))
        (rowsOf t (rows1 b))
      = rowsOf t (addf (Host.dotGeneral Cert.ReferenceIdeal.dot_S16384x256_S256x1_S16384x1_1_0_0_1_n_n none Y (trCol W)) (rows1 b)) :=
    Cert.RowBlock.addf_rows (R := 512) (M := 16384) (T := 32) (N := 1) (by decide) t _ _
  rw [hW, hb, hd, hr, ha]
  exact Cert.RowBlock.logistic_rows (R := 512) (M := 16384) (T := 32) (N := 1) (by decide) t _ _

/-- The block's `δ`. The old cell state's block arrives already narrowed to `bf16`, which changes nothing here. -/
theorem delta_rows :
    k0_pay7 (F := Ideal) (rowsOf t c1) (k0_pay6 (rowsOf t (flat c))) (tr256 Wsp) (row256 bsp) (tr256 Wsc) (row256 bsc) (trCol Wso) (row1 bso)
      = rowsOf t (delta c c1 Wsp bsp Wsc bsc Wso bso) := by
  unfold k0_pay7 k0_pay6 k0_pay2
  dsimp only
  -- the old cell state's block behind a cast to its own shape
  have hc : shapeCast S512x512 (rowsOf t (flat c)) shapeCasts_S512x512_S512x512 = rowsOf t (flat c) := shapeCast_self _ _
  -- the two products and the two bias rows
  have hp : matmul dot_S512x512_S512x256_S512x256_1_0_0_1_n_n none
        (truncf .bf16 (rowsOf t (flat c)) bitsLt_bf16_f32)
        (truncf .bf16 (shapeCast S512x256 (tr256 Wsp) shapeCasts_S512x256_S512x256) bitsLt_bf16_f32)
        (constant S512x256 .f32 0x00000000#32)
      = rowsOf t (Host.dotGeneral Cert.ReferenceIdeal.dot_S16384x512_S512x256_S16384x256_1_0_0_1_n_n none (flat c) (tr256 Wsp)) :=
    dense256_rows t (flat c) (tr256 Wsp)
  have hq : matmul dot_S512x512_S512x256_S512x256_1_0_0_1_n_n none
        (truncf .bf16 (rowsOf t c1) bitsLt_bf16_f32)
        (truncf .bf16 (shapeCast S512x256 (tr256 Wsc) shapeCasts_S512x256_S512x256) bitsLt_bf16_f32)
        (constant S512x256 .f32 0x00000000#32)
      = rowsOf t (Host.dotGeneral Cert.ReferenceIdeal.dot_S16384x512_S512x256_S16384x256_1_0_0_1_n_n none c1 (tr256 Wsc)) :=
    dense256_rows t c1 (tr256 Wsc)
  have hbp : broadcastTo S512x256 (shapeCast S1x256 (row256 bsp) shapeCasts_S1x256_S1x256) broadcasts_S1x256_S512x256
      = rowsOf t (rows256 bsp) := bias256_rows t bsp
  have hbc : broadcastTo S512x256 (shapeCast S1x256 (row256 bsc) shapeCasts_S1x256_S1x256) broadcasts_S1x256_S512x256
      = rowsOf t (rows256 bsc) := bias256_rows t bsc
  rw [hc, hp, hq, hbp, hbc]
  -- the three sums
  have s1 : addf (rowsOf t (Host.dotGeneral Cert.ReferenceIdeal.dot_S16384x512_S512x256_S16384x256_1_0_0_1_n_n none (flat c) (tr256 Wsp)))
        (rowsOf t (rows256 bsp))
      = rowsOf t (addf (Host.dotGeneral Cert.ReferenceIdeal.dot_S16384x512_S512x256_S16384x256_1_0_0_1_n_n none (flat c) (tr256 Wsp)) (rows256 bsp)) :=
    Cert.RowBlock.addf_rows (R := 512) (M := 16384) (T := 32) (N := 256) (by decide) t _ _
  have s2 : addf (rowsOf t (addf (Host.dotGeneral Cert.ReferenceIdeal.dot_S16384x512_S512x256_S16384x256_1_0_0_1_n_n none (flat c) (tr256 Wsp)) (rows256 bsp)))
        (rowsOf t (Host.dotGeneral Cert.ReferenceIdeal.dot_S16384x512_S512x256_S16384x256_1_0_0_1_n_n none c1 (tr256 Wsc)))
      = rowsOf t (addf (addf (Host.dotGeneral Cert.ReferenceIdeal.dot_S16384x512_S512x256_S16384x256_1_0_0_1_n_n none (flat c) (tr256 Wsp)) (rows256 bsp))
          (Host.dotGeneral Cert.ReferenceIdeal.dot_S16384x512_S512x256_S16384x256_1_0_0_1_n_n none c1 (tr256 Wsc))) :=
    Cert.RowBlock.addf_rows (R := 512) (M := 16384) (T := 32) (N := 256) (by decide) t _ _
  have s3 : addf (rowsOf t (addf (addf (Host.dotGeneral Cert.ReferenceIdeal.dot_S16384x512_S512x256_S16384x256_1_0_0_1_n_n none (flat c) (tr256 Wsp)) (rows256 bsp))
          (Host.dotGeneral Cert.ReferenceIdeal.dot_S16384x512_S512x256_S16384x256_1_0_0_1_n_n none c1 (tr256 Wsc))))
        (rowsOf t (rows256 bsc))
      = rowsOf t (addf (addf (addf (Host.dotGeneral Cert.ReferenceIdeal.dot_S16384x512_S512x256_S16384x256_1_0_0_1_n_n none (flat c) (tr256 Wsp)) (rows256 bsp))
          (Host.dotGeneral Cert.ReferenceIdeal.dot_S16384x512_S512x256_S16384x256_1_0_0_1_n_n none c1 (tr256 Wsc))) (rows256 bsc)) :=
    Cert.RowBlock.addf_rows (R := 512) (M := 16384) (T := 32) (N := 256) (by decide) t _ _
  rw [s1, s2, s3]
  -- the rectifier, then the last layer
  rw [leaky_rows t (addf (addf (addf (Host.dotGeneral Cert.ReferenceIdeal.dot_S16384x512_S512x256_S16384x256_1_0_0_1_n_n none (flat c) (tr256 Wsp)) (rows256 bsp))
          (Host.dotGeneral Cert.ReferenceIdeal.dot_S16384x512_S512x256_S16384x256_1_0_0_1_n_n none c1 (tr256 Wsc))) (rows256 bsc))]
  exact head_rows t _ Wso bso

/-- The block's running probability `cum + min δ (1 − cum)`. -/
theorem prob_rows :
    k0_pay10 (F := Ideal) (rowsOf t cum) (rowsOf t d) = rowsOf t (prob cum d) := by
  unfold k0_pay10
  dsimp only
  -- the constant one on the block is the block of the constant one
  have h1 : broadcast S512x1 (Scalar.ofBits (F := Ideal) .f32 0x3F800000#32) = rowsOf t (splat1 0x3F800000#32) :=
    Cert.RowBlock.splat_rows (R := 512) (M := 16384) (T := 32) (N := 1) (by decide) t (by decide) 0x3F800000#32
  -- 1 − cum
  have h2 : subf (rowsOf t (splat1 0x3F800000#32)) (rowsOf t cum) = rowsOf t (subf (splat1 0x3F800000#32) cum) :=
    Cert.RowBlock.subf_rows (R := 512) (M := 16384) (T := 32) (N := 1) (by decide) t (splat1 0x3F800000#32) cum
  -- min δ (1 − cum)
  have h3 : minimumf (rowsOf t d) (rowsOf t (subf (splat1 0x3F800000#32) cum))
      = rowsOf t (minimumf d (subf (splat1 0x3F800000#32) cum)) :=
    Cert.RowOps.minimumf_rows (R := 512) (M := 16384) (T := 32) (N := 1) (by decide) t d (subf (splat1 0x3F800000#32) cum)
  -- cum + min δ (1 − cum)
  have h4 : addf (rowsOf t cum) (rowsOf t (minimumf d (subf (splat1 0x3F800000#32) cum)))
      = rowsOf t (addf cum (minimumf d (subf (splat1 0x3F800000#32) cum))) :=
    Cert.RowBlock.addf_rows (R := 512) (M := 16384) (T := 32) (N := 1) (by decide) t cum (minimumf d (subf (splat1 0x3F800000#32) cum))
  rw [h1, h2, h3, h4]
  rfl

/-- The block's truth value `[p > θ]` as a number. -/
theorem hard_rows :
    k0_pay11 (F := Ideal) (rowsOf t cum) (rowsOf t d) (k0_pay8 (k0_pay2 (rowsOf t (flat c))) (tr256 Wtp)) (k0_pay9 (row256 btp)) (trCol Wto) (row1 bto)
      = rowsOf t (hard (prob cum d) (thresh c Wtp btp Wto bto)) := by
  unfold k0_pay11 k0_pay8 k0_pay9 k0_pay2
  dsimp only
  -- the running probability of the block
  have hpr : k0_pay10 (F := Ideal) (rowsOf t cum) (rowsOf t d) = rowsOf t (prob cum d) := prob_rows t cum d
  -- the old cell state's block behind a cast to its own shape
  have hc : shapeCast S512x512 (rowsOf t (flat c)) shapeCasts_S512x512_S512x512 = rowsOf t (flat c) := shapeCast_self _ _
  -- the first layer's product and bias row
  have hp : matmul dot_S512x512_S512x256_S512x256_1_0_0_1_n_n none
        (truncf .bf16 (rowsOf t (flat c)) bitsLt_bf16_f32)
        (truncf .bf16 (shapeCast S512x256 (tr256 Wtp) shapeCasts_S512x256_S512x256) bitsLt_bf16_f32)
        (constant S512x256 .f32 0x00000000#32)
      = rowsOf t (Host.dotGeneral Cert.ReferenceIdeal.dot_S16384x512_S512x256_S16384x256_1_0_0_1_n_n none (flat c) (tr256 Wtp)) :=
    dense256_rows t (flat c) (tr256 Wtp)
  have hb : broadcastTo S512x256 (shapeCast S1x256 (row256 btp) shapeCasts_S1x256_S1x256) broadcasts_S1x256_S512x256
      = rowsOf t (rows256 btp) := bias256_rows t btp
  rw [hpr, hc, hp, hb]
  have s1 : addf (rowsOf t (Host.dotGeneral Cert.ReferenceIdeal.dot_S16384x512_S512x256_S16384x256_1_0_0_1_n_n none (flat c) (tr256 Wtp)))
        (rowsOf t (rows256 btp))
      = rowsOf t (addf (Host.dotGeneral Cert.ReferenceIdeal.dot_S16384x512_S512x256_S16384x256_1_0_0_1_n_n none (flat c) (tr256 Wtp)) (rows256 btp)) :=
    Cert.RowBlock.addf_rows (R := 512) (M := 16384) (T := 32) (N := 256) (by decide) t _ _
  rw [s1]
  -- the rectifier, then the last layer: the block of the threshold
  rw [leaky_rows t (addf (Host.dotGeneral Cert.ReferenceIdeal.dot_S16384x512_S512x256_S16384x256_1_0_0_1_n_n none (flat c) (tr256 Wtp)) (rows256 btp))]
  have hth : logistic (addf
        (matmul dot_S512x256_S256x1_S512x1_1_0_0_1_n_n none
          (truncf .bf16 (rowsOf t (leaky (addf (Host.dotGeneral Cert.ReferenceIdeal.dot_S16384x512_S512x256_S16384x256_1_0_0_1_n_n none (flat c) (tr256 Wtp)) (rows256 btp)))) bitsLt_bf16_f32)
          (truncf .bf16 (shapeCast S256x1 (trCol Wto) shapeCasts_S256x1_S256x1) bitsLt_bf16_f32)
          (constant S512x1 .f32 0x00000000#32))
        (broadcastTo S512x1 (shapeCast S1x1 (row1 bto) shapeCasts_S1x1_S1x1) broadcasts_S1x1_S512x1))
      = rowsOf t (thresh c Wtp btp Wto bto) :=
    head_rows t _ Wto bto
  rw [hth]
  -- the comparison of the two blocks, and its truth value as a number
  have hcmp : cmpf .ogt (rowsOf t (prob cum d)) (rowsOf t (thresh c Wtp btp Wto bto))
      = block ⟨2, ![512, 1]⟩ ⟨2, ![16384, 1]⟩ 0 32 t (cmpf .ogt (prob cum d) (thresh c Wtp btp Wto bto)) (by decide) :=
    Cert.RowOps.cmpf_rows (R := 512) (M := 16384) (T := 32) (N := 1) (by decide) t .ogt (prob cum d) (thresh c Wtp btp Wto bto)
  rw [hcmp]
  exact Cert.RowOps.truth_rows (R := 512) (M := 16384) (T := 32) (N := 1) (by decide) t
    (cmpf .ogt (prob cum d) (thresh c Wtp btp Wto bto)) natLt_1_32

end Cert.BodyB

end
-- ==== Proof.BodyC.lean ====
import proofs.«171496_j80513456930853_1_alg».proof.Proof.Gen.KernelIdeal.Skeleton
import proofs.«171496_j80513456930853_1_alg».proof.Proof.Spec
import proofs.«171496_j80513456930853_1_alg».proof.Proof.Rows
import proofs.«171496_j80513456930853_1_alg».proof.Proof.LibRowBlock
import proofs.«171496_j80513456930853_1_alg».proof.Proof.LibRowBlockGate
import proofs.«171496_j80513456930853_1_alg».proof.Proof.RowOps
import proofs.«171496_j80513456930853_1_alg».proof.Proof.BodyB
import Idealize.ShloMosaic.Lib.Pipeline.Value
import Idealize.ShloMosaic.Lib.ValueLayout

noncomputable section

/-! # The three gated results on one block of 512 rows

With `u` the block's truth value, the block's results `u·h₁ + (1 − u)·h`, `u·c₁ + (1 − u)·c` and `(1 − u)·p` are the
block's rows of the whole-array functions. `h₁`, `c₁` and `δ` enter as arbitrary whole arrays. -/

namespace Cert.BodyC

open Idealize.ShloMosaic Idealize.ShloMosaic.ValueIdx Idealize.ShloMosaic.Layout
open Cert.KernelIdeal Cert.KernelIdeal.Gen Cert.Cell

variable (t : Fin 32)
variable (x : A2 S16384x512) (h c : A2 S1x16384x512) (cum : A2 S16384x1) (Wih Whh : A2 S2048x512) (bih bhh : A2 S2048)
  (Wsp : A2 S256x512) (bsp : A2 S256) (Wsc : A2 S256x512) (bsc : A2 S256) (Wso : A2 S1x256) (bso : A2 S1)
  (Wtp : A2 S256x512) (btp : A2 S256) (Wto : A2 S1x256) (bto : A2 S1)

variable (h1 c1 : A2 S16384x512) (d : A2 S16384x1)

/-- The block's truth value laid across the 512 lanes is the block of the whole column laid across them: the
    kernel's re-typing of the column is the identity, the column is the block's rows of `u`, and copying a
    column across the lanes works row by row. -/
theorem col_rows :
    k0_pay12 (F := Ideal) (rowsOf t cum) (rowsOf t d)
        (k0_pay8 (k0_pay2 (rowsOf t (flat c))) (tr256 Wtp)) (k0_pay9 (row256 btp)) (trCol Wto) (row1 bto)
      = rowsOf t (colB (hard (prob cum d) (thresh c Wtp btp Wto bto))) := by
  have e0 : k0_pay12 (F := Ideal) (rowsOf t cum) (rowsOf t d)
        (k0_pay8 (k0_pay2 (rowsOf t (flat c))) (tr256 Wtp)) (k0_pay9 (row256 btp)) (trCol Wto) (row1 bto)
      = broadcastTo S512x512
          (shapeCast S512x1
            (k0_pay11 (F := Ideal) (rowsOf t cum) (rowsOf t d)
              (k0_pay8 (k0_pay2 (rowsOf t (flat c))) (tr256 Wtp)) (k0_pay9 (row256 btp)) (trCol Wto) (row1 bto))
            shapeCasts_S512x1_S512x1)
          broadcasts_S512x1_S512x512 := rfl
  have e1 : shapeCast S512x1
        (k0_pay11 (F := Ideal) (rowsOf t cum) (rowsOf t d)
          (k0_pay8 (k0_pay2 (rowsOf t (flat c))) (tr256 Wtp)) (k0_pay9 (row256 btp)) (trCol Wto) (row1 bto))
        shapeCasts_S512x1_S512x1
      = rowsOf t (hard (prob cum d) (thresh c Wtp btp Wto bto)) :=
    (shapeCast_self _ _).trans (Cert.BodyB.hard_rows t c cum Wtp btp Wto bto d)
  refine e0.trans ?_
  rw [e1]
  exact Cert.RowBlock.column_rows (by decide) (by decide) t broadcasts_S512x1_S512x512 (by decide)
    (hard (prob cum d) (thresh c Wtp btp Wto bto))

/-- `u·new + (1 − u)·old` on a block: the constant `1` is the block of the constant array, and the difference, the
    two products and the sum act entry by entry. -/
theorem mix_rows (u : A2 S16384x1) (new old : A2 S16384x512) :
    addf (mulf (rowsOf t (colB u)) (rowsOf t new))
        (mulf (subf (broadcast S512x512 (Scalar.ofBits (F := Ideal) .f32 0x3F800000#32)) (rowsOf t (colB u))) (rowsOf t old))
      = rowsOf t (mix2 u new old) := by
  have hone : broadcast S512x512 (Scalar.ofBits (F := Ideal) .f32 0x3F800000#32) = rowsOf t (splat512 0x3F800000#32) :=
    Cert.RowBlock.splat_rows (by decide) t (by decide) 0x3F800000#32
  rw [hone]
  rfl

/-- The block's new hidden state. -/
theorem newH_rows :
    k0_pay13 (F := Ideal) (k0_pay1 (rowsOf t (flat h))) (rowsOf t cum) (rowsOf t h1) (rowsOf t d)
        (k0_pay8 (k0_pay2 (rowsOf t (flat c))) (tr256 Wtp)) (k0_pay9 (row256 btp)) (trCol Wto) (row1 bto)
      = rowsOf t (mix2 (hard (prob cum d) (thresh c Wtp btp Wto bto)) h1 (flat h)) := by
  have hold : k0_pay1 (F := Ideal) (rowsOf t (flat h)) = rowsOf t (flat h) := shapeCast_self _ _
  unfold k0_pay13
  dsimp only
  rw [col_rows t c cum Wtp btp Wto bto d, hold]
  exact mix_rows t (hard (prob cum d) (thresh c Wtp btp Wto bto)) h1 (flat h)

/-- The block's new cell state. -/
theorem newC_rows :
    k0_pay14 (F := Ideal) (k0_pay2 (rowsOf t (flat c))) (rowsOf t cum) (rowsOf t c1) (rowsOf t d)
        (k0_pay8 (k0_pay2 (rowsOf t (flat c))) (tr256 Wtp)) (k0_pay9 (row256 btp)) (trCol Wto) (row1 bto)
      = rowsOf t (mix2 (hard (prob cum d) (thresh c Wtp btp Wto bto)) c1 (flat c)) := by
  have hold : k0_pay2 (F := Ideal) (rowsOf t (flat c)) = rowsOf t (flat c) := shapeCast_self _ _
  have hcol := col_rows t c cum Wtp btp Wto bto d
  rw [hold] at hcol
  unfold k0_pay14
  dsimp only
  rw [hold, hcol]
  exact mix_rows t (hard (prob cum d) (thresh c Wtp btp Wto bto)) c1 (flat c)

/-- The block's carried probability. -/
theorem newCum_rows :
    k0_pay15 (F := Ideal) (rowsOf t cum) (rowsOf t d)
        (k0_pay8 (k0_pay2 (rowsOf t (flat c))) (tr256 Wtp)) (k0_pay9 (row256 btp)) (trCol Wto) (row1 bto)
      = rowsOf t (carry (hard (prob cum d) (thresh c Wtp btp Wto bto)) (prob cum d)) := by
  have hone : broadcast S512x1 (Scalar.ofBits (F := Ideal) .f32 0x3F800000#32) = rowsOf t (splat1 0x3F800000#32) :=
    Cert.RowBlock.splat_rows (by decide) t (by decide) 0x3F800000#32
  unfold k0_pay15
  dsimp only
  rw [Cert.BodyB.hard_rows t c cum Wtp btp Wto bto d, Cert.BodyB.prob_rows t cum d, hone]
  rfl

end Cert.BodyC

end
-- ==== Proof.Cover.lean ====
import proofs.«171496_j80513456930853_1_alg».proof.Proof.Gen.KernelIdeal.Frame
import proofs.«171496_j80513456930853_1_alg».proof.Proof.Gen.KernelIdeal.Points
import Idealize.ShloMosaic.Lib.Pipeline.Value

set_option maxRecDepth 16384

noncomputable section

/-! # The 32 blocks of rows cover each output array

Output window `w`'s block at grid point `t` is rows `512·t … 512·t + 511`, all columns; every point writes its block
back. Row `r` of the array lies in the block of point `r / 512`. -/

namespace Cert.KernelIdeal.Cover

open Idealize.ShloMosaic Idealize.ShloMosaic.TcCoe Idealize.SL.Sem
open Cert.KernelIdeal Cert.KernelIdeal.Gen

/-- The grid has `32` points. -/
theorem grid_points : cfg0.N = 32 := rfl

/-- Window 18's block index at grid point `t` is `(t, 0)`: decided once over the grid. -/
theorem idx18 : ∀ t : Fin cfg0.N, win0_18.index t (0 : Fin 2) = t.val ∧ win0_18.index t (1 : Fin 2) = 0 :=
  (by decide +kernel : ∀ t : Fin grid0.N, _)

/-- An index of window 18's array is in point `t`'s block iff each coordinate is in the block's range on its axis. -/
theorem mem_blk18 (t : Fin cfg0.N) (i : S16384x512.Idx) :
    i ∈ ((cfg0.win 18).blk t).view.set ↔ ∀ a : Fin 2, win0_18.index t a * S512x512.size a ≤ (i a).val ∧ (i a).val < win0_18.index t a * S512x512.size a + S512x512.size a := by
  show i ∈ ((View.whole main_v16_0).slice (win0_18.rect t)).set ↔ _
  rw [View.set_slice_whole, Rect.mem_set_unit]
  exact Iff.rfl

theorem cover18 (i : S16384x512.Idx) :
    ∃ t : Fin cfg0.N, (cfg0.win 18).flush t = true ∧ i ∈ ((cfg0.win 18).blk t).view.set := by
  have hi0 : (i 0).val < 16384 := (i 0).isLt
  have hi1 : (i 1).val < 512 := (i 1).isLt
  -- the point whose block holds row `i 0`: `i 0 / 512`, kept symbolic
  obtain ⟨t, ht⟩ : ∃ t : Fin cfg0.N, t.val = (i 0).val / 512 :=
    ⟨⟨(i 0).val / 512, by rw [grid_points]; omega⟩, rfl⟩
  obtain ⟨e0, e1⟩ := idx18 t
  refine ⟨t, flush0_18 t, ?_⟩
  rw [mem_blk18]
  intro a
  match a with
  | ⟨0, _⟩ =>
    show win0_18.index t (0 : Fin 2) * 512 ≤ (i 0).val ∧ (i 0).val < win0_18.index t (0 : Fin 2) * 512 + 512
    omega
  | ⟨1, _⟩ =>
    show win0_18.index t (1 : Fin 2) * 512 ≤ (i 1).val ∧ (i 1).val < win0_18.index t (1 : Fin 2) * 512 + 512
    omega

/-- Window 19's block index at grid point `t` is `(t, 0)`: decided once over the grid. -/
theorem idx19 : ∀ t : Fin cfg0.N, win0_19.index t (0 : Fin 2) = t.val ∧ win0_19.index t (1 : Fin 2) = 0 :=
  (by decide +kernel : ∀ t : Fin grid0.N, _)

/-- An index of window 19's array is in point `t`'s block iff each coordinate is in the block's range on its axis. -/
theorem mem_blk19 (t : Fin cfg0.N) (i : S16384x512.Idx) :
    i ∈ ((cfg0.win 19).blk t).view.set ↔ ∀ a : Fin 2, win0_19.index t a * S512x512.size a ≤ (i a).val ∧ (i a).val < win0_19.index t a * S512x512.size a + S512x512.size a := by
  show i ∈ ((View.whole main_v16_1).slice (win0_19.rect t)).set ↔ _
  rw [View.set_slice_whole, Rect.mem_set_unit]
  exact Iff.rfl

theorem cover19 (i : S16384x512.Idx) :
    ∃ t : Fin cfg0.N, (cfg0.win 19).flush t = true ∧ i ∈ ((cfg0.win 19).blk t).view.set := by
  have hi0 : (i 0).val < 16384 := (i 0).isLt
  have hi1 : (i 1).val < 512 := (i 1).isLt
  -- the point whose block holds row `i 0`: `i 0 / 512`, kept symbolic
  obtain ⟨t, ht⟩ : ∃ t : Fin cfg0.N, t.val = (i 0).val / 512 :=
    ⟨⟨(i 0).val / 512, by rw [grid_points]; omega⟩, rfl⟩
  obtain ⟨e0, e1⟩ := idx19 t
  refine ⟨t, flush0_19 t, ?_⟩
  rw [mem_blk19]
  intro a
  match a with
  | ⟨0, _⟩ =>
    show win0_19.index t (0 : Fin 2) * 512 ≤ (i 0).val ∧ (i 0).val < win0_19.index t (0 : Fin 2) * 512 + 512
    omega
  | ⟨1, _⟩ =>
    show win0_19.index t (1 : Fin 2) * 512 ≤ (i 1).val ∧ (i 1).val < win0_19.index t (1 : Fin 2) * 512 + 512
    omega

/-- Window 20's block index at grid point `t` is `(t, 0)`: decided once over the grid. -/
theorem idx20 : ∀ t : Fin cfg0.N, win0_20.index t (0 : Fin 2) = t.val ∧ win0_20.index t (1 : Fin 2) = 0 :=
  (by decide +kernel : ∀ t : Fin grid0.N, _)

/-- An index of window 20's array is in point `t`'s block iff each coordinate is in the block's range on its axis. -/
theorem mem_blk20 (t : Fin cfg0.N) (i : S16384x1.Idx) :
    i ∈ ((cfg0.win 20).blk t).view.set ↔ ∀ a : Fin 2, win0_20.index t a * S512x1.size a ≤ (i a).val ∧ (i a).val < win0_20.index t a * S512x1.size a + S512x1.size a := by
  show i ∈ ((View.whole main_v16_2).slice (win0_20.rect t)).set ↔ _
  rw [View.set_slice_whole, Rect.mem_set_unit]
  exact Iff.rfl

theorem cover20 (i : S16384x1.Idx) :
    ∃ t : Fin cfg0.N, (cfg0.win 20).flush t = true ∧ i ∈ ((cfg0.win 20).blk t).view.set := by
  have hi0 : (i 0).val < 16384 := (i 0).isLt
  have hi1 : (i 1).val < 1 := (i 1).isLt
  -- the point whose block holds row `i 0`: `i 0 / 512`, kept symbolic
  obtain ⟨t, ht⟩ : ∃ t : Fin cfg0.N, t.val = (i 0).val / 512 :=
    ⟨⟨(i 0).val / 512, by rw [grid_points]; omega⟩, rfl⟩
  obtain ⟨e0, e1⟩ := idx20 t
  refine ⟨t, flush0_20 t, ?_⟩
  rw [mem_blk20]
  intro a
  match a with
  | ⟨0, _⟩ =>
    show win0_20.index t (0 : Fin 2) * 512 ≤ (i 0).val ∧ (i 0).val < win0_20.index t (0 : Fin 2) * 512 + 512
    omega
  | ⟨1, _⟩ =>
    show win0_20.index t (1 : Fin 2) * 1 ≤ (i 1).val ∧ (i 1).val < win0_20.index t (1 : Fin 2) * 1 + 1
    omega

/-- Window 21's block index at grid point `t` is `(t, 0)`: decided once over the grid. -/
theorem idx21 : ∀ t : Fin cfg0.N, win0_21.index t (0 : Fin 2) = t.val ∧ win0_21.index t (1 : Fin 2) = 0 :=
  (by decide +kernel : ∀ t : Fin grid0.N, _)

/-- An index of window 21's array is in point `t`'s block iff each coordinate is in the block's range on its axis. -/
theorem mem_blk21 (t : Fin cfg0.N) (i : S16384x1.Idx) :
    i ∈ ((cfg0.win 21).blk t).view.set ↔ ∀ a : Fin 2, win0_21.index t a * S512x1.size a ≤ (i a).val ∧ (i a).val < win0_21.index t a * S512x1.size a + S512x1.size a := by
  show i ∈ ((View.whole main_v16_3).slice (win0_21.rect t)).set ↔ _
  rw [View.set_slice_whole, Rect.mem_set_unit]
  exact Iff.rfl

theorem cover21 (i : S16384x1.Idx) :
    ∃ t : Fin cfg0.N, (cfg0.win 21).flush t = true ∧ i ∈ ((cfg0.win 21).blk t).view.set := by
  have hi0 : (i 0).val < 16384 := (i 0).isLt
  have hi1 : (i 1).val < 1 := (i 1).isLt
  -- the point whose block holds row `i 0`: `i 0 / 512`, kept symbolic
  obtain ⟨t, ht⟩ : ∃ t : Fin cfg0.N, t.val = (i 0).val / 512 :=
    ⟨⟨(i 0).val / 512, by rw [grid_points]; omega⟩, rfl⟩
  obtain ⟨e0, e1⟩ := idx21 t
  refine ⟨t, flush0_21 t, ?_⟩
  rw [mem_blk21]
  intro a
  match a with
  | ⟨0, _⟩ =>
    show win0_21.index t (0 : Fin 2) * 512 ≤ (i 0).val ∧ (i 0).val < win0_21.index t (0 : Fin 2) * 512 + 512
    omega
  | ⟨1, _⟩ =>
    show win0_21.index t (1 : Fin 2) * 1 ≤ (i 1).val ∧ (i 1).val < win0_21.index t (1 : Fin 2) * 1 + 1
    omega

/-- Window 22's block index at grid point `t` is `(t, 0)`: decided once over the grid. -/
theorem idx22 : ∀ t : Fin cfg0.N, win0_22.index t (0 : Fin 2) = t.val ∧ win0_22.index t (1 : Fin 2) = 0 :=
  (by decide +kernel : ∀ t : Fin grid0.N, _)

/-- An index of window 22's array is in point `t`'s block iff each coordinate is in the block's range on its axis. -/
theorem mem_blk22 (t : Fin cfg0.N) (i : S16384x1.Idx) :
    i ∈ ((cfg0.win 22).blk t).view.set ↔ ∀ a : Fin 2, win0_22.index t a * S512x1.size a ≤ (i a).val ∧ (i a).val < win0_22.index t a * S512x1.size a + S512x1.size a := by
  show i ∈ ((View.whole main_v16_4).slice (win0_22.rect t)).set ↔ _
  rw [View.set_slice_whole, Rect.mem_set_unit]
  exact Iff.rfl

theorem cover22 (i : S16384x1.Idx) :
    ∃ t : Fin cfg0.N, (cfg0.win 22).flush t = true ∧ i ∈ ((cfg0.win 22).blk t).view.set := by
  have hi0 : (i 0).val < 16384 := (i 0).isLt
  have hi1 : (i 1).val < 1 := (i 1).isLt
  -- the point whose block holds row `i 0`: `i 0 / 512`, kept symbolic
  obtain ⟨t, ht⟩ : ∃ t : Fin cfg0.N, t.val = (i 0).val / 512 :=
    ⟨⟨(i 0).val / 512, by rw [grid_points]; omega⟩, rfl⟩
  obtain ⟨e0, e1⟩ := idx22 t
  refine ⟨t, flush0_22 t, ?_⟩
  rw [mem_blk22]
  intro a
  match a with
  | ⟨0, _⟩ =>
    show win0_22.index t (0 : Fin 2) * 512 ≤ (i 0).val ∧ (i 0).val < win0_22.index t (0 : Fin 2) * 512 + 512
    omega
  | ⟨1, _⟩ =>
    show win0_22.index t (1 : Fin 2) * 1 ≤ (i 1).val ∧ (i 1).val < win0_22.index t (1 : Fin 2) * 1 + 1
    omega

end Cert.KernelIdeal.Cover

end
-- ==== Proof.RunRead.lean ====
import proofs.«171496_j80513456930853_1_alg».proof.Proof.Gen.KernelIdeal.Frame
import Idealize.ShloMosaic.Lib.Pipeline.Value
import Idealize.ShloMosaic.Lib.StableHlo.Run
import Idealize.ShloMosaic.PureOps.Ideal

set_option maxRecDepth 16384

noncomputable section

/-! # The kernel program's run, with its result buffers named

After the region the program reads the first two output arrays as `[1, 16384, 512]` and returns those and the other
three output arrays. Every weakly fair execution ends with each output array at what the grid's write-backs left
(`arrAt w N`), the two host results at that array read as `[1, 16384, 512]`, and the eighteen arguments unchanged. -/

namespace Cert.KernelIdeal.RunRead

open Idealize.ShloMosaic Idealize.ShloMosaic.TcCoe Idealize.SL.Sem
open Cert.KernelIdeal Cert.KernelIdeal.Gen

variable (m : (ℓ : Loc nD τ sig) → Buf (Elt Ideal) ℓ) (ρ : Dev nD → PrngReg)

/-- A `[16384, 512]` array read as `[1, 16384, 512]`, as the program's last two operations do. -/
abbrev up (a : S16384x512.Idx → Ideal .f32) : S1x16384x512.Idx → Ideal .f32 :=
  broadcastInDim S1x16384x512 ![1, 2] bcast_S16384x512_S1x16384x512_1_2 a

/-- The first host result: the operations after the region leave it at output array 18 read as `[1, 16384, 512]`. -/
theorem tail_v17 (c : Dev nD) :
    Pipeline.afterTail₀ cfgs (dats m) 0 (V0 m) [hostOps1] c main_v17 = up ((dats m 0 c).arrAt 18 cfg0.N) := by
  unfold Pipeline.afterTail₀
  show StableHlo.after hostOps1 _ (Proc.devRef .tc main_v17) = _
  after_results
  exact congrArg up (Pipeline.withArrays_arr spec0 launch0.win.arr_inj c _ _ 18)

/-- The second host result: output array 19 read as `[1, 16384, 512]`. -/
theorem tail_v18 (c : Dev nD) :
    Pipeline.afterTail₀ cfgs (dats m) 0 (V0 m) [hostOps1] c main_v18 = up ((dats m 0 c).arrAt 19 cfg0.N) := by
  unfold Pipeline.afterTail₀
  show StableHlo.after hostOps1 _ (Proc.devRef .tc main_v18) = _
  after_results
  exact congrArg up (Pipeline.withArrays_arr spec0 launch0.win.arr_inj c _ _ 19)

/-- The program's run with every result buffer and every argument named. -/
theorem run_named : θ_run defs (onTc (τ := τ) (main (F := Ideal))) ⟨m, fun _ => 0, ρ⟩ (fun r => ∀ c : Dev nD,
      r.2.mem ((c.tc : Thread nD τ).loc main_v17) = up ((dats m 0 c).arrAt 18 cfg0.N)
      ∧ r.2.mem ((c.tc : Thread nD τ).loc main_v18) = up ((dats m 0 c).arrAt 19 cfg0.N)
      ∧ r.2.mem ((c.tc : Thread nD τ).loc main_v16_2) = (dats m 0 c).arrAt 20 cfg0.N
      ∧ r.2.mem ((c.tc : Thread nD τ).loc main_v16_3) = (dats m 0 c).arrAt 21 cfg0.N
      ∧ r.2.mem ((c.tc : Thread nD τ).loc main_v16_4) = (dats m 0 c).arrAt 22 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)) :=
  (θ_run defs _ _).mono (fun r h c => ⟨((h c).2 main_v17 (Pipeline.mem_restRefs_of main_v17 (by decide) (by decide))).trans (tail_v17 m c),
      ((h c).2 main_v18 (Pipeline.mem_restRefs_of main_v18 (by decide) (by decide))).trans (tail_v18 m c),
      (h c).1 20,
      (h c).1 21,
      (h c).1 22,
      ((h c).1 0).trans (((dats m 0 c).arrAt_in 0 rfl _).trans ((A_eq m c 0).trans (V_main_arg0 m c))),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).1 3).trans (((dats m 0 c).arrAt_in 3 rfl _).trans ((A_eq m c 3).trans (V_main_arg3 m c))),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c),
      ((h c).2 main_arg6 (Pipeline.mem_restRefs_of main_arg6 (by decide) (by decide))).trans (W_main_arg6 m (dats m) c),
      ((h c).2 main_arg7 (Pipeline.mem_restRefs_of main_arg7 (by decide) (by decide))).trans (W_main_arg7 m (dats m) c),
      ((h c).2 main_arg8 (Pipeline.mem_restRefs_of main_arg8 (by decide) (by decide))).trans (W_main_arg8 m (dats m) c),
      ((h c).2 main_arg9 (Pipeline.mem_restRefs_of main_arg9 (by decide) (by decide))).trans (W_main_arg9 m (dats m) c),
      ((h c).2 main_arg10 (Pipeline.mem_restRefs_of main_arg10 (by decide) (by decide))).trans (W_main_arg10 m (dats m) c),
      ((h c).2 main_arg11 (Pipeline.mem_restRefs_of main_arg11 (by decide) (by decide))).trans (W_main_arg11 m (dats m) c),
      ((h c).2 main_arg12 (Pipeline.mem_restRefs_of main_arg12 (by decide) (by decide))).trans (W_main_arg12 m (dats m) c),
      ((h c).2 main_arg13 (Pipeline.mem_restRefs_of main_arg13 (by decide) (by decide))).trans (W_main_arg13 m (dats m) c),
      ((h c).2 main_arg14 (Pipeline.mem_restRefs_of main_arg14 (by decide) (by decide))).trans (W_main_arg14 m (dats m) c),
      ((h c).2 main_arg15 (Pipeline.mem_restRefs_of main_arg15 (by decide) (by decide))).trans (W_main_arg15 m (dats m) c),
      ((h c).2 main_arg16 (Pipeline.mem_restRefs_of main_arg16 (by decide) (by decide))).trans (W_main_arg16 m (dats m) c),
      ((h c).2 main_arg17 (Pipeline.mem_restRefs_of main_arg17 (by decide) (by decide))).trans (W_main_arg17 m (dats m) c)⟩) (run_main m ρ)

end Cert.KernelIdeal.RunRead

end
-- ==== Proof.Arrays.lean ====
import proofs.«171496_j80513456930853_1_alg».proof.Proof.Blocks
import proofs.«171496_j80513456930853_1_alg».proof.Proof.BodyA
import proofs.«171496_j80513456930853_1_alg».proof.Proof.BodyB
import proofs.«171496_j80513456930853_1_alg».proof.Proof.BodyC
import proofs.«171496_j80513456930853_1_alg».proof.Proof.Cover
import proofs.«171496_j80513456930853_1_alg».proof.Proof.RunRead
import proofs.«171496_j80513456930853_1_alg».proof.Proof.Gen.KernelIdeal.Points
import Idealize.ShloMosaic.Lib.Pipeline.Value

set_option maxRecDepth 16384

noncomputable section

/-! # The kernel's five arrays after the run

At grid point `t` the body stores, into each output window, its arithmetic applied to the input windows' blocks: rows
`512·t …` of `x`, `h`, `c`, `cum` and the whole weights. By the row-by-row lemmas that is rows `512·t …` of ONE
whole-array function of the arguments, so the point writes back that block of it; the 32 blocks cover the array; so
after the run the array is that function. The program then reads the first two as `[1, 16384, 512]`. -/

namespace Cert.KernelIdeal.Arrays

open Idealize.ShloMosaic Idealize.ShloMosaic.TcCoe Idealize.SL.Sem Idealize.ShloMosaic.Layout
open Idealize.ShloMosaic.Pipeline (Dat)
open Cert.KernelIdeal Cert.KernelIdeal.Gen Cert.Cell Cert.KernelIdeal.Blocks

variable (m : (ℓ : Loc nD τ sig) → Buf (Elt Ideal) ℓ) (ρ : Dev nD → PrngReg)

/-- The offsets of every load and store of the body: both zero. -/
theorem hz : (![0, 0] : Fin 2 → Nat) = fun _ => 0 := funext fun a => by fin_cases a <;> rfl

/-! ## The five results as functions of the arguments as launched -/

/-- The gated hidden state, `[16384, 512]`. -/
abbrev resH (c : Dev nD) : A2 S16384x512 :=
  newH2 (arg0 m c) (arg1 m c) (arg2 m c) (arg3 m c) (arg4 m c) (arg5 m c) (arg6 m c) (arg7 m c) (arg8 m c) (arg9 m c)
    (arg10 m c) (arg11 m c) (arg12 m c) (arg13 m c) (arg14 m c) (arg15 m c) (arg16 m c) (arg17 m c)

/-- The gated cell state, `[16384, 512]`. -/
abbrev resC (c : Dev nD) : A2 S16384x512 :=
  newC2 (arg0 m c) (arg1 m c) (arg2 m c) (arg3 m c) (arg4 m c) (arg5 m c) (arg6 m c) (arg7 m c) (arg8 m c) (arg9 m c)
    (arg10 m c) (arg11 m c) (arg12 m c) (arg13 m c) (arg14 m c) (arg15 m c) (arg16 m c) (arg17 m c)

/-- The probability carried on, `(1 − u)·p`. -/
abbrev resU (c : Dev nD) : A2 S16384x1 :=
  newCum (arg0 m c) (arg1 m c) (arg2 m c) (arg3 m c) (arg4 m c) (arg5 m c) (arg6 m c) (arg7 m c) (arg8 m c) (arg9 m c)
    (arg10 m c) (arg11 m c) (arg12 m c) (arg13 m c) (arg14 m c) (arg15 m c) (arg16 m c) (arg17 m c)

/-- The skip gate's increment `δ`: it depends on neither `cum` nor the threshold's weights. -/
abbrev resD (c : Dev nD) : A2 S16384x1 :=
  stepD (arg0 m c) (arg1 m c) (arg2 m c) (arg4 m c) (arg5 m c) (arg6 m c) (arg7 m c) (arg8 m c) (arg9 m c) (arg10 m c)
    (arg11 m c) (arg12 m c) (arg13 m c)

/-- The running probability `p = cum + min δ (1 − cum)`. -/
abbrev resP (c : Dev nD) : A2 S16384x1 :=
  stepP (arg0 m c) (arg1 m c) (arg2 m c) (arg3 m c) (arg4 m c) (arg5 m c) (arg6 m c) (arg7 m c) (arg8 m c) (arg9 m c)
    (arg10 m c) (arg11 m c) (arg12 m c) (arg13 m c)

/-! ## What each grid point writes back

In each proof: the window's staging buffer after the body is its one store's payload; each input block is rows
`512·t …` of its array, or the whole weight array; then the payload is rewritten from the inside out. -/

/-- `δ` reads `x`, `h`, `c` and the first ten weight arrays: the plain step's cell state, then the skip gate. -/
theorem flushed21_eq (c : Dev nD) (t : Fin cfg0.N) :
    (dats m 0 c).flushed 21 t = ((cfg0.win 21).blk t).view.read (Elt Ideal) (resD m c) := by
  show (cfg0.win 21).cut (grid0.coords t) ((dats m 0 c).after 21 t) = _
  rw [after0_21]
  unfold out0_21
  rw [View.canon_unit_zero hz]
  simp only [View.ld_unit_zero (S := S512x512) hz, View.ld_unit_zero (S := S512x2048) hz, View.ld_unit_zero (S := S1x2048) hz,
    View.ld_unit_zero (S := S512x256) hz, View.ld_unit_zero (S := S1x256) hz, View.ld_unit_zero (S := S256x1) hz,
    View.ld_unit_zero (S := S1x1) hz]
  rw [in0 m c t, in1 m c t, in2 m c t, in4 m c t, in5 m c t, in6 m c t, in7 m c t, in8 m c t, in9 m c t, in10 m c t,
    in11 m c t, in12 m c t, in13 m c t]
  rw [Cert.BodyA.cell_rows, Cert.BodyB.delta_rows]
  exact (out21 t _).symm

/-- `p` adds `cum`'s block to the picture: `cum + min δ (1 − cum)` on the block. -/
theorem flushed22_eq (c : Dev nD) (t : Fin cfg0.N) :
    (dats m 0 c).flushed 22 t = ((cfg0.win 22).blk t).view.read (Elt Ideal) (resP m c) := by
  show (cfg0.win 22).cut (grid0.coords t) ((dats m 0 c).after 22 t) = _
  rw [after0_22]
  unfold out0_22
  rw [View.canon_unit_zero hz]
  simp only [View.ld_unit_zero (S := S512x512) hz, View.ld_unit_zero (S := S512x1) hz, View.ld_unit_zero (S := S512x2048) hz,
    View.ld_unit_zero (S := S1x2048) hz, View.ld_unit_zero (S := S512x256) hz, View.ld_unit_zero (S := S1x256) hz,
    View.ld_unit_zero (S := S256x1) hz, View.ld_unit_zero (S := S1x1) hz]
  rw [in3 m c t]
  rw [in0 m c t, in1 m c t, in2 m c t, in4 m c t, in5 m c t, in6 m c t, in7 m c t, in8 m c t, in9 m c t, in10 m c t,
    in11 m c t, in12 m c t, in13 m c t]
  rw [Cert.BodyA.cell_rows, Cert.BodyB.delta_rows, Cert.BodyB.prob_rows]
  exact (out22 t _).symm

/-- The carried probability also reads the threshold's four weight arrays, through the truth value `u`. -/
theorem flushed20_eq (c : Dev nD) (t : Fin cfg0.N) :
    (dats m 0 c).flushed 20 t = ((cfg0.win 20).blk t).view.read (Elt Ideal) (resU m c) := by
  show (cfg0.win 20).cut (grid0.coords t) ((dats m 0 c).after 20 t) = _
  rw [after0_20]
  unfold out0_20
  rw [View.canon_unit_zero hz]
  simp only [View.ld_unit_zero (S := S512x512) hz, View.ld_unit_zero (S := S512x1) hz, View.ld_unit_zero (S := S512x2048) hz,
    View.ld_unit_zero (S := S1x2048) hz, View.ld_unit_zero (S := S512x256) hz, View.ld_unit_zero (S := S1x256) hz,
    View.ld_unit_zero (S := S256x1) hz, View.ld_unit_zero (S := S1x1) hz]
  rw [in3 m c t, in14 m c t, in15 m c t, in16 m c t, in17 m c t]
  rw [in0 m c t, in1 m c t, in2 m c t, in4 m c t, in5 m c t, in6 m c t, in7 m c t, in8 m c t, in9 m c t, in10 m c t,
    in11 m c t, in12 m c t, in13 m c t]
  rw [Cert.BodyA.cell_rows, Cert.BodyB.delta_rows, Cert.BodyC.newCum_rows]
  exact (out20 t _).symm

/-- The gated cell state: `u·c₁ + (1 − u)·c` on the block; the plain step's cell state enters twice, once as the
    value gated and once inside `δ`. -/
theorem flushed19_eq (c : Dev nD) (t : Fin cfg0.N) :
    (dats m 0 c).flushed 19 t = ((cfg0.win 19).blk t).view.read (Elt Ideal) (resC m c) := by
  show (cfg0.win 19).cut (grid0.coords t) ((dats m 0 c).after 19 t) = _
  rw [after0_19]
  unfold out0_19
  rw [View.canon_unit_zero hz]
  simp only [View.ld_unit_zero (S := S512x512) hz, View.ld_unit_zero (S := S512x1) hz, View.ld_unit_zero (S := S512x2048) hz,
    View.ld_unit_zero (S := S1x2048) hz, View.ld_unit_zero (S := S512x256) hz, View.ld_unit_zero (S := S1x256) hz,
    View.ld_unit_zero (S := S256x1) hz, View.ld_unit_zero (S := S1x1) hz]
  rw [in3 m c t, in14 m c t, in15 m c t, in16 m c t, in17 m c t]
  rw [in0 m c t, in1 m c t, in2 m c t, in4 m c t, in5 m c t, in6 m c t, in7 m c t, in8 m c t, in9 m c t, in10 m c t,
    in11 m c t, in12 m c t, in13 m c t]
  rw [Cert.BodyA.cell_rows, Cert.BodyB.delta_rows, Cert.BodyC.newC_rows]
  exact (out19 t _).symm

/-- The gated hidden state: `u·h₁ + (1 − u)·h` on the block, with the plain step's hidden state `h₁`. -/
theorem flushed18_eq (c : Dev nD) (t : Fin cfg0.N) :
    (dats m 0 c).flushed 18 t = ((cfg0.win 18).blk t).view.read (Elt Ideal) (resH m c) := by
  show (cfg0.win 18).cut (grid0.coords t) ((dats m 0 c).after 18 t) = _
  rw [after0_18]
  unfold out0_18
  rw [View.canon_unit_zero hz]
  simp only [View.ld_unit_zero (S := S512x512) hz, View.ld_unit_zero (S := S512x1) hz, View.ld_unit_zero (S := S512x2048) hz,
    View.ld_unit_zero (S := S1x2048) hz, View.ld_unit_zero (S := S512x256) hz, View.ld_unit_zero (S := S1x256) hz,
    View.ld_unit_zero (S := S256x1) hz, View.ld_unit_zero (S := S1x1) hz]
  rw [in3 m c t, in14 m c t, in15 m c t, in16 m c t, in17 m c t]
  rw [in0 m c t, in1 m c t, in2 m c t, in4 m c t, in5 m c t, in6 m c t, in7 m c t, in8 m c t, in9 m c t, in10 m c t,
    in11 m c t, in12 m c t, in13 m c t]
  rw [Cert.BodyA.hidden_rows, Cert.BodyA.cell_rows, Cert.BodyB.delta_rows, Cert.BodyC.newH_rows]
  exact (out18 t _).symm

/-! ## The arrays after the run: the 32 blocks of rows cover each -/

theorem final18 (c : Dev nD) : (dats m 0 c).arrAt 18 cfg0.N = resH m c :=
  (dats m 0 c).arrAt_eq_of_cover 18 (resH m c) (fun t _ => flushed18_eq m c t) Cert.KernelIdeal.Cover.cover18

theorem final19 (c : Dev nD) : (dats m 0 c).arrAt 19 cfg0.N = resC m c :=
  (dats m 0 c).arrAt_eq_of_cover 19 (resC m c) (fun t _ => flushed19_eq m c t) Cert.KernelIdeal.Cover.cover19

theorem final20 (c : Dev nD) : (dats m 0 c).arrAt 20 cfg0.N = resU m c :=
  (dats m 0 c).arrAt_eq_of_cover 20 (resU m c) (fun t _ => flushed20_eq m c t) Cert.KernelIdeal.Cover.cover20

theorem final21 (c : Dev nD) : (dats m 0 c).arrAt 21 cfg0.N = resD m c :=
  (dats m 0 c).arrAt_eq_of_cover 21 (resD m c) (fun t _ => flushed21_eq m c t) Cert.KernelIdeal.Cover.cover21

theorem final22 (c : Dev nD) : (dats m 0 c).arrAt 22 cfg0.N = resP m c :=
  (dats m 0 c).arrAt_eq_of_cover 22 (resP m c) (fun t _ => flushed22_eq m c t) Cert.KernelIdeal.Cover.cover22

/-! ## The run -/

/-- Every weakly fair execution of the kernel program ends with its five results at these functions of the
    arguments, the first two read as `[1, 16384, 512]`, and the arguments unchanged. -/
theorem kernel_run : θ_run defs (onTc (τ := τ) (main (F := Ideal))) ⟨m, fun _ => 0, ρ⟩ (fun r => ∀ c : Dev nD,
      r.2.mem ((c.tc : Thread nD τ).loc main_v17) = lift (resH m c)
      ∧ r.2.mem ((c.tc : Thread nD τ).loc main_v18) = lift (resC m c)
      ∧ r.2.mem ((c.tc : Thread nD τ).loc main_v16_2) = resU m c
      ∧ r.2.mem ((c.tc : Thread nD τ).loc main_v16_3) = resD m c
      ∧ r.2.mem ((c.tc : Thread nD τ).loc main_v16_4) = resP m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)) :=
  (θ_run defs _ _).mono (fun r h c => by
    obtain ⟨h0, h1, h2, h3, h4, hk⟩ := h c
    refine ⟨?_, ?_, h2.trans (final20 m c), h3.trans (final21 m c), h4.trans (final22 m c), hk⟩
    · rw [h0, final18]; rfl
    · rw [h1, final19]; rfl)
    (Cert.KernelIdeal.RunRead.run_named m ρ)

end Cert.KernelIdeal.Arrays

end
-- ==== Proof.RefStages.lean ====
import proofs.«171496_j80513456930853_1_alg».proof.Proof.Gen.ReferenceIdeal.Read
import proofs.«171496_j80513456930853_1_alg».proof.Proof.Spec

noncomputable section

/-! # The reference, stage by stage, is the cell

Each stage of the reference program, as a function of the arguments it depends on, is the whole-array function of the
same name: the reference applies exactly these host operations in exactly this order. The new cell state reaches the
skip gate read as `[1, B, 512]` and back. -/

namespace Cert.RefStages

open Idealize.ShloMosaic Cert.ReferenceIdeal Cert.ReferenceIdeal.Gen Cert.ReferenceIdeal.Read Cert.Cell

variable (x0 : (⟨S16384x512, .f32⟩ : BufTy).Contents (Elt Ideal)) (x1 x2 : (⟨S1x16384x512, .f32⟩ : BufTy).Contents (Elt Ideal)) (x3 : (⟨S16384x1, .f32⟩ : BufTy).Contents (Elt Ideal))
  (x4 x5 : (⟨S2048x512, .f32⟩ : BufTy).Contents (Elt Ideal)) (x6 x7 : (⟨S2048, .f32⟩ : BufTy).Contents (Elt Ideal))
  (x8 : (⟨S256x512, .f32⟩ : BufTy).Contents (Elt Ideal)) (x9 : (⟨S256, .f32⟩ : BufTy).Contents (Elt Ideal)) (x10 : (⟨S256x512, .f32⟩ : BufTy).Contents (Elt Ideal)) (x11 : (⟨S256, .f32⟩ : BufTy).Contents (Elt Ideal)) (x12 : (⟨S1x256, .f32⟩ : BufTy).Contents (Elt Ideal)) (x13 : (⟨S1, .f32⟩ : BufTy).Contents (Elt Ideal))
  (x14 : (⟨S256x512, .f32⟩ : BufTy).Contents (Elt Ideal)) (x15 : (⟨S256, .f32⟩ : BufTy).Contents (Elt Ideal)) (x16 : (⟨S1x256, .f32⟩ : BufTy).Contents (Elt Ideal)) (x17 : (⟨S1, .f32⟩ : BufTy).Contents (Elt Ideal))

/-! ## The shared stages -/

/-- The four gate pre-activations side by side. -/
theorem gates_eq : val_main_v11 (F := Ideal) x0 x1 x4 x5 x6 x7 = gates x0 x1 x4 x5 x6 x7 := by
  unfold val_main_v11 val_main_v8 val_main_v4
  rfl

/-- The input gate: `σ` of columns `0 … 511`. -/
theorem gateI_eq : val_main_v21 (F := Ideal) x0 x1 x4 x5 x6 x7 = gateI (gates x0 x1 x4 x5 x6 x7) := by
  unfold val_main_v21 val_main_v19 val_main_v17 val_main_v16 val_main_v12
  rw [gates_eq]
  rfl

/-- The forget gate: `σ` of columns `512 … 1023`. -/
theorem gateF_eq : val_main_v27 (F := Ideal) x0 x1 x4 x5 x6 x7 = gateF (gates x0 x1 x4 x5 x6 x7) := by
  unfold val_main_v27 val_main_v25 val_main_v23 val_main_v22 val_main_v13
  rw [gates_eq]
  rfl

/-- The candidate: `tanh` of columns `1024 … 1535`. -/
theorem gateG_eq : val_main_v28 (F := Ideal) x0 x1 x4 x5 x6 x7 = gateG (gates x0 x1 x4 x5 x6 x7) := by
  unfold val_main_v28 val_main_v14
  rw [gates_eq]
  rfl

/-- The output gate: `σ` of columns `1536 … 2047`. -/
theorem gateO_eq : val_main_v34 (F := Ideal) x0 x1 x4 x5 x6 x7 = gateO (gates x0 x1 x4 x5 x6 x7) := by
  unfold val_main_v34 val_main_v32 val_main_v30 val_main_v29 val_main_v15
  rw [gates_eq]
  rfl

/-- The plain step's new cell state. -/
theorem cell_eq : val_main_v38 (F := Ideal) x0 x1 x2 x4 x5 x6 x7 = stepC x0 x1 x2 x4 x5 x6 x7 := by
  unfold val_main_v38 val_main_v36 val_main_v37
  rw [gateF_eq, gateI_eq, gateG_eq]
  rfl

/-- Its new hidden state. -/
theorem hidden_eq : val_main_v40 (F := Ideal) x0 x1 x2 x4 x5 x6 x7 = stepH x0 x1 x2 x4 x5 x6 x7 := by
  unfold val_main_v40 val_main_v39
  rw [gateO_eq, cell_eq]
  rfl

/-- The skip gate's first layer before the rectifier: the old cell state and the new one, the latter read as
    `[1, B, 512]` and back. -/
theorem preS_eq : val_main_v55 (F := Ideal) x0 x1 x2 x4 x5 x6 x7 x8 x9 x10 x11
    = addf (addf (addf (Host.dotGeneral dot_S16384x512_S512x256_S16384x256_1_0_0_1_n_n none (flat x2) (tr256 x8)) (rows256 x9))
        (Host.dotGeneral dot_S16384x512_S512x256_S16384x256_1_0_0_1_n_n none (flat (lift (stepC x0 x1 x2 x4 x5 x6 x7))) (tr256 x10)))
        (rows256 x11) := by
  unfold val_main_v55 val_main_v52 val_main_v51 val_main_v49 val_main_v42
  rw [cell_eq]
  rfl

/-- The same after the leaky rectifier. -/
theorem leakyS_eq : val_main_v60 (F := Ideal) x0 x1 x2 x4 x5 x6 x7 x8 x9 x10 x11
    = leaky (addf (addf (addf (Host.dotGeneral dot_S16384x512_S512x256_S16384x256_1_0_0_1_n_n none (flat x2) (tr256 x8)) (rows256 x9))
        (Host.dotGeneral dot_S16384x512_S512x256_S16384x256_1_0_0_1_n_n none (flat (lift (stepC x0 x1 x2 x4 x5 x6 x7))) (tr256 x10)))
        (rows256 x11)) := by
  unfold val_main_v60 val_main_v59 val_main_v57
  rw [preS_eq]
  rfl

/-- `δ`: the new cell state enters read as `[1, B, 512]` and back. -/
theorem delta_eq : val_main_v71 (F := Ideal) x0 x1 x2 x4 x5 x6 x7 x8 x9 x10 x11 x12 x13
    = delta x2 (flat (lift (stepC x0 x1 x2 x4 x5 x6 x7))) x8 x9 x10 x11 x12 x13 := by
  unfold val_main_v71 val_main_v69 val_main_v67 val_main_v66 val_main_v65 val_main_v62
  rw [leakyS_eq]
  rfl

/-- The threshold's first layer before the rectifier. -/
theorem preT_eq : val_main_v77 (F := Ideal) x2 x14 x15
    = addf (Host.dotGeneral dot_S16384x512_S512x256_S16384x256_1_0_0_1_n_n none (flat x2) (tr256 x14)) (rows256 x15) := by
  unfold val_main_v77 val_main_v74
  rfl

/-- The same after the leaky rectifier. -/
theorem leakyT_eq : val_main_v82 (F := Ideal) x2 x14 x15
    = leaky (addf (Host.dotGeneral dot_S16384x512_S512x256_S16384x256_1_0_0_1_n_n none (flat x2) (tr256 x14)) (rows256 x15)) := by
  unfold val_main_v82 val_main_v81 val_main_v79
  rw [preT_eq]
  rfl

/-- `θ`. -/
theorem thresh_eq : val_main_v93 (F := Ideal) x2 x14 x15 x16 x17 = thresh x2 x14 x15 x16 x17 := by
  unfold val_main_v93 val_main_v91 val_main_v89 val_main_v88 val_main_v87 val_main_v84
  rw [leakyT_eq]
  rfl

/-- `p`, over the reference's own `δ`. -/
theorem prob_eq : val_main_v97 (F := Ideal) x0 x1 x2 x3 x4 x5 x6 x7 x8 x9 x10 x11 x12 x13
    = prob x3 (val_main_v71 (F := Ideal) x0 x1 x2 x4 x5 x6 x7 x8 x9 x10 x11 x12 x13) := by
  unfold val_main_v97 val_main_v96 val_main_v95
  rfl

/-- `u = [p > θ]`. -/
theorem hard_eq : val_main_v99 (F := Ideal) x0 x1 x2 x3 x4 x5 x6 x7 x8 x9 x10 x11 x12 x13 x14 x15 x16 x17
    = hard (val_main_v97 (F := Ideal) x0 x1 x2 x3 x4 x5 x6 x7 x8 x9 x10 x11 x12 x13) (val_main_v93 (F := Ideal) x2 x14 x15 x16 x17) := by
  unfold val_main_v99 val_main_v98
  rfl

/-- The gate passed on, `p + (u − p)`. -/
theorem through_eq : val_main_v101 (F := Ideal) x0 x1 x2 x3 x4 x5 x6 x7 x8 x9 x10 x11 x12 x13 x14 x15 x16 x17
    = through (val_main_v97 (F := Ideal) x0 x1 x2 x3 x4 x5 x6 x7 x8 x9 x10 x11 x12 x13)
        (val_main_v99 (F := Ideal) x0 x1 x2 x3 x4 x5 x6 x7 x8 x9 x10 x11 x12 x13 x14 x15 x16 x17) := by
  unfold val_main_v101 val_main_v100
  rfl

/-- The first result: the gated hidden state. -/
theorem newH_eq : val_main_v110 (F := Ideal) x0 x1 x2 x3 x4 x5 x6 x7 x8 x9 x10 x11 x12 x13 x14 x15 x16 x17
    = mix3 (val_main_v101 (F := Ideal) x0 x1 x2 x3 x4 x5 x6 x7 x8 x9 x10 x11 x12 x13 x14 x15 x16 x17)
        (val_main_v40 (F := Ideal) x0 x1 x2 x4 x5 x6 x7) x1 := by
  unfold val_main_v110 val_main_v104 val_main_v103 val_main_v102 val_main_v41 val_main_v109 val_main_v108 val_main_v107 val_main_v106
  rfl

/-- The second: the gated cell state. -/
theorem newC_eq : val_main_v119 (F := Ideal) x0 x1 x2 x3 x4 x5 x6 x7 x8 x9 x10 x11 x12 x13 x14 x15 x16 x17
    = mix3 (val_main_v101 (F := Ideal) x0 x1 x2 x3 x4 x5 x6 x7 x8 x9 x10 x11 x12 x13 x14 x15 x16 x17)
        (val_main_v38 (F := Ideal) x0 x1 x2 x4 x5 x6 x7) x2 := by
  unfold val_main_v119 val_main_v113 val_main_v112 val_main_v111 val_main_v42 val_main_v118 val_main_v117 val_main_v116 val_main_v115
  rfl

/-- The third: the probability carried on. -/
theorem newCum_eq : val_main_v122 (F := Ideal) x0 x1 x2 x3 x4 x5 x6 x7 x8 x9 x10 x11 x12 x13 x14 x15 x16 x17
    = carry (val_main_v101 (F := Ideal) x0 x1 x2 x3 x4 x5 x6 x7 x8 x9 x10 x11 x12 x13 x14 x15 x16 x17)
        (val_main_v97 (F := Ideal) x0 x1 x2 x3 x4 x5 x6 x7 x8 x9 x10 x11 x12 x13) := by
  unfold val_main_v122 val_main_v121
  rfl

end Cert.RefStages

end
-- ==== Proof.Finite.lean ====
import Idealize.ShloMosaic.PureOps.Ideal.Laws
import Mathlib.Data.EReal.Operations

noncomputable section

/-! # Where the inputs' finiteness is used

On the extended reals `p + (h − p) = h` fails when `p` is infinite (`⊤ + (h − ⊤) = ⊥`). It holds when `p` and `h` are
real numbers. Here `p` is a running probability `c + min (σ z) (1 − c)`: the logistic function `σ` takes every
extended real, the infinities included, to a real number in `[0, 1]`, so `p` is real as soon as `c` is; and `h` is
`0` or `1`. -/

namespace Cert.Finite

open Idealize.ShloMosaic

/-- An extended real that is a real number. -/
def IsReal (x : EReal) : Prop := ∃ r : ℝ, x = (r : EReal)

theorem isReal_coe (r : ℝ) : IsReal (r : EReal) := ⟨r, rfl⟩

theorem IsReal.add {x y : EReal} (hx : IsReal x) (hy : IsReal y) : IsReal (x + y) := by
  obtain ⟨a, rfl⟩ := hx; obtain ⟨b, rfl⟩ := hy; exact ⟨a + b, (EReal.coe_add a b).symm⟩

theorem IsReal.sub {x y : EReal} (hx : IsReal x) (hy : IsReal y) : IsReal (x - y) := by
  obtain ⟨a, rfl⟩ := hx; obtain ⟨b, rfl⟩ := hy; exact ⟨a - b, (EReal.coe_sub a b).symm⟩

theorem IsReal.min {x y : EReal} (hx : IsReal x) (hy : IsReal y) : IsReal (min x y) := by
  rcases le_total x y with h | h
  · rw [min_eq_left h]; exact hx
  · rw [min_eq_right h]; exact hy

/-- The logistic function of any extended real is a real number: `0` at `−∞`, `1` at `+∞`. -/
theorem isReal_logistic (x : EReal) : IsReal (Ideal.logistic x) := by
  induction x using EReal.rec with
  | bot => exact ⟨0, by rw [Ideal.logistic_bot]; rfl⟩
  | coe r => exact ⟨_, Ideal.logistic_coe r⟩
  | top => exact ⟨1, by rw [Ideal.logistic_top]; rfl⟩

/-- The running probability `c + min (σ z) (1 − c)` is real when `c` is. -/
theorem isReal_prob {c z : EReal} (hc : IsReal c) : IsReal (c + min (Ideal.logistic z) (1 - c)) :=
  hc.add ((isReal_logistic z).min ((isReal_coe 1).sub hc))

/-- For real numbers, adding `p` back to `h − p` gives `h`. -/
theorem add_sub_cancel_of_isReal {p h : EReal} (hp : IsReal p) (hh : IsReal h) : p + (h - p) = h := by
  obtain ⟨a, rfl⟩ := hp; obtain ⟨b, rfl⟩ := hh
  rw [← EReal.coe_sub, ← EReal.coe_add]
  congr 1
  ring

end Cert.Finite

end
-- ==== Proof.Join.lean ====
import proofs.«171496_j80513456930853_1_alg».proof.Proof.Spec
import proofs.«171496_j80513456930853_1_alg».proof.Proof.Finite
import Idealize.ShloMosaic.Lib.ValueIdx
import Idealize.ShloMosaic.Lib.Pipeline.Value
import Idealize.ShloMosaic.Lib.ValueLayout
import Idealize.ShloMosaic.PureOps.Ideal.Laws

noncomputable section

/-! # Where the two programs' spellings meet

Three facts about the whole-array functions. Reading a `[B, 512]` array as `[1, B, 512]` and back changes nothing.
The gate the reference passes on, `p + (u − p)`, is `u` when `p` is real: it is, because `p = cum + min δ (1 − cum)` with
`cum` real and `δ` a value of the logistic function, which is real at every extended real. And the reference's gated
sum over `[1, B, 512]`, with the gate column laid across after the subtraction `1 − g`, is the `[B, 512]` gated sum,
with the column laid across before it, read as `[1, B, 512]`: entry `(0, r, q)` of either is
`u r · new (r, q) + (1 − u r) · old (0, r, q)`. -/

namespace Cert.Cell

open Idealize.ShloMosaic Idealize.ShloMosaic.ValueIdx Cert.ReferenceIdeal Cert.ReferenceIdeal.Gen Cert.Finite

/-! ## The layout operations read at an index -/

/-- A `[1, B, 512]` array read as `[B, 512]`: entry `(r, q)` is entry `(0, r, q)`. -/
theorem flat_apply (a : A2 S1x16384x512) (r : Fin 16384) (q : Fin 512) :
    flat a (ix2 r q) = a (ix3 (0 : Fin 1) r q) :=
  shapeCast_1ab_ab_apply a shapeCasts_S1x16384x512_S16384x512 r q

/-- A `[B, 512]` array read as `[1, B, 512]`: entry `(0, r, q)` is entry `(r, q)`. -/
theorem lift_apply (a : A2 S16384x512) (u0 : Fin 1) (r : Fin 16384) (q : Fin 512) :
    lift a (ix3 u0 r q) = a (ix2 r q) := by
  unfold lift
  refine broadcastInDim_apply ![1, 2] bcast_S16384x512_S1x16384x512_1_2 a (ix3 u0 r q) (ix2 r q) fun b => ?_
  match b with
  | ⟨0, _⟩ => rfl
  | ⟨1, _⟩ => rfl

/-- A column laid across `[1, B, 512]`: entry `(0, r, q)` is the column's entry in row `r`. -/
theorem col3_apply (g : A2 S16384x1) (u0 : Fin 1) (r : Fin 16384) (q : Fin 512) :
    col3 g (ix3 u0 r q) = g (ix2 r (0 : Fin 1)) := by
  unfold col3
  refine (broadcastInDim_apply ![0, 1, 2] bcast_S1x16384x1_S1x16384x512_0_1_2 _ (ix3 u0 r q)
    (ix3 (0 : Fin 1) r (0 : Fin 1)) fun b => ?_).trans ?_
  · match b with
    | ⟨0, _⟩ => rfl
    | ⟨1, _⟩ => rfl
    | ⟨2, _⟩ => rfl
  · refine broadcastInDim_apply ![1, 2] bcast_S16384x1_S1x16384x1_1_2 g (ix3 (0 : Fin 1) r (0 : Fin 1))
      (ix2 r (0 : Fin 1)) fun b => ?_
    match b with
    | ⟨0, _⟩ => rfl
    | ⟨1, _⟩ => rfl

/-- A column laid across `[B, 512]`: entry `(r, q)` is the column's entry in row `r`. -/
theorem colB_apply (g : A2 S16384x1) (r : Fin 16384) (q : Fin 512) :
    colB g (ix2 r q) = g (ix2 r (0 : Fin 1)) := by
  unfold colB
  refine broadcastInDim_apply ![0, 1] _ g (ix2 r q) (ix2 r (0 : Fin 1)) fun b => ?_
  match b with
  | ⟨0, _⟩ => rfl
  | ⟨1, _⟩ => rfl

/-- The unit word is the real number one. -/
theorem ofBits_unit : Ideal.ofBits .f32 0x3F800000#32 = 1 := by
  simp [Ideal.ofBits, Ideal.ieee, -EReal.coe_mul]; norm_num

/-! ## The three facts -/

/-- Read as `[1, B, 512]` and back. -/
theorem flat_lift (a : A2 S16384x512) : flat (lift a) = a := by
  funext y
  obtain ⟨r, q, rfl⟩ : ∃ (r : Fin 16384) (q : Fin 512), y = ix2 r q := ⟨y 0, y 1, eq_ix2 y⟩
  rw [flat_apply, lift_apply]

/-- The logistic function's values are real numbers. -/
theorem isReal_sig1 (z : A2 S16384x1) (i : S16384x1.Idx) : IsReal (sig1 z i) := by
  have e : sig1 z i = Ideal.logistic (z i) := by
    show FloatOps.hostDivf (Ideal.ofBits .f32 0x3F800000#32)
        (FloatOps.addf (Ideal.ofBits .f32 0x3F800000#32) (FloatOps.hostUnary .exp (FloatOps.hostNegf (z i))))
      = Ideal.logistic (z i)
    rw [ofBits_unit]
    rfl
  rw [e]
  exact isReal_logistic (z i)

/-- The running probability is real when `cum` and `δ` are. -/
theorem isReal_prob_at (cum d : A2 S16384x1) (hc : ∀ i, IsReal (cum i)) (hd : ∀ i, IsReal (d i)) (i : S16384x1.Idx) :
    IsReal (prob cum d i) := by
  show IsReal (cum i + min (d i) (Ideal.ofBits .f32 0x3F800000#32 - cum i))
  rw [ofBits_unit]
  exact (hc i).add ((hd i).min ((isReal_coe 1).sub (hc i)))

/-- `p + (u − p) = u` for the truth value `u = [p > θ]`, when `p` is real. -/
theorem through_eq (cum d th : A2 S16384x1) (hc : ∀ i, IsReal (cum i)) (hd : ∀ i, IsReal (d i)) :
    through (prob cum d) (hard (prob cum d) th) = hard (prob cum d) th := by
  funext i
  have hu : IsReal (hard (prob cum d) th i) :=
    isReal_coe (((cmpf .ogt (prob cum d) th i).toNat : ℕ) : ℝ)
  exact add_sub_cancel_of_isReal (isReal_prob_at cum d hc hd i) hu

/-- The gated sum over `[1, B, 512]` is the `[B, 512]` one read as `[1, B, 512]`. -/
theorem mix3_eq (u : A2 S16384x1) (new : A2 S16384x512) (old : A2 S1x16384x512) :
    mix3 u new old = lift (mix2 u new (flat old)) := by
  funext y
  obtain ⟨u0, r, q, rfl⟩ : ∃ (u0 : Fin 1) (r : Fin 16384) (q : Fin 512), y = ix3 u0 r q := ⟨y 0, y 1, y 2, eq_ix3 y⟩
  have hu0 : u0 = 0 := Subsingleton.elim u0 0
  subst hu0
  rw [lift_apply]
  show col3 u (ix3 0 r q) * lift new (ix3 0 r q) + col3 (subf (splat1 0x3F800000#32) u) (ix3 0 r q) * old (ix3 0 r q)
    = colB u (ix2 r q) * new (ix2 r q) + (splat512 0x3F800000#32 (ix2 r q) - colB u (ix2 r q)) * flat old (ix2 r q)
  rw [col3_apply, col3_apply, lift_apply, colB_apply, flat_apply]
  rfl

end Cert.Cell

end
-- ==== Proof.Meet.lean ====
import proofs.«171496_j80513456930853_1_alg».proof.Proof.RefStages
import proofs.«171496_j80513456930853_1_alg».proof.Proof.Join

noncomputable section

/-! # The reference's five results are the kernel's

The reference's stages are the cell's whole-array functions, with two differences of spelling: the new cell state
reaches the skip gate read as `[1, B, 512]` and back, which changes nothing; and the gate it passes on is
`p + (u − p)`, which is `u` because `p` is a real number when `cum` is. With the gate equal to `u`, its gated sums over
`[1, B, 512]` are the kernel's `[B, 512]` gated sums read as `[1, B, 512]`. -/

namespace Cert.Meet

open Idealize.ShloMosaic Cert.ReferenceIdeal Cert.ReferenceIdeal.Gen Cert.ReferenceIdeal.Read Cert.Cell Cert.Finite

variable (x0 : (⟨S16384x512, .f32⟩ : BufTy).Contents (Elt Ideal)) (x1 x2 : (⟨S1x16384x512, .f32⟩ : BufTy).Contents (Elt Ideal))
  (x3 : (⟨S16384x1, .f32⟩ : BufTy).Contents (Elt Ideal))
  (x4 x5 : (⟨S2048x512, .f32⟩ : BufTy).Contents (Elt Ideal)) (x6 x7 : (⟨S2048, .f32⟩ : BufTy).Contents (Elt Ideal))
  (x8 : (⟨S256x512, .f32⟩ : BufTy).Contents (Elt Ideal)) (x9 : (⟨S256, .f32⟩ : BufTy).Contents (Elt Ideal))
  (x10 : (⟨S256x512, .f32⟩ : BufTy).Contents (Elt Ideal)) (x11 : (⟨S256, .f32⟩ : BufTy).Contents (Elt Ideal))
  (x12 : (⟨S1x256, .f32⟩ : BufTy).Contents (Elt Ideal)) (x13 : (⟨S1, .f32⟩ : BufTy).Contents (Elt Ideal))
  (x14 : (⟨S256x512, .f32⟩ : BufTy).Contents (Elt Ideal)) (x15 : (⟨S256, .f32⟩ : BufTy).Contents (Elt Ideal))
  (x16 : (⟨S1x256, .f32⟩ : BufTy).Contents (Elt Ideal)) (x17 : (⟨S1, .f32⟩ : BufTy).Contents (Elt Ideal))

/-- `δ`: the round trip through `[1, B, 512]` drops out. -/
theorem delta_meet : val_main_v71 (F := Ideal) x0 x1 x2 x4 x5 x6 x7 x8 x9 x10 x11 x12 x13
    = stepD x0 x1 x2 x4 x5 x6 x7 x8 x9 x10 x11 x12 x13 := by
  rw [Cert.RefStages.delta_eq, flat_lift]
  rfl

/-- `p`. -/
theorem prob_meet : val_main_v97 (F := Ideal) x0 x1 x2 x3 x4 x5 x6 x7 x8 x9 x10 x11 x12 x13
    = stepP x0 x1 x2 x3 x4 x5 x6 x7 x8 x9 x10 x11 x12 x13 := by
  rw [Cert.RefStages.prob_eq, delta_meet]
  rfl

/-- `δ` is a value of the logistic function, so real. -/
theorem isReal_stepD (i : S16384x1.Idx) : IsReal (stepD x0 x1 x2 x4 x5 x6 x7 x8 x9 x10 x11 x12 x13 i) := by
  unfold stepD delta
  exact isReal_sig1 _ i

/-- The gate passed on is the truth value `u`, when `cum` is real. -/
theorem gate_meet (hcum : ∀ i, IsReal (x3 i)) :
    val_main_v101 (F := Ideal) x0 x1 x2 x3 x4 x5 x6 x7 x8 x9 x10 x11 x12 x13 x14 x15 x16 x17
      = stepU x0 x1 x2 x3 x4 x5 x6 x7 x8 x9 x10 x11 x12 x13 x14 x15 x16 x17 := by
  rw [Cert.RefStages.through_eq, Cert.RefStages.hard_eq, Cert.RefStages.thresh_eq, prob_meet]
  exact Cert.Cell.through_eq x3 (stepD x0 x1 x2 x4 x5 x6 x7 x8 x9 x10 x11 x12 x13) (thresh x2 x14 x15 x16 x17) hcum
    (isReal_stepD x0 x1 x2 x4 x5 x6 x7 x8 x9 x10 x11 x12 x13)

/-- The gated hidden state, read as `[1, B, 512]`. -/
theorem newH_meet (hcum : ∀ i, IsReal (x3 i)) :
    val_main_v110 (F := Ideal) x0 x1 x2 x3 x4 x5 x6 x7 x8 x9 x10 x11 x12 x13 x14 x15 x16 x17
      = lift (newH2 x0 x1 x2 x3 x4 x5 x6 x7 x8 x9 x10 x11 x12 x13 x14 x15 x16 x17) := by
  rw [Cert.RefStages.newH_eq, gate_meet x0 x1 x2 x3 x4 x5 x6 x7 x8 x9 x10 x11 x12 x13 x14 x15 x16 x17 hcum,
    Cert.RefStages.hidden_eq, mix3_eq]
  rfl

/-- The gated cell state, read as `[1, B, 512]`. -/
theorem newC_meet (hcum : ∀ i, IsReal (x3 i)) :
    val_main_v119 (F := Ideal) x0 x1 x2 x3 x4 x5 x6 x7 x8 x9 x10 x11 x12 x13 x14 x15 x16 x17
      = lift (newC2 x0 x1 x2 x3 x4 x5 x6 x7 x8 x9 x10 x11 x12 x13 x14 x15 x16 x17) := by
  rw [Cert.RefStages.newC_eq, gate_meet x0 x1 x2 x3 x4 x5 x6 x7 x8 x9 x10 x11 x12 x13 x14 x15 x16 x17 hcum,
    Cert.RefStages.cell_eq, mix3_eq]
  rfl

/-- The probability carried on. -/
theorem newCum_meet (hcum : ∀ i, IsReal (x3 i)) :
    val_main_v122 (F := Ideal) x0 x1 x2 x3 x4 x5 x6 x7 x8 x9 x10 x11 x12 x13 x14 x15 x16 x17
      = newCum x0 x1 x2 x3 x4 x5 x6 x7 x8 x9 x10 x11 x12 x13 x14 x15 x16 x17 := by
  rw [Cert.RefStages.newCum_eq, gate_meet x0 x1 x2 x3 x4 x5 x6 x7 x8 x9 x10 x11 x12 x13 x14 x15 x16 x17 hcum, prob_meet]
  rfl

end Cert.Meet

end
-- ==== Proof.PreCum.lean ====
import proofs.«171496_j80513456930853_1_alg».proof.Defs
import proofs.«171496_j80513456930853_1_alg».proof.Proof.Gen.KernelIdeal
import proofs.«171496_j80513456930853_1_alg».proof.Proof.Gen.Pre_finite_inputs
import proofs.«171496_j80513456930853_1_alg».proof.Proof.Finite
import Idealize.ShloMosaic.Lib.ReduceAll
import Idealize.ShloMosaic.Lib.ValueIdx

noncomputable section

/-! # The precondition makes the running probability's input real

The precondition is the conjunction, over the eighteen arguments, of "every entry has absolute value below `+∞`".
Its fourth conjunct says so of `cum`; an extended real whose absolute value is below `+∞` is a real number. -/

namespace Cert.PreCum

open Idealize.ShloMosaic Idealize.SL.Sem

/-- A rank-0 array has one index. -/
instance : Subsingleton Cert.Pre_finite_inputs.S_.Idx := ⟨fun a b => funext fun d => d.elim0⟩

/-- The word `0x7F800000` is `+∞`. -/
theorem ofBits_inf : Ideal.ofBits .f32 0x7F800000#32 = (⊤ : EReal) := by
  simp [Ideal.ofBits, Ideal.ieee]

/-- An extended real whose absolute value `max x (-x)` is below `+∞` is a real number: both infinities have
    absolute value `+∞`, which is not below itself. -/
theorem isReal_of_abs_lt_top (x : EReal) (h : Ideal.cmp .olt (max x (-x)) (⊤ : EReal) = 1#1) :
    Cert.Finite.IsReal x := by
  induction x using EReal.rec with
  | bot => simp [Ideal.cmp] at h
  | coe r => exact ⟨r, rfl⟩
  | top => simp [Ideal.cmp] at h

/-- The precondition's test of one entry, `|x| < 0x7F800000` at the extended reals, makes the entry a real number:
    there the absolute value is `max x (-x)`, the comparison is the linear order's, and the word is `+∞`. -/
theorem isReal_of_test (x : Ideal .f32)
    (h : FloatOps.cmpf .olt (FloatOps.hostAbsf x) (FloatOps.ofBits (F := Ideal) .f32 0x7F800000#32) = 1#1) :
    Cert.Finite.IsReal x := by
  have h' : Ideal.cmp .olt (max x (-x)) (Ideal.ofBits .f32 0x7F800000#32) = 1#1 := h
  rw [ofBits_inf] at h'
  exact isReal_of_abs_lt_top x h'

/-- A pointwise `and` of two one-bit arrays that is 1 at an index has its left operand 1 there. -/
theorem andi_left {s : Shape} (x y : IVec s 1) (j : s.Idx) (h : andi x y j = 1#1) : x j = 1#1 :=
  (IntOp.andi_eq_one.1 h).1

/-- And its right operand is 1 there too. -/
theorem andi_right {s : Shape} (x y : IVec s 1) (j : s.Idx) (h : andi x y j = 1#1) : y j = 1#1 :=
  (IntOp.andi_eq_one.1 h).2

/-- Under the precondition every entry of `cum` is a real number. -/
theorem cum_isReal (m : (ℓ : Loc Cert.KernelIdeal.nD Cert.KernelIdeal.τ Cert.KernelIdeal.sig) → Buf (Elt Ideal) ℓ)
    (hpre : Cert.Pre_KernelIdeal m) (c : Dev Cert.KernelIdeal.nD) (i : Cert.KernelIdeal.S16384x1.Idx) :
    Cert.Finite.IsReal
      ((m ((c.tc : Thread Cert.KernelIdeal.nD Cert.KernelIdeal.τ).loc Cert.KernelIdeal.main_arg3) : Cert.KernelIdeal.S16384x1.Idx → Ideal .f32) i) := by
  -- the precondition at the one index of its rank-0 result, as a nest of seventeen `and`s over eighteen tests
  have h0 := congrFun (hpre c) ValueIdx.ix0
  dsimp only [Cert.Pre_finite_inputs.fn, Cert.Pre_finite_inputs.fn_part1, Cert.Pre_finite_inputs.fn_part2,
    Cert.Pre_finite_inputs.fn_part3, Cert.Pre_finite_inputs.fn_part4, Cert.Pre_finite_inputs.fn_part5] at h0
  -- the tests of arguments 17 down to 4 are the right operands of the fourteen outer `and`s: drop them
  have h1 := andi_left _ _ _ h0
  have h2 := andi_left _ _ _ h1
  have h3 := andi_left _ _ _ h2
  have h4 := andi_left _ _ _ h3
  have h5 := andi_left _ _ _ h4
  have h6 := andi_left _ _ _ h5
  have h7 := andi_left _ _ _ h6
  have h8 := andi_left _ _ _ h7
  have h9 := andi_left _ _ _ h8
  have h10 := andi_left _ _ _ h9
  have h11 := andi_left _ _ _ h10
  have h12 := andi_left _ _ _ h11
  have h13 := andi_left _ _ _ h12
  have h14 := andi_left _ _ _ h13
  -- the test of `cum` is the right operand of the next one
  have hr := andi_right _ _ _ h14
  -- an `and` over all entries that is 1 had a 1 at every entry
  have he := Host.reduce_andi_all _ _ _ _ _ hr i
  -- at the entry the test is `|cum i| < +∞`
  exact isReal_of_test _ he

end Cert.PreCum

end
-- ==== Proof.lean ====
/-
  One step of a gated LSTM cell with a skip gate, as one pipelined kernel over 32 blocks of 512 rows, against the same
  step written with whole-array host operations.

  Both programs compute, from `x`, `h`, `c`, `cum` and the weights: the plain LSTM step's cell and hidden state `c₁`, `h₁`;
  the skip gate's increment `δ` and the threshold `θ`; the running probability `p = cum + min δ (1 − cum)`; the truth
  value `u = [p > θ]`; and the results `g·h₁ + (1 − g)·h`, `g·c₁ + (1 − g)·c`, `(1 − g)·p`, `δ`, `p`. The kernel takes the
  gate `g` to be `u`; the reference takes `g = p + (u − p)`. On the extended reals these agree exactly when `p` is a real
  number, and it is: the logistic function's values are real at every extended real, so `p` is real as soon as `cum`
  is, which is what the precondition gives. That is the only use of the precondition.

  Everything else is row by row. Each grid point's stores are rows `512·t …` of ONE whole-array function of the
  arguments (a matrix-unit product of a block of rows with a shared matrix is the block of rows of the host's product;
  bias rows, column slices, the logistic function spelt out, comparisons and choices all commute with taking rows),
  the 32 blocks cover each output array, and the program's last two operations read the first two arrays as
  `[1, 16384, 512]`. The reference's stages are the same whole-array functions, stage by stage.
-/
import proofs.«171496_j80513456930853_1_alg».proof.Defs
import proofs.«171496_j80513456930853_1_alg».proof.Proof.Gen.Kernel
import proofs.«171496_j80513456930853_1_alg».proof.Proof.Gen.Kernel.Skeleton
import proofs.«171496_j80513456930853_1_alg».proof.Proof.Gen.Kernel.Launch
import proofs.«171496_j80513456930853_1_alg».proof.Proof.Gen.Kernel.Points
import proofs.«171496_j80513456930853_1_alg».proof.Proof.Gen.Kernel.Frame
import proofs.«171496_j80513456930853_1_alg».proof.Proof.Gen.KernelIdeal
import proofs.«171496_j80513456930853_1_alg».proof.Proof.Gen.KernelIdeal.Skeleton
import proofs.«171496_j80513456930853_1_alg».proof.Proof.Gen.KernelIdeal.Launch
import proofs.«171496_j80513456930853_1_alg».proof.Proof.Gen.KernelIdeal.Points
import proofs.«171496_j80513456930853_1_alg».proof.Proof.Gen.KernelIdeal.Frame
import proofs.«171496_j80513456930853_1_alg».proof.Proof.Gen.ReferenceIdeal
import proofs.«171496_j80513456930853_1_alg».proof.Proof.Gen.Pre_finite_inputs
import proofs.«171496_j80513456930853_1_alg».proof.Proof.Gen.ReferenceIdeal.Run
import proofs.«171496_j80513456930853_1_alg».proof.Proof.Gen.ReferenceIdeal.Read
import proofs.«171496_j80513456930853_1_alg».proof.Proof.Arrays
import proofs.«171496_j80513456930853_1_alg».proof.Proof.Meet
import proofs.«171496_j80513456930853_1_alg».proof.Proof.PreCum
import Idealize.ShloMosaic.Adequacy
import Idealize.ShloMosaic.Init

noncomputable section

namespace Cert.Proof

open Idealize.ShloMosaic Idealize.ShloMosaic.TcCoe Idealize.SL.Sem

/-- The kernel as printed runs and leaves its arguments alone. -/
theorem frame_kernel : Cert.frame_Kernel := fun m ρ _ => Cert.Kernel.Gen.frame m ρ

/-- So does its reading over the extended reals. -/
theorem frame_kernelIdeal : Cert.frame_KernelIdeal := fun m ρ _ => Cert.KernelIdeal.Gen.frame m ρ

/-- The reference is a list of host operations: its run, with the five results dropped. -/
theorem frame_referenceIdeal : Cert.frame_ReferenceIdeal := fun m ρ _ =>
  (θ_run Cert.ReferenceIdeal.defs _ _).mono (fun _ h c => (h c).2.2.2.2.2) (Cert.ReferenceIdeal.Value.run (F := Ideal) m ρ)

/-- The idealization rewrote nothing. -/
theorem preserves : Cert.preserves_Kernel_KernelIdeal := trivial

/-- From memories that agree on the arguments, both programs end with the same five results: the kernel's arrays are
    the whole-array functions of its arguments, the reference's stages are the same functions of its own, and under
    the precondition `cum` is real, so the reference's gate `p + (u − p)` is the kernel's `u`. -/
theorem algebraic : Cert.algebraic_KernelIdeal_ReferenceIdeal := by
  intro m ρ m' ρ' hpre hagree
  refine ⟨fun c => Cert.Cell.lift (Cert.KernelIdeal.Arrays.resH m c), fun c => Cert.Cell.lift (Cert.KernelIdeal.Arrays.resC m c),
    fun c => Cert.KernelIdeal.Arrays.resU m c, fun c => Cert.KernelIdeal.Arrays.resD m c, fun c => Cert.KernelIdeal.Arrays.resP m c,
    Cert.KernelIdeal.Arrays.kernel_run m ρ, ?_⟩
  refine (θ_run Cert.ReferenceIdeal.defs _ _).mono (fun r h c => ?_) (Cert.ReferenceIdeal.Value.run (F := Ideal) m' ρ')
  obtain ⟨r0, r1, r2, r3, r4, rk⟩ := h c
  obtain ⟨e0, e1, e2, e3, e4, e5, e6, e7, e8, e9, e10, e11, e12, e13, e14, e15, e16, e17⟩ := hagree c
  have hcum : ∀ i, Cert.Finite.IsReal
      ((m ((c.tc : Thread Cert.KernelIdeal.nD Cert.KernelIdeal.τ).loc Cert.KernelIdeal.main_arg3) : Cert.KernelIdeal.S16384x1.Idx → Ideal .f32) i) :=
    fun i => Cert.PreCum.cum_isReal m hpre c i
  refine ⟨?_, ?_, ?_, ?_, ?_, rk⟩
  · rw [r0, Cert.ReferenceIdeal.Read.val_main_v110_eq, e0, e1, e2, e3, e4, e5, e6, e7, e8, e9, e10, e11, e12, e13, e14, e15, e16, e17]
    exact Cert.Meet.newH_meet _ _ _ _ _ _ _ _ _ _ _ _ _ _ _ _ _ _ hcum
  · rw [r1, Cert.ReferenceIdeal.Read.val_main_v119_eq, e0, e1, e2, e3, e4, e5, e6, e7, e8, e9, e10, e11, e12, e13, e14, e15, e16, e17]
    exact Cert.Meet.newC_meet _ _ _ _ _ _ _ _ _ _ _ _ _ _ _ _ _ _ hcum
  · rw [r2, Cert.ReferenceIdeal.Read.val_main_v122_eq, e0, e1, e2, e3, e4, e5, e6, e7, e8, e9, e10, e11, e12, e13, e14, e15, e16, e17]
    exact Cert.Meet.newCum_meet _ _ _ _ _ _ _ _ _ _ _ _ _ _ _ _ _ _ hcum
  · rw [r3, Cert.ReferenceIdeal.Read.val_main_v71_eq, e0, e1, e2, e4, e5, e6, e7, e8, e9, e10, e11, e12, e13]
    exact Cert.Meet.delta_meet _ _ _ _ _ _ _ _ _ _ _ _ _
  · rw [r4, Cert.ReferenceIdeal.Read.val_main_v97_eq, e0, e1, e2, e3, e4, e5, e6, e7, e8, e9, e10, e11, e12, e13]
    exact Cert.Meet.prob_meet _ _ _ _ _ _ _ _ _ _ _ _ _ _

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
